-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  main_v38

def fn_part1 {F : FTy → Type} [FloatOps F] (main_arg4 : FVec F S16x4096 .f32) (main_arg5 : FVec F S4096x16 .f32) (main_arg6 : FVec F S4096 .f32) (main_arg7 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4x2048x4096 .f32) (main_arg1 : FVec F S4096x4096 .f32) (main_arg2 : FVec F S4096x4096 .f32) (main_arg3 : FVec F S4096 .f32) (main_arg4 : FVec F S16x4096 .f32) (main_arg5 : FVec F S4096x16 .f32) (main_arg6 : FVec F S4096 .f32) (main_arg7 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S4096x1 : Shape := ⟨2, ![4096, 1]⟩
abbrev S1x1 : Shape := ⟨2, ![1, 1]⟩
abbrev S256x4096 : Shape := ⟨2, ![256, 4096]⟩
abbrev S256x1 : Shape := ⟨2, ![256, 1]⟩
abbrev S256x16 : Shape := ⟨2, ![256, 16]⟩
abbrev S256 : Shape := ⟨1, ![256]⟩
abbrev S1 : Shape := ⟨1, ![1]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 32
  | .vmem => 36
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S4096x4096, .f32⟩
  | .hbm, ⟨8, _⟩ => ⟨S4096x1, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .i1⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S4096x4096, .bf16⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S256x16, .f32⟩
  | .local _ .vmem, ⟨7, _⟩ => ⟨S256x16, .f32⟩
  | .local _ .vmem, ⟨8, _⟩ => ⟨S16x4096, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | .local _ .vmem, ⟨19, _⟩ => ⟨S256x1, .f32⟩
  | .local _ .vmem, ⟨20, _⟩ => ⟨S256x1, .f32⟩
  | .local _ .vmem, ⟨21, _⟩ => ⟨S256x16, .f32⟩
  | .local _ .vmem, ⟨22, _⟩ => ⟨S256x16, .f32⟩
  | .local _ .vmem, ⟨23, _⟩ => ⟨S16x4096, .f32⟩
  | .local _ .vmem, ⟨24, _⟩ => ⟨S1x1, .f32⟩
  | .local _ .vmem, ⟨25, _⟩ => ⟨S256x4096, .bf16⟩
  | .local _ .vmem, ⟨26, _⟩ => ⟨S256x4096, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .bf16⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v40 : BitVec 1 := Scalar.cmpi .eq arg0 c15_i32
  let v41 : BitVec 32 := Scalar.extui v40
  let c0_i32_27 : BitVec 32 := 0#32
  let v42 : BitVec 1 := Scalar.cmpi .ne v41 c0_i32_27
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S16x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x16_S256x16_0_0 : ∀ a, (![0, 0] : Fin 2 → Nat) a + S256x16.size a ≤ S256x16.size a
  h_S256x16 : 0 < S256x16.numel
  inb_S16x4096_S16x4096_0_0 : ∀ a, (![0, 0] : Fin 2 → Nat) a + S16x4096.size a ≤ S16x4096.size a
  h_S16x4096 : 0 < S16x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  shapeCasts_S_S1x1 : S_.ShapeCasts S1x1
  inpos_S1x1_p0_0 : ∀ a, (![0, 0] : Fin 2 → Nat) a < S1x1.size a
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S256x16_S16x4096_S256x4096_1_0_0_1_n_n_wf : DotDims.WF S256x16 S16x4096 S256x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S4096x16.size a
  hwx0_3 : ∀ i : grid0.Coords, EltTy.bits .f32 = 32 ∨ (Rect.block (s := S4096x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x4096.size a
  hwx0_4 : ∀ i : grid0.Coords, EltTy.bits .f32 = 32 ∨ (Rect.block (s := S16x4096) S16x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .f32 = 32 ∨ (Rect.block (s := S4096x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x16.size a ≤ S4096x16.size a
  hwx1_4 : ∀ i : grid1.Coords, EltTy.bits .f32 = 32 ∨ (Rect.block (s := S4096x16) S256x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x4096.size a ≤ S16x4096.size a
  hwx1_5 : ∀ i : grid1.Coords, EltTy.bits .f32 = 32 ∨ (Rect.block (s := S16x4096) S16x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x4096.size a ≤ S4096x4096.size a
  hwx1_7 : ∀ i : grid1.Coords, EltTy.bits .bf16 = 32 ∨ (Rect.block (s := S4096x4096) S256x4096.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .f32 = 32 ∨ (Rect.block (s := S8192x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S16x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S256x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .i1⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4x2048x4096, .f32⟩
  | .hbm, ⟨47, _⟩ => ⟨S1x1x4096, .f32⟩
  | .hbm, ⟨48, _⟩ => ⟨S4x2048x4096, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v11 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_call2_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  reducesTo_S4096x4096_S_d0_1 : S4096x4096.ReducesTo [0, 1] S_
  h_S_ : 0 < S_.numel
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.R0Data.lean ====
/-
  The first launch: the two squared Frobenius norms, accumulated over 16 blocks of 256 rows.
  At grid point t the body holds rows 256 t .. 256 t + 255 of W0, of the Fisher mask, of the row
  magnitudes (as a column) and of the low-rank factor B, and all of A. It adds the block's sum of squares of W0
  onto one [1,1] scratch cell and the block's sum of squares of the gated update
      dw = (m ⊙ (1 · B A)) / (1 + 10 · fisher)
  onto another, both cells reset to zero at the first point, and at the last point copies the two cells out.
  This module fixes the data: the blocks, the two running totals as recursions over the point's number,
  and the pipeline's proof data (what each window's buffer holds after the body; the invariant that carries
  the two cells from one point to the next).
-/
import proofs.«135257_j31001073942670_1_alg».proof.Proof.Gen.Kernel.Launch
import proofs.«135257_j31001073942670_1_alg».proof.Proof.Gen.Kernel.Skeleton
import proofs.«135257_j31001073942670_1_alg».proof.Proof.Gen.Kernel.Points
import Idealize.ShloMosaic.Lib.Pipeline.FrameBody
import Idealize.ShloMosaic.Lib.Pipeline.Frame

set_option maxRecDepth 16384

noncomputable section

namespace Cert.Kernel.R0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks by their literal types: 256 rows of W0, of the Fisher mask, of the magnitudes' column, of B; and A whole. -/
abbrev w0blk (c : Dev nD) (t : Fin cfg0.N) : Vec F S256x4096 .f32 := iblk V c 0 t
abbrev fblk (c : Dev nD) (t : Fin cfg0.N) : Vec F S256x4096 .f32 := iblk V c 1 t
abbrev mblk (c : Dev nD) (t : Fin cfg0.N) : Vec F S256x1 .f32 := iblk V c 2 t
abbrev bblk (c : Dev nD) (t : Fin cfg0.N) : Vec F S256x16 .f32 := iblk V c 3 t
abbrev ablk (c : Dev nD) (t : Fin cfg0.N) : Vec F S16x4096 .f32 := iblk V c 4 t

/-- Grid point number `n` (past the end: the last point; never read there). -/
def pt (n : ℕ) : Fin cfg0.N := ⟨min n 15, by have := N_0; show min n 15 < grid0.N; omega⟩

theorem pt_val (t : Fin cfg0.N) : pt t.val = t := by
  have := N_0; have h : t.val < grid0.N := t.isLt
  apply Fin.ext; show min t.val 15 = t.val; omega

/-- The running total of ‖W0‖² after `n` points: zero, then each block's sum of squares added on. -/
def accW0 (c : Dev nD) : ℕ → Vec F S1x1 .f32
  | 0 => k0_pay3
  | n + 1 => k0_pay1 (k0_pay6 (w0blk V c (pt n)) (w0blk V c (pt n)) (accW0 c n))

/-- The running total of ‖dw‖² after `n` points: zero, then each block's sum of squares of the gated update added on. -/
def accDw (c : Dev nD) : ℕ → Vec F S1x1 .f32
  | 0 => k0_pay4
  | n + 1 => k0_pay2 (k0_pay5 (bblk V c (pt n)) (ablk V c (pt n)) (mblk V c (pt n)) (fblk V c (pt n))) (accDw c n)

/-- The invariant before point number `n`: before the first point every scoped buffer no window stages at anything;
    afterwards the two cells at the running totals, the remaining scoped buffers untouched. -/
def PhiS (c : Dev nD) : ℕ → sProp 𝕄
  | 0 => Pipeline.scopedRest (Ix := Unit) (Name := ℕ) (U := UR sig nD τ) (Lvl := ℕ) (Val := Elt F) spec0 c
  | n + 1 => iprop(owns (c : Thread nD τ) (Memref.whole cc0_scratch0) fullShare (accW0 V c (n + 1))
      ∗ owns (c : Thread nD τ) (Memref.whole cc0_scratch1) fullShare (accDw V c (n + 1))
      ∗ Pipeline.scopedRestBut (Ix := Unit) (Name := ℕ) (U := UR sig nD τ) (Lvl := ℕ) (Val := Elt F) spec0 c [cc0_scratch0, cc0_scratch1])

/-- The proof data of the first launch's pipeline on core `c`: the arrays as the region finds them; after the body
    each input's buffer at its block, each output's at the running total so far (read only at the last point, the
    one that copies the cells out); the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => accW0 V c (t.val + 1)
    | ⟨6, _⟩ => accDw V c (t.val + 1)
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = accW0 V c (t.val + 1) := by dsimp only [dat]
theorem after_6 (c : Dev nD) (t : Fin cfg0.N) : (dat V c).after 6 t = accDw V c (t.val + 1) := by dsimp only [dat]

theorem Phi_eq (c : Dev nD) (t : Fin (cfg0.N + 1)) : (dat V c).Φ t = PhiS V c t.val := by dsimp only [dat]

end Cert.Kernel.R0

end
-- ==== Proof.K.R1Data.lean ====
/-
  The second launch: the effective weight, 256 rows at a time. At grid point t the body holds rows 256 t .. 256 t + 255
  of W0, of the accumulated weight, of the Fisher mask, of the row magnitudes (as a column) and of B, all of A, and the
  [1,1] clamp factor, and stores the block
      (W0 + W_acc) + ((m ⊙ (1 · B A)) / (1 + 10 · fisher)) · factor
  narrowed to bf16. Nothing is carried from one point to the next. This module fixes the data: the blocks and the
  pipeline's proof data.
-/
import proofs.«135257_j31001073942670_1_alg».proof.Proof.Gen.Kernel.Launch
import proofs.«135257_j31001073942670_1_alg».proof.Proof.Gen.Kernel.Skeleton
import proofs.«135257_j31001073942670_1_alg».proof.Proof.Gen.Kernel.Points
import Idealize.ShloMosaic.Lib.Pipeline.FrameBody
import Idealize.ShloMosaic.Lib.Pipeline.Frame

set_option maxRecDepth 16384

noncomputable section

namespace Cert.Kernel.R1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks by their literal types. -/
abbrev w0blk (c : Dev nD) (t : Fin cfg1.N) : Vec F S256x4096 .f32 := iblk V c 0 t
abbrev waccblk (c : Dev nD) (t : Fin cfg1.N) : Vec F S256x4096 .f32 := iblk V c 1 t
abbrev fblk (c : Dev nD) (t : Fin cfg1.N) : Vec F S256x4096 .f32 := iblk V c 2 t
abbrev mblk (c : Dev nD) (t : Fin cfg1.N) : Vec F S256x1 .f32 := iblk V c 3 t
abbrev bblk (c : Dev nD) (t : Fin cfg1.N) : Vec F S256x16 .f32 := iblk V c 4 t
abbrev ablk (c : Dev nD) (t : Fin cfg1.N) : Vec F S16x4096 .f32 := iblk V c 5 t
abbrev facblk (c : Dev nD) (t : Fin cfg1.N) : Vec F S1x1 .f32 := iblk V c 6 t

/-- The block of the effective weight the body stores at point `t`. -/
def outblk (c : Dev nD) (t : Fin cfg1.N) : Vec F S256x4096 .bf16 :=
  k1_pay1 (bblk V c t) (ablk V c t) (mblk V c t) (fblk V c t) (facblk V c t) (w0blk V c t) (waccblk V c t)

/-- The proof data of the second launch's pipeline on core `c`: the arrays as the region finds them; after the body
    each input's buffer at its block, the output's at the stored block; the invariant the scoped buffers no window
    stages, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outblk V c t
  Φ _ := Pipeline.scopedRest (Ix := Unit) (Name := ℕ) (U := UR sig nD τ) (Lvl := ℕ) (Val := Elt F) spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = outblk V c t := by dsimp only [dat]

theorem Phi_eq (c : Dev nD) (t : Fin (cfg1.N + 1)) :
    (dat V c).Φ t = Pipeline.scopedRest (Ix := Unit) (Name := ℕ) (U := UR sig nD τ) (Lvl := ℕ) (Val := Elt F) spec1 c := by dsimp only [dat]

end Cert.Kernel.R1

end
-- ==== Proof.K.R2Data.lean ====
/-
  The third launch: y = x · W_effᵀ + bias over an 8 x 4 x 4 grid of 1024 x 1024 tiles, the contraction axis innermost.
  Point number t is (i, j, k) with k = t mod 4. The body holds the (i, k) tile of x, the (j, k) tile of the effective
  weight (bf16) and the j-th 1024 entries of the bias as a row. A [1024, 1024] scratch tile carries the partial product:
  reset to zero where k = 0, then x-tile · w-tileᵀ added on; where k = 3 the output tile (i, j) is stored as the total plus
  the bias row repeated down the rows. This module fixes the data: the tiles, the partial product as a recursion over the
  point's number, and the pipeline's proof data.
-/
import proofs.«135257_j31001073942670_1_alg».proof.Proof.Gen.Kernel.Launch
import proofs.«135257_j31001073942670_1_alg».proof.Proof.Gen.Kernel.Skeleton
import proofs.«135257_j31001073942670_1_alg».proof.Proof.Gen.Kernel.Points
import Idealize.ShloMosaic.Lib.Pipeline.FrameBody
import Idealize.ShloMosaic.Lib.Pipeline.Frame

set_option maxRecDepth 16384

noncomputable section

namespace Cert.Kernel.R2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tiles by their literal types. -/
abbrev xblk (c : Dev nD) (t : Fin cfg2.N) : Vec F S1024x1024 .f32 := iblk V c 0 t
abbrev wblk (c : Dev nD) (t : Fin cfg2.N) : Vec F S1024x1024 .bf16 := iblk V c 1 t
abbrev biasblk (c : Dev nD) (t : Fin cfg2.N) : Vec F S1x1024 .f32 := iblk V c 2 t

/-- Grid point number `n` (past the end: the last point; never read there). -/
def pt (n : ℕ) : Fin cfg2.N := ⟨min n 127, by have := N_2; show min n 127 < grid2.N; omega⟩

theorem pt_val (t : Fin cfg2.N) : pt t.val = t := by
  have := N_2; have h : t.val < grid2.N := t.isLt
  apply Fin.ext; show min t.val 127 = t.val; omega

/-- The scratch tile after `n` points: at point `n` the tile product is added onto zero where the contraction block
    is the first (`n mod 4 = 0`), else onto what the point before left. -/
def acc (c : Dev nD) : ℕ → Vec F S1024x1024 .f32
  | 0 => k2_pay1
  | n + 1 => k2_pay2 (xblk V c (pt n)) (wblk V c (pt n)) (if n % 4 = 0 then k2_pay1 else acc c n)

theorem acc_succ (c : Dev nD) (n : ℕ) :
    acc V c (n + 1) = k2_pay2 (xblk V c (pt n)) (wblk V c (pt n)) (if n % 4 = 0 then k2_pay1 else acc V c n) := rfl

/-- The output tile stored at a point whose contraction block is the last: the total plus the bias row. -/
def outblk (c : Dev nD) (t : Fin cfg2.N) : Vec F S1024x1024 .f32 :=
  k2_pay3 (acc V c (t.val + 1)) (biasblk V c t)

/-- The invariant before point number `n`: before the first point every scoped buffer no window stages at anything;
    afterwards the scratch tile at the partial product, the remaining scoped buffers untouched. -/
def PhiS (c : Dev nD) : ℕ → sProp 𝕄
  | 0 => Pipeline.scopedRest (Ix := Unit) (Name := ℕ) (U := UR sig nD τ) (Lvl := ℕ) (Val := Elt F) spec2 c
  | n + 1 => iprop(owns (c : Thread nD τ) (Memref.whole cc2_scratch0) fullShare (acc V c (n + 1))
      ∗ Pipeline.scopedRestBut (Ix := Unit) (Name := ℕ) (U := UR sig nD τ) (Lvl := ℕ) (Val := Elt F) spec2 c [cc2_scratch0])

/-- The proof data of the third launch's pipeline on core `c`: the arrays as the region finds them; after the body
    each input's buffer at its tile, the output's at the stored tile (read only where the contraction block is the last);
    the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outblk V c t
  Φ t := PhiS V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outblk V c t := by dsimp only [dat]

theorem Phi_eq (c : Dev nD) (t : Fin (cfg2.N + 1)) : (dat V c).Φ t = PhiS V c t.val := by dsimp only [dat]

end Cert.Kernel.R2

end
-- ==== Proof.K.RunDefs.lean ====
/-
  The run of the three launches, its data. Between two items of the program core c holds every unscoped buffer at a
  valuation that is a fold from the launch memory: a host stretch applies its operations; a launch leaves its windows'
  arrays at what its write-backs make of them and every other buffer as it found it. This module names, per launch, the
  contents the launch is entered with (what its proof data are stated at) and the contents it leaves, stage by stage:
  the second launch's entry contents are built over what the first leaves, the third's over what the second leaves.
-/
import proofs.«135257_j31001073942670_1_alg».proof.Proof.Gen.Kernel.Regions
import proofs.«135257_j31001073942670_1_alg».proof.Proof.K.R0Data
import proofs.«135257_j31001073942670_1_alg».proof.Proof.K.R1Data
import proofs.«135257_j31001073942670_1_alg».proof.Proof.K.R2Data
import Idealize.ShloMosaic.Lib.Pipeline.FrameSuffix

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

variable (m : (ℓ : Loc nD τ sig) → Buf (Elt F) ℓ)

/-- What the first launch is entered with: the launch memory after the one reshape before it. -/
abbrev U1 : (c : Dev nD) → (b : Ref sig .tc) → Buf (Elt F) ((c : Thread nD τ).loc b) := fun c b => V1 m c b

/-- What the first launch leaves: its windows' arrays at what its write-backs make of them, the rest as entered. -/
def W2 (c : Dev nD) : Valuation τ sig (Elt F) :=
  Pipeline.withArrays spec0 c (V1 m c) fun w => (R0.dat (U1 m) c).arrAt w cfg0.N

/-- The contents the launches leave, first stage: only the first launch's are named. -/
def outs1 : Outs (F := F) := fun _ r c => W2 m c r

/-- What the second launch is entered with. -/
abbrev U5 : (c : Dev nD) → (b : Ref sig .tc) → Buf (Elt F) ((c : Thread nD τ).loc b) := fun c b => V5 m (outs1 m) c b

/-- What the second launch leaves. -/
def W6 (c : Dev nD) : Valuation τ sig (Elt F) :=
  Pipeline.withArrays spec1 c (V5 m (outs1 m) c) fun w => (R1.dat (U5 m) c).arrAt w cfg1.N

/-- The contents the launches leave, second stage: the first two launches' are named. -/
def outs2 : Outs (F := F) := fun J r c => if J = 2 then W2 m c r else W6 m c r

/-- What the third launch is entered with. -/
abbrev U7 : (c : Dev nD) → (b : Ref sig .tc) → Buf (Elt F) ((c : Thread nD τ).loc b) := fun c b => V7 m (outs2 m) c b

/-- What the third launch leaves. -/
def W8 (c : Dev nD) : Valuation τ sig (Elt F) :=
  Pipeline.withArrays spec2 c (V7 m (outs2 m) c) fun w => (R2.dat (U7 m) c).arrAt w cfg2.N

/-- The contents the three launches leave: what the run's valuations are read at. -/
def outs : Outs (F := F) := fun J r c => if J = 2 then W2 m c r else if J = 6 then W6 m c r else W8 m c r

/-- The later stages agree with the earlier ones where those are read. -/
theorem V5_outs (c : Dev nD) : V5 m (outs m) c = V5 m (outs1 m) c := rfl
theorem V7_outs (c : Dev nD) : V7 m (outs m) c = V7 m (outs2 m) c := rfl
theorem V2_outs (c : Dev nD) : V2 m (outs m) c = V2 m (outs1 m) c := rfl

/-- Every launch's proof data, each at its entry contents. -/
def pdats : (p : Fin 3) → (c : Dev nD) → Dat τ (Elt F) Unit ℕ (UR sig nD τ) ℕ (cfgs p) c
  | ⟨0, _⟩ => fun c => R0.dat (U1 m) c
  | ⟨1, _⟩ => fun c => R1.dat (U5 m) c
  | ⟨2, _⟩ => fun c => R2.dat (U7 m) c

end Cert.Kernel.Run

end
-- ==== Proof.K.R0Body.lean ====
/-
  Launch 0: the body's run at every grid point against the proof data of R0Data, and the invariant's two ends.
-/
import proofs.«135257_j31001073942670_1_alg».proof.Proof.K.R0Data
import Idealize.ShloMosaic.Lib.Tactic
import Idealize.ShloMosaic.Lib.Ring
import Idealize.ShloMosaic.Lib.Pipeline.Value

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer loads and stores -/

theorem hz2 : (![0, 0] : Fin 2 → Nat) = fun _ => 0 := funext fun a => by fin_cases a <;> rfl

section Whole
variable {κ : Kind} {sp : Space} {S : Shape} {e : EltTy}

/-- A load of a whole buffer (the unit rectangle at offset zero) reads its contents. -/
theorem readAt_all (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- A store of a whole buffer, last, leaves its payload. -/
theorem read_writes_all (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

end Whole

/-! ## The body's two conditions, decided over the grid -/

/-- The reset's condition from the grid coordinates. -/
abbrev cond1 (i : grid0.Coords) : Prop := (Scalar.cmpi .ne (Scalar.extui (Scalar.cmpi .eq (BitVec.ofNat 32 (i 0).val) 0#32)) 0#32) = 1#1
/-- The copy-out's condition. -/
abbrev cond2 (i : grid0.Coords) : Prop := k0_cond2 i = 1#1

/-- The reset happens at the first point only, the copy-out at the last only. -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val % 16 = 15 :=
  (by decide +kernel : ∀ t : Fin grid0.N, cond2 (grid0.coords t) ↔ t.val % 16 = 15)

/-! ## The body on any whole memrefs, case by case

Each case takes the five inputs at read contents `x1 … x5` (rows of W0, of the Fisher mask, the magnitudes' column,
rows of B, all of A), and hands them back unchanged; the two cells end at the running totals' next step. -/

set_option maxHeartbeats 1000000 in
/-- The body at the first point. -/
theorem run_first (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x16 .f32) (harg4 : arg4.IsWhole) (arg5 : Memref sig .tc .vmem S16x4096 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc1 : cond1 i) (hc2 : ¬cond2 i)
    (x1 : Vec F S256x4096 .f32) (x2 : Vec F S256x4096 .f32) (x3 : Vec F S256x1 .f32) (x4 : Vec F S256x16 .f32) (x5 : Vec F S16x4096 .f32)
    (y6 y7 : Vec F S1x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare y6
        ∗ owns (c : Thread nD τ) arg7 fullShare y7
        ∗ (∃ d, owns (c : Thread nD τ) arg8 fullShare d)
        ∗ (∃ d, owns (c : Thread nD τ) arg9 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare y6
            ∗ owns (c : Thread nD τ) arg7 fullShare y7
            ∗ owns (c : Thread nD τ) arg8 fullShare (k0_pay1 (k0_pay6 x1 x1 k0_pay3))
            ∗ owns (c : Thread nD τ) arg9 fullShare (k0_pay2 (k0_pay5 x4 x5 x3 x2) k0_pay4)) -∗ K ⟨⟩))
      ⊢ wp frame (wpE (defs₀ (F := F)) Variants.none c none) E (cc0__norm_kernel i arg1 harg1 arg2 harg2 arg3 harg3 arg4 harg4 arg5 harg5 arg6 harg6 arg7 harg7 arg8 harg8 arg9 harg9) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := first | exact hc1 | exact hc2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  iexists _; isplitr
  swap; · iexact H9
  ipureintro
  sl_unfold_run_names
  rw [read_writes_all (S := S1x1) _ _ hz2]
  simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]

set_option maxHeartbeats 1000000 in
/-- The body at a point that is neither the first nor the last. -/
theorem run_mid (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x16 .f32) (harg4 : arg4.IsWhole) (arg5 : Memref sig .tc .vmem S16x4096 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc1 : ¬cond1 i) (hc2 : ¬cond2 i)
    (x1 : Vec F S256x4096 .f32) (x2 : Vec F S256x4096 .f32) (x3 : Vec F S256x1 .f32) (x4 : Vec F S256x16 .f32) (x5 : Vec F S16x4096 .f32)
    (y6 y7 s8 s9 : Vec F S1x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare y6
        ∗ owns (c : Thread nD τ) arg7 fullShare y7
        ∗ owns (c : Thread nD τ) arg8 fullShare s8
        ∗ owns (c : Thread nD τ) arg9 fullShare s9
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare y6
            ∗ owns (c : Thread nD τ) arg7 fullShare y7
            ∗ owns (c : Thread nD τ) arg8 fullShare (k0_pay1 (k0_pay6 x1 x1 s8))
            ∗ owns (c : Thread nD τ) arg9 fullShare (k0_pay2 (k0_pay5 x4 x5 x3 x2) s9)) -∗ K ⟨⟩))
      ⊢ wp frame (wpE (defs₀ (F := F)) Variants.none c none) E (cc0__norm_kernel i arg1 harg1 arg2 harg2 arg3 harg3 arg4 harg4 arg5 harg5 arg6 harg6 arg7 harg7 arg8 harg8 arg9 harg9) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | exact hc1 | exact hc2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  iexists _; isplitr
  swap; · iexact H9
  ipureintro
  sl_unfold_run_names
  rw [read_writes_all (S := S1x1) _ _ hz2]
  simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]

set_option maxHeartbeats 1000000 in
/-- The body at the last point. -/
theorem run_last (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x16 .f32) (harg4 : arg4.IsWhole) (arg5 : Memref sig .tc .vmem S16x4096 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc1 : ¬cond1 i) (hc2 : cond2 i)
    (x1 : Vec F S256x4096 .f32) (x2 : Vec F S256x4096 .f32) (x3 : Vec F S256x1 .f32) (x4 : Vec F S256x16 .f32) (x5 : Vec F S16x4096 .f32)
    (s8 s9 : Vec F S1x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ owns (c : Thread nD τ) arg8 fullShare s8
        ∗ owns (c : Thread nD τ) arg9 fullShare s9
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (k0_pay1 (k0_pay6 x1 x1 s8))
            ∗ owns (c : Thread nD τ) arg7 fullShare (k0_pay2 (k0_pay5 x4 x5 x3 x2) s9)
            ∗ owns (c : Thread nD τ) arg8 fullShare (k0_pay1 (k0_pay6 x1 x1 s8))
            ∗ owns (c : Thread nD τ) arg9 fullShare (k0_pay2 (k0_pay5 x4 x5 x3 x2) s9)) -∗ K ⟨⟩))
      ⊢ wp frame (wpE (defs₀ (F := F)) Variants.none c none) E (cc0__norm_kernel i arg1 harg1 arg2 harg2 arg3 harg3 arg4 harg4 arg5 harg5 arg6 harg6 arg7 harg7 arg8 harg8 arg9 harg9) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf1 hf2 hf3 hf4 hf5 hf8 hf9
  sl_exec (disch := first | exact hc1 | exact hc2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  isplitl [H7]
  · iexists _; isplitr
    swap; · iexact H7
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  isplitl [H8]
  · iexists _; isplitr
    swap; · iexact H8
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  iexists _; isplitr
  swap; · iexact H9
  ipureintro
  sl_unfold_run_names
  rw [read_writes_all (S := S1x1) _ _ hz2]
  simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]

/-! ## The pipeline's side: what the body finds and what it must leave -/

variable (V : (c : Dev nD) → (b : Ref sig .tc) → Buf (Elt F) ((c : Thread nD τ).loc b))

/-- Each input's current buffer holds its block at every point, fetched there or not: an unfetched window's block
    index has not moved since the point before, and the body leaves the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The inputs are never idle: the body leaves each at its block. -/
theorem leaves_0 (c : Dev nD) (t : Fin cfg0.N) :
    (dat V c).leavesExact 0 t = owns (c : Thread nD τ) (st0_0 t) fullShare (iblk V c 0 t) := by
  unfold Dat.leavesExact; rw [show cfg0.idle 0 (cfg0.grid.coords t) = false from rfl, after_0]
theorem leaves_1 (c : Dev nD) (t : Fin cfg0.N) :
    (dat V c).leavesExact 1 t = owns (c : Thread nD τ) (st0_1 t) fullShare (iblk V c 1 t) := by
  unfold Dat.leavesExact; rw [show cfg0.idle 1 (cfg0.grid.coords t) = false from rfl, after_1]
theorem leaves_2 (c : Dev nD) (t : Fin cfg0.N) :
    (dat V c).leavesExact 2 t = owns (c : Thread nD τ) (st0_2 t) fullShare (iblk V c 2 t) := by
  unfold Dat.leavesExact; rw [show cfg0.idle 2 (cfg0.grid.coords t) = false from rfl, after_2]
theorem leaves_3 (c : Dev nD) (t : Fin cfg0.N) :
    (dat V c).leavesExact 3 t = owns (c : Thread nD τ) (st0_3 t) fullShare (iblk V c 3 t) := by
  unfold Dat.leavesExact; rw [show cfg0.idle 3 (cfg0.grid.coords t) = false from rfl, after_3]
theorem leaves_4 (c : Dev nD) (t : Fin cfg0.N) :
    (dat V c).leavesExact 4 t = owns (c : Thread nD τ) (st0_4 t) fullShare (iblk V c 4 t) := by
  unfold Dat.leavesExact; rw [show cfg0.idle 4 (cfg0.grid.coords t) = false from rfl, after_4]

/-- Where the copy-out's condition fails the two outputs are idle and not written back; where it holds they are live. -/
theorem idle_5 : ∀ t : Fin cfg0.N, ¬cond2 (grid0.coords t) → cfg0.idle 5 (grid0.coords t) = true := by decide +kernel
theorem idle_6 : ∀ t : Fin cfg0.N, ¬cond2 (grid0.coords t) → cfg0.idle 6 (grid0.coords t) = true := by decide +kernel
theorem noFlush_5 : ∀ t : Fin cfg0.N, ¬cond2 (grid0.coords t) → (cfg0.win 5).flush t = false := by decide +kernel
theorem noFlush_6 : ∀ t : Fin cfg0.N, ¬cond2 (grid0.coords t) → (cfg0.win 6).flush t = false := by decide +kernel
theorem live_5 : ∀ t : Fin cfg0.N, cond2 (grid0.coords t) → cfg0.idle 5 (grid0.coords t) = false := by decide +kernel
theorem live_6 : ∀ t : Fin cfg0.N, cond2 (grid0.coords t) → cfg0.idle 6 (grid0.coords t) = false := by decide +kernel

/-- One step of each running total, at the point itself. -/
theorem accW0_succ (c : Dev nD) (t : Fin cfg0.N) :
    accW0 V c (t.val + 1) = k0_pay1 (k0_pay6 (w0blk V c t) (w0blk V c t) (accW0 V c t.val)) := by
  show k0_pay1 (k0_pay6 (w0blk V c (pt t.val)) (w0blk V c (pt t.val)) (accW0 V c t.val)) = _
  rw [pt_val]
theorem accDw_succ (c : Dev nD) (t : Fin cfg0.N) :
    accDw V c (t.val + 1) = k0_pay2 (k0_pay5 (bblk V c t) (ablk V c t) (mblk V c t) (fblk V c t)) (accDw V c t.val) := by
  show k0_pay2 (k0_pay5 (bblk V c (pt t.val)) (ablk V c (pt t.val)) (mblk V c (pt t.val)) (fblk V c (pt t.val))) (accDw V c t.val) = _
  rw [pt_val]
theorem accW0_zero (c : Dev nD) (n : ℕ) (h : n = 0) : accW0 V c n = k0_pay3 := by subst h; rfl
theorem accDw_zero (c : Dev nD) (n : ℕ) (h : n = 0) : accDw V c n = k0_pay4 := by subst h; rfl

/-- The invariant before the first point, before a later point, and after any point. -/
theorem PhiS_zero (c : Dev nD) (n : ℕ) (h : n = 0) : PhiS V c n = Pipeline.scopedRest (Ix := Unit) (Name := ℕ) (U := UR sig nD τ) (Lvl := ℕ) (Val := Elt F) spec0 c := by subst h; rfl
theorem PhiS_pos (c : Dev nD) (n : ℕ) (h : n ≠ 0) :
    PhiS V c n = iprop(owns (c : Thread nD τ) (Memref.whole cc0_scratch0) fullShare (accW0 V c n)
      ∗ owns (c : Thread nD τ) (Memref.whole cc0_scratch1) fullShare (accDw V c n)
      ∗ Pipeline.scopedRestBut (Ix := Unit) (Name := ℕ) (U := UR sig nD τ) (Lvl := ℕ) (Val := Elt F) spec0 c [cc0_scratch0, cc0_scratch1]) := by
  cases n with
  | zero => exact absurd rfl h
  | succ n => rfl
theorem PhiS_succ (c : Dev nD) (n : ℕ) :
    PhiS V c (n + 1) = iprop(owns (c : Thread nD τ) (Memref.whole cc0_scratch0) fullShare (accW0 V c (n + 1))
      ∗ owns (c : Thread nD τ) (Memref.whole cc0_scratch1) fullShare (accDw V c (n + 1))
      ∗ Pipeline.scopedRestBut (Ix := Unit) (Name := ℕ) (U := UR sig nD τ) (Lvl := ℕ) (Val := Elt F) spec0 c [cc0_scratch0, cc0_scratch1]) := rfl
theorem Phi_castSucc (c : Dev nD) (t : Fin cfg0.N) : (dat V c).Φ t.castSucc = PhiS V c t.val := by rw [Phi_eq]; rfl
theorem Phi_succ (c : Dev nD) (t : Fin cfg0.N) : (dat V c).Φ t.succ = PhiS V c (t.val + 1) := by rw [Phi_eq]; rfl

/-- The scoped rest with the two cells as memrefs owned at some contents. -/
theorem scoped_eq (c : Dev nD) :
    (Pipeline.scopedRest (Ix := Unit) (Name := ℕ) (U := UR sig nD τ) (Lvl := ℕ) (Val := Elt F) spec0 c : sProp 𝕄)
      = iprop(iprop((∃ d, owns (c : Thread nD τ) (Memref.whole cc0_scratch0) fullShare d) ∗ (∃ d, owns (c : Thread nD τ) (Memref.whole cc0_scratch1) fullShare d))
          ∗ Pipeline.scopedRestBut (Ix := Unit) (Name := ℕ) (U := UR sig nD τ) (Lvl := ℕ) (Val := Elt F) spec0 c [cc0_scratch0, cc0_scratch1]) := by
  rw [scopedRest0_split]; simp only [owns_whole]; try rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
/-- The body at any point. The inputs' memrefs hold their blocks; the point's number says which case it is in: at the
    first point the invariant is the scoped rest, whose two cells the body resets before it adds; at a later point the
    invariant hands the cells over at the totals so far; either way it takes them back at the totals after this point.
    Before the last point the outputs are idle and handed through untouched; at the last they receive the totals. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [Phi_castSucc, Phi_succ, PhiS_succ, accW0_succ, accDw_succ]
  rw [leaves_0, leaves_1, leaves_2, leaves_3, leaves_4]
  have hN : t.val < 16 := lt_of_lt_of_eq t.isLt (show cfg0.N = 16 from N_0)
  by_cases h0 : t.val = 0
  · have hc1 : cond1 (grid0.coords t) := (hcond1 t).mpr (by omega)
    have hc2 : ¬cond2 (grid0.coords t) := fun h => by have := (hcond2 t).mp h; omega
    rw [Dat.leavesExact_idle (dat V c) 5 t (idle_5 t hc2) (noFlush_5 t hc2),
      Dat.leavesExact_idle (dat V c) 6 t (idle_6 t hc2) (noFlush_6 t hc2)]
    rw [PhiS_zero V c t.val h0, scoped_eq, accW0_zero V c t.val h0, accDw_zero V c t.val h0]
    iintro ⟨⟨⟨HS8, HS9⟩, HR⟩, Ho, ⟨%d0, H0⟩, ⟨%d1, H1⟩, ⟨%d2, H2⟩, ⟨%d3, H3⟩, ⟨%d4, H4⟩, ⟨%d5, H5⟩, ⟨%d6, H6⟩⟩
    iapply (run_first c Set.univ (grid0.coords t) _ _ _ _ _ _ _ _ _ _ _ _ _ _ _ _ _ _ hc1 hc2 (w0blk V c t) (fblk V c t) (mblk V c t) (bblk V c t) (ablk V c t) ((dat V c).before 5 t d5) ((dat V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 HR]
    · isplitl [HS8]; · iexact HS8
      isplitl [HS9]; · iexact HS9
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6
  · have hc1 : ¬cond1 (grid0.coords t) := fun h => h0 (by have := (hcond1 t).mp h; omega)
    rw [PhiS_pos V c t.val h0]
    by_cases h15 : t.val = 15
    · have hc2 : cond2 (grid0.coords t) := (hcond2 t).mpr (by omega)
      rw [show (dat V c).leavesExact 5 t = owns (c : Thread nD τ) (st0_5 t) fullShare ((dat V c).after 5 t) from by
        unfold Dat.leavesExact; rw [live_5 t hc2]]
      rw [show (dat V c).leavesExact 6 t = owns (c : Thread nD τ) (st0_6 t) fullShare ((dat V c).after 6 t) from by
        unfold Dat.leavesExact; rw [live_6 t hc2]]
      rw [after_5, after_6, accW0_succ, accDw_succ]
      iintro ⟨⟨HS8, HS9, HR⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid0.coords t) _ _ _ _ _ _ _ _ _ _ _ _ _ _ _ _ _ _ hc1 hc2 (w0blk V c t) (fblk V c t) (mblk V c t) (bblk V c t) (ablk V c t) (accW0 V c t.val) (accDw V c t.val) _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 HR]
      · isplitl [HS8]; · iexact HS8
        isplitl [HS9]; · iexact HS9
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond2 (grid0.coords t) := fun h => h15 (by have := (hcond2 t).mp h; omega)
      rw [Dat.leavesExact_idle (dat V c) 5 t (idle_5 t hc2) (noFlush_5 t hc2),
        Dat.leavesExact_idle (dat V c) 6 t (idle_6 t hc2) (noFlush_6 t hc2)]
      iintro ⟨⟨HS8, HS9, HR⟩, Ho, ⟨%d0, H0⟩, ⟨%d1, H1⟩, ⟨%d2, H2⟩, ⟨%d3, H3⟩, ⟨%d4, H4⟩, ⟨%d5, H5⟩, ⟨%d6, H6⟩⟩
      iapply (run_mid c Set.univ (grid0.coords t) _ _ _ _ _ _ _ _ _ _ _ _ _ _ _ _ _ _ hc1 hc2 (w0blk V c t) (fblk V c t) (mblk V c t) (bblk V c t) (ablk V c t) ((dat V c).before 5 t d5) ((dat V c).before 6 t d6) (accW0 V c t.val) (accDw V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 HR]
      · isplitl [HS8]; · iexact HS8
        isplitl [HS9]; · iexact HS9
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dat V c).Φ 0 := by
  rw [Phi_eq, PhiS_zero V c ((0 : Fin (cfg0.N + 1)).val) (Fin.val_zero _)]

/-- After the last point the invariant gives the scoped buffers back, their contents forgotten. -/
theorem hout (c : Dev nD) :
    (dat V c).Φ (Fin.last cfg0.N) ⊢ (Pipeline.scopedRest (Ix := Unit) (Name := ℕ) (U := UR sig nD τ) (Lvl := ℕ) (Val := Elt F) spec0 c : sProp 𝕄) := by
  rw [Phi_eq, PhiS_pos V c _ (by rw [Fin.val_last]; have : cfg0.N = 16 := N_0; omega), scoped_eq]
  iintro ⟨HS8, HS9, HR⟩
  isplitl [HS8 HS9]
  · isplitl [HS8]; · iexists _; iexact HS8
    iexists _; iexact HS9
  iexact HR

end Cert.Kernel.R0

end
-- ==== Proof.K.R1Body.lean ====
/-
  Launch 1: the body's run at every grid point against the proof data of R1Data, and the invariant's two ends.
-/
import proofs.«135257_j31001073942670_1_alg».proof.Proof.K.R1Data
import Idealize.ShloMosaic.Lib.Pipeline.Value
import Idealize.ShloMosaic.Lib.Tactic
import Idealize.ShloMosaic.Lib.Ring

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets, however spelt. -/
theorem off0 : (![0, 0] : Fin 2 → ℕ) = fun _ => 0 := funext fun a => by fin_cases a <;> rfl

/-- The one store of the body covers the output's buffer. -/
theorem cover_out (p : Vec F S256x4096 .bf16) (y : S256x4096.Idx) :
    ∃ pc ∈ ([⟨Rect.unit (s := S256x4096) ![0, 0] S256x4096.size inb_S256x4096_S256x4096_0_0, p⟩] :
      List (View.Piece (Elt F) S256x4096 .bf16)), y ∈ pc.1.set :=
  ⟨_, List.mem_singleton_self _, View.mem_set_unit_zero off0 inb_S256x4096_S256x4096_0_0 y⟩

set_option maxHeartbeats 1000000 in
/-- The body on whole memrefs, the seven inputs at read contents and the output at anything, runs to the continuation
    holding the inputs as they were and the output at the payload of the inputs. -/
theorem sound_kernel (c : Dev nD) (E : Set ℕ) (i : grid1.Coords)
    (arg1 : Memref sig .tc .vmem S256x4096 .f32) (harg1 : arg1.IsWhole)
    (arg2 : Memref sig .tc .vmem S256x4096 .f32) (harg2 : arg2.IsWhole)
    (arg3 : Memref sig .tc .vmem S256x4096 .f32) (harg3 : arg3.IsWhole)
    (arg4 : Memref sig .tc .vmem S256x1 .f32) (harg4 : arg4.IsWhole)
    (arg5 : Memref sig .tc .vmem S256x16 .f32) (harg5 : arg5.IsWhole)
    (arg6 : Memref sig .tc .vmem S16x4096 .f32) (harg6 : arg6.IsWhole)
    (arg7 : Memref sig .tc .vmem S1x1 .f32) (harg7 : arg7.IsWhole)
    (arg8 : Memref sig .tc .vmem S256x4096 .bf16) (harg8 : arg8.IsWhole)
    (x1 : Vec F S256x4096 .f32) (x2 : Vec F S256x4096 .f32) (x3 : Vec F S256x4096 .f32) (x4 : Vec F S256x1 .f32)
    (x5 : Vec F S256x16 .f32) (x6 : Vec F S16x4096 .f32) (x7 : Vec F S1x1 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7
            ∗ owns (c : Thread nD τ) arg8 fullShare (k1_pay1 x5 x6 x4 x3 x7 x1 x2)) -∗ K ⟨⟩))
      ⊢ wp frame (wpE (defs₀ (F := F)) Variants.none c none) E
          (cc1__weff_kernel i arg1 harg1 arg2 harg2 arg3 harg3 arg4 harg4 arg5 harg5 arg6 harg6 arg7 harg7 arg8 harg8) K := by
  simp only [cc1__weff_kernel_eq_skeleton]; unfold cc1__weff_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover_out _),
    View.canon_unit_zero off0]
  simp only [View.readAt_eq_ld, View.ld_unit_zero (S := S256x16) off0, View.ld_unit_zero (S := S16x4096) off0,
    View.ld_unit_zero (S := S256x1) off0, View.ld_unit_zero (S := S256x4096) off0, View.ld_unit_zero (S := S1x1) off0]

variable (V : (c : Dev nD) → (b : Ref sig .tc) → Buf (Elt F) ((c : Thread nD τ).loc b))

/-! ## Each input's current buffer holds its block at every point, fetched there or not -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' memrefs hold their blocks, so the run on whole memrefs applies; the invariant
    and the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (w0blk V c t) (waccblk V c t) (fblk V c t) (mblk V c t) (bblk V c t) (ablk V c t) (facblk V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) :
    (Pipeline.scopedRest (Ix := Unit) (Name := ℕ) (U := UR sig nD τ) (Lvl := ℕ) (Val := Elt F) spec1 c : sProp 𝕄) ⊢ (dat V c).Φ 0 := by
  rw [Phi_eq]

/-- After the last point the invariant gives the scoped buffers back, their contents forgotten. -/
theorem hout (c : Dev nD) :
    (dat V c).Φ (Fin.last cfg1.N) ⊢ (Pipeline.scopedRest (Ix := Unit) (Name := ℕ) (U := UR sig nD τ) (Lvl := ℕ) (Val := Elt F) spec1 c : sProp 𝕄) := by
  rw [Phi_eq]

end Cert.Kernel.R1

end
-- ==== Proof.K.R2Body.lean ====
/-
  Launch 2: the body's run at every grid point against the proof data of R2Data, and the invariant's two ends.
-/
import proofs.«135257_j31001073942670_1_alg».proof.Proof.K.R2Data
import Idealize.ShloMosaic.Lib.Tactic
import Idealize.ShloMosaic.Lib.Ring
import Idealize.ShloMosaic.Lib.Pipeline.Value

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, in closed form over the grid -/

/-- The reset's condition (the contraction block is the first), as the body computes it from the coordinates. -/
abbrev condR (i : grid2.Coords) : Prop :=
  (Scalar.cmpi .ne (Scalar.extui (Scalar.cmpi .eq (BitVec.ofNat 32 (i 2).val) 0#32)) 0#32) = 1#1
/-- It holds at the points ≡ 0 (mod 4). -/
theorem hcondR : ∀ t : Fin cfg2.N, condR (grid2.coords t) ↔ t.val % 4 = 0 :=
  (by decide +kernel : ∀ t : Fin grid2.N, condR (grid2.coords t) ↔ t.val % 4 = 0)

/-- The output store's condition (the contraction block is the last). -/
abbrev condO (i : grid2.Coords) : Prop := k2_cond2 i = 1#1
/-- It holds at the points ≡ 3 (mod 4). -/
theorem hcondO : ∀ t : Fin cfg2.N, condO (grid2.coords t) ↔ t.val % 4 = 3 :=
  (by decide +kernel : ∀ t : Fin grid2.N, condO (grid2.coords t) ↔ t.val % 4 = 3)

/-- The inputs' windows are never idle. -/
theorem live_0 : ∀ t : Fin cfg2.N, cfg2.idle 0 (grid2.coords t) = false := fun _ => rfl
theorem live_1 : ∀ t : Fin cfg2.N, cfg2.idle 1 (grid2.coords t) = false := fun _ => rfl
theorem live_2 : ∀ t : Fin cfg2.N, cfg2.idle 2 (grid2.coords t) = false := fun _ => rfl
/-- The output's window is idle exactly where the body does not store it, and is not written back there. -/
theorem idle_3 : ∀ t : Fin cfg2.N, ¬condO (grid2.coords t) → cfg2.idle 3 (grid2.coords t) = true := by decide +kernel
theorem noFlush_3 : ∀ t : Fin cfg2.N, ¬condO (grid2.coords t) → (cfg2.win 3).flush t = false := by decide +kernel
theorem live_3 : ∀ t : Fin cfg2.N, condO (grid2.coords t) → cfg2.idle 3 (grid2.coords t) = false := by decide +kernel

/-! ## The whole-buffer rectangle -/

theorem zeros2 : (![0, 0] : Fin 2 → Nat) = fun _ => 0 := funext fun a => by fin_cases a <;> rfl

/-- A load through the whole-buffer rectangle reads the contents; one store through it, last, leaves its payload
    whatever was stored before; a load after it reads that payload. -/
theorem readAt_unit {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

theorem read_writes_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h inb w L]

/-- The three at the tile's shape and at the bias row's. -/
theorem readAt_T {sp : Space} {e : EltTy} (v : View sig .tc sp S1024x1024 e) (f : v.ty.Contents (Elt F)) (inb) :
    v.readAt (Elt F) (Rect.unit (s := S1024x1024) ![0, 0] S1024x1024.size inb).toLoadRect f = v.read (Elt F) f :=
  readAt_unit v f zeros2 inb
theorem readAt_R {sp : Space} {e : EltTy} (v : View sig .tc sp S1x1024 e) (f : v.ty.Contents (Elt F)) (inb) :
    v.readAt (Elt F) (Rect.unit (s := S1x1024) ![0, 0] S1x1024.size inb).toLoadRect f = v.read (Elt F) f :=
  readAt_unit v f zeros2 inb
theorem read_writes_T {sp : Space} {e : EltTy} (v : View sig .tc sp S1024x1024 e) (f : v.ty.Contents (Elt F)) (inb)
    (w : S1024x1024.Idx → Elt F e) (L : List (View.Piece (Elt F) S1024x1024 e)) :
    v.read (Elt F) (v.writes (Elt F) f ((⟨Rect.unit (s := S1024x1024) ![0, 0] S1024x1024.size inb, w⟩ : View.Piece (Elt F) S1024x1024 e) :: L)) = w :=
  read_writes_unit v f zeros2 inb w L
theorem readCov_T {sp : Space} {e : EltTy} (v : View sig .tc sp S1024x1024 e) (inb) (w : S1024x1024.Idx → Elt F e) :
    v.readCov [(⟨Rect.unit (s := S1024x1024) ![0, 0] S1024x1024.size inb, w⟩ : View.Piece (Elt F) S1024x1024 e)]
        (Rect.unit (s := S1024x1024) ![0, 0] S1024x1024.size inb).toLoadRect = w :=
  View.readCov_unit_zero v zeros2 inb w

/-! ## What the inputs' buffers hold -/

variable (V : (c : Dev nD) → (b : Ref sig .tc) → Buf (Elt F) ((c : Thread nD τ).loc b))

/-- An input's current buffer holds its tile at every point, fetched there or not: where it is not fetched the
    tile's index has not moved. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body on any whole memrefs, case by case -/

set_option maxHeartbeats 1000000 in
/-- Where the contraction block is the first and not the last: the scratch tile, whatever it held, is zeroed and the
    tile product added on; the bias row's buffer and the output's are not touched. -/
theorem run_A (c : Dev nD) (E : Set ℕ) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : condR i) (hc1 : ¬condO i) (x0 : Vec F S1024x1024 .f32) (x1 : Vec F S1024x1024 .bf16) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k2_pay2 x0 x1 k2_pay1)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_T, readAt_T, readAt_T, readCov_T]

set_option maxHeartbeats 1000000 in
/-- Where the contraction block is neither the first nor the last: the tile product is added onto what the scratch
    tile held. -/
theorem run_B (c : Dev nD) (E : Set ℕ) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬condR i) (hc1 : ¬condO i) (x0 : Vec F S1024x1024 .f32) (x1 : Vec F S1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k2_pay2 x0 x1 xs)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_T, readAt_T, readAt_T, readAt_T]

set_option maxHeartbeats 1000000 in
/-- Where the contraction block is the last (and not the first): the tile product is added onto what the scratch tile
    held, and the output's buffer, whatever it held, is stored the total plus the bias row. -/
theorem run_C (c : Dev nD) (E : Set ℕ) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬condR i) (hc1 : condO i) (x0 : Vec F S1024x1024 .f32) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 xs) x2) ∗ owns (c : Thread nD τ) arg7 fullShare (k2_pay2 x0 x1 xs)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes_T, readCov_T, readAt_T, readAt_T, readAt_T, readAt_R]
  iexists _; isplitr
  swap; · iexact HS
  ipureintro
  sl_unfold_run_names
  rw [read_writes_T, readAt_T, readAt_T, readAt_T]

/-! ## The invariant -/

/-- The scoped rest with the scratch tile as a whole memref owned at some contents. -/
theorem scopedRest_eq (c : Dev nD) :
    (Pipeline.scopedRest (Ix := Unit) (Name := ℕ) (U := UR sig nD τ) (Lvl := ℕ) (Val := Elt F) spec2 c : sProp 𝕄)
      = iprop((∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  rw [scopedRest2_split]; simp only [owns_whole]; try rfl

theorem PhiS_zero (c : Dev nD) (n : ℕ) (hz : n = 0) : PhiS V c n = (Pipeline.scopedRest (Ix := Unit) (Name := ℕ) (U := UR sig nD τ) (Lvl := ℕ) (Val := Elt F) spec2 c : sProp 𝕄) := by
  subst hz; rfl

/-- Before a point that is not the first: the scratch tile at what the point before left. -/
theorem PhiS_pos (c : Dev nD) (n : ℕ) (hz : n ≠ 0) :
    PhiS V c n = iprop(owns (c : Thread nD τ) (Memref.whole cc2_scratch0) fullShare (acc V c n) ∗ Pipeline.scopedRestBut (Ix := Unit) (Name := ℕ) (U := UR sig nD τ) (Lvl := ℕ) (Val := Elt F) spec2 c [cc2_scratch0]) := by
  cases n with
  | zero => exact absurd rfl hz
  | succ n => rfl

/-- At any point the invariant holds the scratch tile at SOME contents. -/
theorem PhiS_any (c : Dev nD) (n : ℕ) :
    PhiS V c n ⊢ iprop((∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  cases n with
  | zero => rw [PhiS_zero V c 0 rfl, scopedRest_eq]
  | succ n =>
    rw [PhiS_pos V c (n + 1) (Nat.succ_ne_zero n)]
    iintro ⟨HS, HR⟩
    isplitl [HS]; · iexists _; iexact HS
    iexact HR

theorem Phi_castSucc (c : Dev nD) (t : Fin cfg2.N) : (dat V c).Φ t.castSucc = PhiS V c t.val := by
  rw [Phi_eq, Fin.coe_castSucc]
theorem Phi_succ (c : Dev nD) (t : Fin cfg2.N) :
    (dat V c).Φ t.succ = iprop(owns (c : Thread nD τ) (Memref.whole cc2_scratch0) fullShare (acc V c (t.val + 1)) ∗ Pipeline.scopedRestBut (Ix := Unit) (Name := ℕ) (U := UR sig nD τ) (Lvl := ℕ) (Val := Elt F) spec2 c [cc2_scratch0]) := by
  rw [Phi_eq, Fin.val_succ]; rfl

/-- The partial product after point `t`, by the point's case. -/
theorem acc_first (c : Dev nD) (t : Fin cfg2.N) (h0 : t.val % 4 = 0) :
    acc V c (t.val + 1) = k2_pay2 (xblk V c t) (wblk V c t) k2_pay1 := by
  rw [acc_succ, if_pos h0, pt_val]
theorem acc_next (c : Dev nD) (t : Fin cfg2.N) (h0 : ¬t.val % 4 = 0) :
    acc V c (t.val + 1) = k2_pay2 (xblk V c t) (wblk V c t) (acc V c t.val) := by
  rw [acc_succ, if_neg h0, pt_val]

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves_0 (c : Dev nD) (t : Fin cfg2.N) :
    (dat V c).leavesExact 0 t = owns (c : Thread nD τ) (st2_0 t) fullShare (iblk V c 0 t) := by
  unfold Dat.leavesExact; rw [live_0 t, after_0]
theorem leaves_1 (c : Dev nD) (t : Fin cfg2.N) :
    (dat V c).leavesExact 1 t = owns (c : Thread nD τ) (st2_1 t) fullShare (iblk V c 1 t) := by
  unfold Dat.leavesExact; rw [live_1 t, after_1]
theorem leaves_2 (c : Dev nD) (t : Fin cfg2.N) :
    (dat V c).leavesExact 2 t = owns (c : Thread nD τ) (st2_2 t) fullShare (iblk V c 2 t) := by
  unfold Dat.leavesExact; rw [live_2 t, after_2]
/-- The output's buffer where the body stores it: the stored tile. -/
theorem leaves_3_live (c : Dev nD) (t : Fin cfg2.N) (h : condO (grid2.coords t)) :
    (dat V c).leavesExact 3 t = owns (c : Thread nD τ) (st2_3 t) fullShare (outblk V c t) := by
  unfold Dat.leavesExact; rw [live_3 t h, after_3]
/-- Elsewhere: as the body found it. -/
theorem leaves_3_idle (c : Dev nD) (t : Fin cfg2.N) (h : ¬condO (grid2.coords t)) :
    (dat V c).leavesExact 3 t = iprop(∃ d, owns (c : Thread nD τ) (st2_3 t) fullShare ((dat V c).before 3 t d)) :=
  Dat.leavesExact_idle (dat V c) 3 t (idle_3 t h) (noFlush_3 t h)

set_option maxHeartbeats 4000000 in
/-- The body at any point: the inputs' buffers hold their tiles; the point's number mod 4 says which case it is in; the
    invariant hands the body the scratch tile at what the point before left (at anything before the first point) and
    takes it back at this point's partial product; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [Phi_succ, Phi_castSucc, leaves_0, leaves_1, leaves_2]
  by_cases h0 : t.val % 4 = 0
  · have hR : condR (grid2.coords t) := (hcondR t).mpr h0
    have hO : ¬condO (grid2.coords t) := fun h => by have := (hcondO t).mp h; omega
    rw [leaves_3_idle V c t hO, acc_first V c t h0]
    iintro ⟨HP, Ho, ⟨%d0, H0⟩, ⟨%d1, H1⟩, ⟨%d2, H2⟩, ⟨%d3, H3⟩⟩
    ihave HQ := (PhiS_any V c t.val) $$ HP
    icases HQ with ⟨HS, HR⟩
    iapply (run_A c Set.univ (grid2.coords t) _ _ _ _ _ _ _ _ _ _ hR hO (xblk V c t) (wblk V c t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · have hR : ¬condR (grid2.coords t) := fun h => h0 ((hcondR t).mp h)
    have hz : t.val ≠ 0 := fun h => h0 (by rw [h])
    rw [PhiS_pos V c t.val hz, acc_next V c t h0]
    by_cases h3 : t.val % 4 = 3
    · have hO : condO (grid2.coords t) := (hcondO t).mpr h3
      rw [leaves_3_live V c t hO]; unfold outblk; rw [acc_next V c t h0]
      iintro ⟨⟨HS, HR⟩, Ho, ⟨%d0, H0⟩, ⟨%d1, H1⟩, ⟨%d2, H2⟩, ⟨%d3, H3⟩⟩
      iapply (run_C c Set.univ (grid2.coords t) _ _ _ _ _ _ _ _ _ _ hR hO (xblk V c t) (wblk V c t) (biasblk V c t) (acc V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · have hO : ¬condO (grid2.coords t) := fun h => h3 ((hcondO t).mp h)
      rw [leaves_3_idle V c t hO]
      iintro ⟨⟨HS, HR⟩, Ho, ⟨%d0, H0⟩, ⟨%d1, H1⟩, ⟨%d2, H2⟩, ⟨%d3, H3⟩⟩
      iapply (run_B c Set.univ (grid2.coords t) _ _ _ _ _ _ _ _ _ _ hR hO (xblk V c t) (wblk V c t) (acc V c t.val) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) :
    (Pipeline.scopedRest (Ix := Unit) (Name := ℕ) (U := UR sig nD τ) (Lvl := ℕ) (Val := Elt F) spec2 c : sProp 𝕄) ⊢ (dat V c).Φ 0 := by
  rw [Phi_eq, PhiS_zero V c _ (Fin.val_zero _)]

/-- After the last point the invariant gives the scoped buffers back, their contents forgotten. -/
theorem hout (c : Dev nD) :
    (dat V c).Φ (Fin.last cfg2.N) ⊢ (Pipeline.scopedRest (Ix := Unit) (Name := ℕ) (U := UR sig nD τ) (Lvl := ℕ) (Val := Elt F) spec2 c : sProp 𝕄) := by
  rw [Phi_eq, scopedRest_eq]
  exact PhiS_any V c _

end Cert.Kernel.R2

end
-- ==== Proof.K.Run.lean ====
/-
  The run of the whole program: the three launches as segments between the host stretches, over valuations that name
  what every unscoped buffer holds between two items, and the launch theorem for a program of several regions. The post
  reads the result array and the eight argument arrays off the last valuation: the result is the last reshape of what
  the third launch leaves in its output array; no item writes an argument.
-/
import proofs.«135257_j31001073942670_1_alg».proof.Proof.K.RunDefs
import proofs.«135257_j31001073942670_1_alg».proof.Proof.K.R0Body
import proofs.«135257_j31001073942670_1_alg».proof.Proof.K.R1Body
import proofs.«135257_j31001073942670_1_alg».proof.Proof.K.R2Body
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev E : Fin 4 → Dev nD → sProp 𝕄 := fun _ c =>
  iprop((∃ r, prngReg c r) ∗ ∃ W, owes (c : Thread nD τ) (0 : CellTallies nD τ sig Unit) W)

/-- The valuations between items read at the TensorCore's references. -/
abbrev XV1 : (c : Dev nD) → (b : Ref sig .tc) → Buf (Elt F) ((c : Thread nD τ).loc b) := fun c b => V1 m c b
abbrev XV2 : (c : Dev nD) → (b : Ref sig .tc) → Buf (Elt F) ((c : Thread nD τ).loc b) := fun c b => V2 m (outs m) c b
abbrev XV5 : (c : Dev nD) → (b : Ref sig .tc) → Buf (Elt F) ((c : Thread nD τ).loc b) := fun c b => V5 m (outs m) c b
abbrev XV6 : (c : Dev nD) → (b : Ref sig .tc) → Buf (Elt F) ((c : Thread nD τ).loc b) := fun c b => V6 m (outs m) c b
abbrev XV7 : (c : Dev nD) → (b : Ref sig .tc) → Buf (Elt F) ((c : Thread nD τ).loc b) := fun c b => V7 m (outs m) c b
abbrev XV8 : (c : Dev nD) → (b : Ref sig .tc) → Buf (Elt F) ((c : Thread nD τ).loc b) := fun c b => V8 m (outs m) c b

/-! ## The valuation after a launch, read at a buffer -/

theorem V2_at_other (c : Dev nD) (r : Ref sig .tc) (h : r ∉ ([main_v1_0, main_v1_1] : List (Ref sig .tc))) :
    V2 m (outs m) c r = V1 m c r := V2_of m (outs m) c r h
theorem V2_at_main_v1_0 (c : Dev nD) : V2 m (outs m) c main_v1_0 = W2 m c main_v1_0 := by
  simp only [V2, Function.update_of_ne (StableHlo.devRef_ne_of_ne (by decide) : (Proc.devRef .tc main_v1_0 : DevRef τ sig) ≠ Proc.devRef .tc main_v1_1), Function.update_self]
  rfl
theorem V2_at_main_v1_1 (c : Dev nD) : V2 m (outs m) c main_v1_1 = W2 m c main_v1_1 := by
  simp only [V2, Function.update_self]
  rfl
theorem V6_at_other (c : Dev nD) (r : Ref sig .tc) (h : r ∉ ([main_v14] : List (Ref sig .tc))) :
    V6 m (outs m) c r = V5 m (outs m) c r := V6_of m (outs m) c r h
theorem V6_at_main_v14 (c : Dev nD) : V6 m (outs m) c main_v14 = W6 m c main_v14 := by
  simp only [V6, Function.update_self]
  rfl
theorem V8_at_other (c : Dev nD) (r : Ref sig .tc) (h : r ∉ ([main_v17] : List (Ref sig .tc))) :
    V8 m (outs m) c r = V7 m (outs m) c r := V8_of m (outs m) c r h
theorem V8_at_main_v17 (c : Dev nD) : V8 m (outs m) c main_v17 = W8 m c main_v17 := by
  simp only [V8, Function.update_self]
  rfl

/-! ## Launch 0 as a segment of the program -/

/-- What launch 0 leaves in each of its windows' arrays is what the valuation after it holds there: an input as entered,
    an output at what its write-backs make of it. -/
theorem hF0 (c : Dev nD) (w : Fin cfg0.W) : (pdats m 0 c).arrAt w cfg0.N = XV2 m c (Pipeline.arrRef spec0 w) := by
  have hW : ∀ w : Fin cfg0.W, W2 m c (Proc.devRef .tc (Pipeline.arrRef spec0 w)) = (R0.dat (U1 m) c).arrAt w cfg0.N :=
    fun w => Pipeline.withArrays_arr spec0 launch0.win.arr_inj c _ _ w
  match w with
  | ⟨0, _⟩ => exact ((R0.dat (U1 m) c).arrAt_in 0 rfl _).trans ((R0.A_eq (U1 m) c 0).trans (V2_at_other m c main_arg1 (by decide)).symm)
  | ⟨1, _⟩ => exact ((R0.dat (U1 m) c).arrAt_in 1 rfl _).trans ((R0.A_eq (U1 m) c 1).trans (V2_at_other m c main_arg7 (by decide)).symm)
  | ⟨2, _⟩ => exact ((R0.dat (U1 m) c).arrAt_in 2 rfl _).trans ((R0.A_eq (U1 m) c 2).trans (V2_at_other m c main_v0 (by decide)).symm)
  | ⟨3, _⟩ => exact ((R0.dat (U1 m) c).arrAt_in 3 rfl _).trans ((R0.A_eq (U1 m) c 3).trans (V2_at_other m c main_arg5 (by decide)).symm)
  | ⟨4, _⟩ => exact ((R0.dat (U1 m) c).arrAt_in 4 rfl _).trans ((R0.A_eq (U1 m) c 4).trans (V2_at_other m c main_arg4 (by decide)).symm)
  | ⟨5, _⟩ => exact (hW 5).symm.trans (V2_at_main_v1_0 m c).symm
  | ⟨6, _⟩ => exact (hW 6).symm.trans (V2_at_main_v1_1 m c).symm

/-- Every buffer that is no window's array of launch 0 is left as entered. -/
theorem hrest0 (c : Dev nD) : ∀ b, b ∉ Finset.univ.image (Pipeline.arrRef spec0) → XV2 m c b = XV1 m c b := fun b hb =>
  V2_at_other m c b (by
    intro h
    simp only [List.mem_cons, List.mem_nil_iff, or_false] at h
    rcases h with rfl | rfl
    · exact hb (Finset.mem_image.mpr ⟨5, Finset.mem_univ _, rfl⟩)
    · exact hb (Finset.mem_image.mpr ⟨6, Finset.mem_univ _, rfl⟩))

-- a library lemma stated over the pinned configuration unifies with the printed one only when unification may unfold
-- plain definitions in a metavariable's type
set_option backward.isDefEq.respectTransparency.types false in
/-- Launch 0 over the thread state: entered from every unscoped buffer at the valuation before it, left at the one
    after it. Its arrays are split out of the unscoped buffers and put back at the exit contents; the scoped buffers no
    window stages go into the kernel's invariant and come back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (U1 m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(emp)
  Y c := iprop(emp)
  Z c := iprop(Pipeline.unscopedRest (Ix := Unit) (Name := ℕ) (U := UR sig nD τ) (Lvl := ℕ) spec0 c (XV1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (XV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (R0.dat (U1 m) c).Φ 0 from rfl]
    iintro ⟨-, -, Hr⟩
    iapply (R0.hin (U1 m) c)
    iexact Hr
  hout c := by
    rw [Pipeline.ownSems0_none, show (pdats m 0 c).Φ (Fin.last _) = (R0.dat (U1 m) c).Φ (Fin.last cfg0.N) from rfl]
    iintro H
    isplitr; · iempintro
    isplitr; · iempintro
    iapply (R0.hout (U1 m) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (XV1 m c) (XV2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Launch 1 as a segment of the program -/

/-- What launch 1 leaves in each of its windows' arrays is what the valuation after it holds there: an input as entered,
    an output at what its write-backs make of it. -/
theorem hF1 (c : Dev nD) (w : Fin cfg1.W) : (pdats m 1 c).arrAt w cfg1.N = XV6 m c (Pipeline.arrRef spec1 w) := by
  have hW : ∀ w : Fin cfg1.W, W6 m c (Proc.devRef .tc (Pipeline.arrRef spec1 w)) = (R1.dat (U5 m) c).arrAt w cfg1.N :=
    fun w => Pipeline.withArrays_arr spec1 launch1.win.arr_inj c _ _ w
  match w with
  | ⟨0, _⟩ => exact ((R1.dat (U5 m) c).arrAt_in 0 rfl _).trans ((R1.A_eq (U5 m) c 0).trans (V6_at_other m c main_arg1 (by decide)).symm)
  | ⟨1, _⟩ => exact ((R1.dat (U5 m) c).arrAt_in 1 rfl _).trans ((R1.A_eq (U5 m) c 1).trans (V6_at_other m c main_arg2 (by decide)).symm)
  | ⟨2, _⟩ => exact ((R1.dat (U5 m) c).arrAt_in 2 rfl _).trans ((R1.A_eq (U5 m) c 2).trans (V6_at_other m c main_arg7 (by decide)).symm)
  | ⟨3, _⟩ => exact ((R1.dat (U5 m) c).arrAt_in 3 rfl _).trans ((R1.A_eq (U5 m) c 3).trans (V6_at_other m c main_v0 (by decide)).symm)
  | ⟨4, _⟩ => exact ((R1.dat (U5 m) c).arrAt_in 4 rfl _).trans ((R1.A_eq (U5 m) c 4).trans (V6_at_other m c main_arg5 (by decide)).symm)
  | ⟨5, _⟩ => exact ((R1.dat (U5 m) c).arrAt_in 5 rfl _).trans ((R1.A_eq (U5 m) c 5).trans (V6_at_other m c main_arg4 (by decide)).symm)
  | ⟨6, _⟩ => exact ((R1.dat (U5 m) c).arrAt_in 6 rfl _).trans ((R1.A_eq (U5 m) c 6).trans (V6_at_other m c main_v13 (by decide)).symm)
  | ⟨7, _⟩ => exact (hW 7).symm.trans (V6_at_main_v14 m c).symm

/-- Every buffer that is no window's array of launch 1 is left as entered. -/
theorem hrest1 (c : Dev nD) : ∀ b, b ∉ Finset.univ.image (Pipeline.arrRef spec1) → XV6 m c b = XV5 m c b := fun b hb =>
  V6_at_other m c b (by
    intro h
    simp only [List.mem_cons, List.mem_nil_iff, or_false] at h
    rcases h with rfl
    · exact hb (Finset.mem_image.mpr ⟨7, Finset.mem_univ _, rfl⟩))

-- a library lemma stated over the pinned configuration unifies with the printed one only when unification may unfold
-- plain definitions in a metavariable's type
set_option backward.isDefEq.respectTransparency.types false in
/-- Launch 1 over the thread state: entered from every unscoped buffer at the valuation before it, left at the one
    after it. Its arrays are split out of the unscoped buffers and put back at the exit contents; the scoped buffers no
    window stages go into the kernel's invariant and come back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (U5 m) c).loose
  hwaits := Pipeline.hwaits_of_owed_zero _ _ _ _ L lv 1 fun _ _ => rfl
  pre c := iprop(StableHlo.held (c : Thread nD τ) (Pipeline.ucRefs τ sig) (V5 m (outs m) c) ∗ E 1 c)
  post c := iprop(StableHlo.held (c : Thread nD τ) (Pipeline.ucRefs τ sig) (V6 m (outs m) c) ∗ E 2 c)
  X c := iprop(emp)
  Y c := iprop(emp)
  Z c := iprop(Pipeline.unscopedRest (Ix := Unit) (Name := ℕ) (U := UR sig nD τ) (Lvl := ℕ) spec1 c (XV5 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (XV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (R1.dat (U5 m) c).Φ 0 from rfl]
    iintro ⟨-, -, Hr⟩
    iapply (R1.hin (U5 m) c)
    iexact Hr
  hout c := by
    rw [Pipeline.ownSems0_none, show (pdats m 1 c).Φ (Fin.last _) = (R1.dat (U5 m) c).Φ (Fin.last cfg1.N) from rfl]
    iintro H
    isplitr; · iempintro
    isplitr; · iempintro
    iapply (R1.hout (U5 m) c)
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (XV5 m c) (XV6 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Launch 2 as a segment of the program -/

/-- What launch 2 leaves in each of its windows' arrays is what the valuation after it holds there: an input as entered,
    an output at what its write-backs make of it. -/
theorem hF2 (c : Dev nD) (w : Fin cfg2.W) : (pdats m 2 c).arrAt w cfg2.N = XV8 m c (Pipeline.arrRef spec2 w) := by
  have hW : ∀ w : Fin cfg2.W, W8 m c (Proc.devRef .tc (Pipeline.arrRef spec2 w)) = (R2.dat (U7 m) c).arrAt w cfg2.N :=
    fun w => Pipeline.withArrays_arr spec2 launch2.win.arr_inj c _ _ w
  match w with
  | ⟨0, _⟩ => exact ((R2.dat (U7 m) c).arrAt_in 0 rfl _).trans ((R2.A_eq (U7 m) c 0).trans (V8_at_other m c main_v15 (by decide)).symm)
  | ⟨1, _⟩ => exact ((R2.dat (U7 m) c).arrAt_in 1 rfl _).trans ((R2.A_eq (U7 m) c 1).trans (V8_at_other m c main_v14 (by decide)).symm)
  | ⟨2, _⟩ => exact ((R2.dat (U7 m) c).arrAt_in 2 rfl _).trans ((R2.A_eq (U7 m) c 2).trans (V8_at_other m c main_v16 (by decide)).symm)
  | ⟨3, _⟩ => exact (hW 3).symm.trans (V8_at_main_v17 m c).symm

/-- Every buffer that is no window's array of launch 2 is left as entered. -/
theorem hrest2 (c : Dev nD) : ∀ b, b ∉ Finset.univ.image (Pipeline.arrRef spec2) → XV8 m c b = XV7 m c b := fun b hb =>
  V8_at_other m c b (by
    intro h
    simp only [List.mem_cons, List.mem_nil_iff, or_false] at h
    rcases h with rfl
    · exact hb (Finset.mem_image.mpr ⟨3, Finset.mem_univ _, rfl⟩))

-- a library lemma stated over the pinned configuration unifies with the printed one only when unification may unfold
-- plain definitions in a metavariable's type
set_option backward.isDefEq.respectTransparency.types false in
/-- Launch 2 over the thread state: entered from every unscoped buffer at the valuation before it, left at the one
    after it. Its arrays are split out of the unscoped buffers and put back at the exit contents; the scoped buffers no
    window stages go into the kernel's invariant and come back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (U7 m) c).loose
  hwaits := Pipeline.hwaits_of_owed_zero _ _ _ _ L lv 2 fun _ _ => rfl
  pre c := iprop(StableHlo.held (c : Thread nD τ) (Pipeline.ucRefs τ sig) (V7 m (outs m) c) ∗ E 2 c)
  post c := iprop(StableHlo.held (c : Thread nD τ) (Pipeline.ucRefs τ sig) (V8 m (outs m) c) ∗ E 3 c)
  X c := iprop(emp)
  Y c := iprop(emp)
  Z c := iprop(Pipeline.unscopedRest (Ix := Unit) (Name := ℕ) (U := UR sig nD τ) (Lvl := ℕ) spec2 c (XV7 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (XV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (R2.dat (U7 m) c).Φ 0 from rfl]
    iintro ⟨-, -, Hr⟩
    iapply (R2.hin (U7 m) c)
    iexact Hr
  hout c := by
    rw [Pipeline.ownSems0_none, show (pdats m 2 c).Φ (Fin.last _) = (R2.dat (U7 m) c).Φ (Fin.last cfg2.N) from rfl]
    iintro H
    isplitr; · iempintro
    isplitr; · iempintro
    iapply (R2.hout (U7 m) c)
    iexact H
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (XV7 m c) (XV8 m c) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The launch of the whole program -/

-- the launch theorem's implicit arguments are found by unifying its conclusion with this one, which takes unfolding
-- plain definitions in a metavariable's type
set_option backward.isDefEq.respectTransparency.types false in
/-- Every weakly fair execution of the program from memory `m` with zero counters terminates, nothing faulting, with the
    result array at the last valuation's contents and every argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v18) = V9 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by
      rewrite [main_chain c, Seg.run_eq_chain,
        show (segs m (outs m) 𝒱₀ L lv E () (pdats m) (reg0 m) (reg1 m) (reg2 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v18) = V9 m (outs m) c main_v18
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  -- the end: each buffer read off the last valuation
  unfold StableHlo.held
  iintro ⟨Hh, HSI⟩
  ihave Hr := (pointsTo_read_all (Pipeline.ucRefs τ sig) (fun b => ((c : Thread nD τ).1, b)) (V9 m (outs m) c) s') $$ [Hh HSI]
  · isplitl [Hh] <;> iassumption
  icases Hr with ⟨%h, HSI⟩
  imodintro
  isplitr
  · ipureintro
    exact ⟨h (Proc.devRef .tc main_v18) (Finset.mem_filter.mpr ⟨StableHlo.devRef_mem_tcRefs main_v18, by decide⟩),
      (h (Proc.devRef .tc main_arg0) (Finset.mem_filter.mpr ⟨StableHlo.devRef_mem_tcRefs main_arg0, by decide⟩)).trans (V9_main_arg0 m (outs m) c),
      (h (Proc.devRef .tc main_arg1) (Finset.mem_filter.mpr ⟨StableHlo.devRef_mem_tcRefs main_arg1, by decide⟩)).trans (V9_main_arg1 m (outs m) c),
      (h (Proc.devRef .tc main_arg2) (Finset.mem_filter.mpr ⟨StableHlo.devRef_mem_tcRefs main_arg2, by decide⟩)).trans (V9_main_arg2 m (outs m) c),
      (h (Proc.devRef .tc main_arg3) (Finset.mem_filter.mpr ⟨StableHlo.devRef_mem_tcRefs main_arg3, by decide⟩)).trans (V9_main_arg3 m (outs m) c),
      (h (Proc.devRef .tc main_arg4) (Finset.mem_filter.mpr ⟨StableHlo.devRef_mem_tcRefs main_arg4, by decide⟩)).trans (V9_main_arg4 m (outs m) c),
      (h (Proc.devRef .tc main_arg5) (Finset.mem_filter.mpr ⟨StableHlo.devRef_mem_tcRefs main_arg5, by decide⟩)).trans (V9_main_arg5 m (outs m) c),
      (h (Proc.devRef .tc main_arg6) (Finset.mem_filter.mpr ⟨StableHlo.devRef_mem_tcRefs main_arg6, by decide⟩)).trans (V9_main_arg6 m (outs m) c),
      (h (Proc.devRef .tc main_arg7) (Finset.mem_filter.mpr ⟨StableHlo.devRef_mem_tcRefs main_arg7, by decide⟩)).trans (V9_main_arg7 m (outs m) c)⟩
  · iexact HSI

/-- The frame: the same run, the result dropped. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.Kernel.Run

end
-- ==== Proof.KI.R0Data.lean ====
/-
  The first launch: the two squared Frobenius norms, accumulated over 16 blocks of 256 rows.
  At grid point t the body holds rows 256 t .. 256 t + 255 of W0, of the Fisher mask, of the row
  magnitudes (as a column) and of the low-rank factor B, and all of A. It adds the block's sum of squares of W0
  onto one [1,1] scratch cell and the block's sum of squares of the gated update
      dw = (m ⊙ (1 · B A)) / (1 + 10 · fisher)
  onto another, both cells reset to zero at the first point, and at the last point copies the two cells out.
  This module fixes the data: the blocks, the two running totals as recursions over the point's number,
  and the pipeline's proof data (what each window's buffer holds after the body; the invariant that carries
  the two cells from one point to the next).
-/
import proofs.«135257_j31001073942670_1_alg».proof.Proof.Gen.KernelIdeal.Launch
import proofs.«135257_j31001073942670_1_alg».proof.Proof.Gen.KernelIdeal.Skeleton
import proofs.«135257_j31001073942670_1_alg».proof.Proof.Gen.KernelIdeal.Points
import Idealize.ShloMosaic.Lib.Pipeline.FrameBody
import Idealize.ShloMosaic.Lib.Pipeline.Frame

set_option maxRecDepth 16384

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks by their literal types: 256 rows of W0, of the Fisher mask, of the magnitudes' column, of B; and A whole. -/
abbrev w0blk (c : Dev nD) (t : Fin cfg0.N) : Vec F S256x4096 .f32 := iblk V c 0 t
abbrev fblk (c : Dev nD) (t : Fin cfg0.N) : Vec F S256x4096 .f32 := iblk V c 1 t
abbrev mblk (c : Dev nD) (t : Fin cfg0.N) : Vec F S256x1 .f32 := iblk V c 2 t
abbrev bblk (c : Dev nD) (t : Fin cfg0.N) : Vec F S256x16 .f32 := iblk V c 3 t
abbrev ablk (c : Dev nD) (t : Fin cfg0.N) : Vec F S16x4096 .f32 := iblk V c 4 t

/-- Grid point number `n` (past the end: the last point; never read there). -/
def pt (n : ℕ) : Fin cfg0.N := ⟨min n 15, by have := N_0; show min n 15 < grid0.N; omega⟩

theorem pt_val (t : Fin cfg0.N) : pt t.val = t := by
  have := N_0; have h : t.val < grid0.N := t.isLt
  apply Fin.ext; show min t.val 15 = t.val; omega

/-- The running total of ‖W0‖² after `n` points: zero, then each block's sum of squares added on. -/
def accW0 (c : Dev nD) : ℕ → Vec F S1x1 .f32
  | 0 => k0_pay3
  | n + 1 => k0_pay1 (k0_pay6 (w0blk V c (pt n)) (w0blk V c (pt n)) (accW0 c n))

/-- The running total of ‖dw‖² after `n` points: zero, then each block's sum of squares of the gated update added on. -/
def accDw (c : Dev nD) : ℕ → Vec F S1x1 .f32
  | 0 => k0_pay4
  | n + 1 => k0_pay2 (k0_pay5 (bblk V c (pt n)) (ablk V c (pt n)) (mblk V c (pt n)) (fblk V c (pt n))) (accDw c n)

/-- The invariant before point number `n`: before the first point every scoped buffer no window stages at anything;
    afterwards the two cells at the running totals, the remaining scoped buffers untouched. -/
def PhiS (c : Dev nD) : ℕ → sProp 𝕄
  | 0 => Pipeline.scopedRest (Ix := Unit) (Name := ℕ) (U := UR sig nD τ) (Lvl := ℕ) (Val := Elt F) spec0 c
  | n + 1 => iprop(owns (c : Thread nD τ) (Memref.whole cc0_scratch0) fullShare (accW0 V c (n + 1))
      ∗ owns (c : Thread nD τ) (Memref.whole cc0_scratch1) fullShare (accDw V c (n + 1))
      ∗ Pipeline.scopedRestBut (Ix := Unit) (Name := ℕ) (U := UR sig nD τ) (Lvl := ℕ) (Val := Elt F) spec0 c [cc0_scratch0, cc0_scratch1])

/-- The proof data of the first launch's pipeline on core `c`: the arrays as the region finds them; after the body
    each input's buffer at its block, each output's at the running total so far (read only at the last point, the
    one that copies the cells out); the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => accW0 V c (t.val + 1)
    | ⟨6, _⟩ => accDw V c (t.val + 1)
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = accW0 V c (t.val + 1) := by dsimp only [dat]
theorem after_6 (c : Dev nD) (t : Fin cfg0.N) : (dat V c).after 6 t = accDw V c (t.val + 1) := by dsimp only [dat]

theorem Phi_eq (c : Dev nD) (t : Fin (cfg0.N + 1)) : (dat V c).Φ t = PhiS V c t.val := by dsimp only [dat]

end Cert.KernelIdeal.R0

end
-- ==== Proof.KI.R1Data.lean ====
/-
  The second launch: the effective weight, 256 rows at a time. At grid point t the body holds rows 256 t .. 256 t + 255
  of W0, of the accumulated weight, of the Fisher mask, of the row magnitudes (as a column) and of B, all of A, and the
  [1,1] clamp factor, and stores the block
      (W0 + W_acc) + ((m ⊙ (1 · B A)) / (1 + 10 · fisher)) · factor
  narrowed to bf16. Nothing is carried from one point to the next. This module fixes the data: the blocks and the
  pipeline's proof data.
-/
import proofs.«135257_j31001073942670_1_alg».proof.Proof.Gen.KernelIdeal.Launch
import proofs.«135257_j31001073942670_1_alg».proof.Proof.Gen.KernelIdeal.Skeleton
import proofs.«135257_j31001073942670_1_alg».proof.Proof.Gen.KernelIdeal.Points
import Idealize.ShloMosaic.Lib.Pipeline.FrameBody
import Idealize.ShloMosaic.Lib.Pipeline.Frame

set_option maxRecDepth 16384

noncomputable section

namespace Cert.KernelIdeal.R1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks by their literal types. -/
abbrev w0blk (c : Dev nD) (t : Fin cfg1.N) : Vec F S256x4096 .f32 := iblk V c 0 t
abbrev waccblk (c : Dev nD) (t : Fin cfg1.N) : Vec F S256x4096 .f32 := iblk V c 1 t
abbrev fblk (c : Dev nD) (t : Fin cfg1.N) : Vec F S256x4096 .f32 := iblk V c 2 t
abbrev mblk (c : Dev nD) (t : Fin cfg1.N) : Vec F S256x1 .f32 := iblk V c 3 t
abbrev bblk (c : Dev nD) (t : Fin cfg1.N) : Vec F S256x16 .f32 := iblk V c 4 t
abbrev ablk (c : Dev nD) (t : Fin cfg1.N) : Vec F S16x4096 .f32 := iblk V c 5 t
abbrev facblk (c : Dev nD) (t : Fin cfg1.N) : Vec F S1x1 .f32 := iblk V c 6 t

/-- The block of the effective weight the body stores at point `t`. -/
def outblk (c : Dev nD) (t : Fin cfg1.N) : Vec F S256x4096 .bf16 :=
  k1_pay1 (bblk V c t) (ablk V c t) (mblk V c t) (fblk V c t) (facblk V c t) (w0blk V c t) (waccblk V c t)

/-- The proof data of the second launch's pipeline on core `c`: the arrays as the region finds them; after the body
    each input's buffer at its block, the output's at the stored block; the invariant the scoped buffers no window
    stages, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outblk V c t
  Φ _ := Pipeline.scopedRest (Ix := Unit) (Name := ℕ) (U := UR sig nD τ) (Lvl := ℕ) (Val := Elt F) spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = outblk V c t := by dsimp only [dat]

theorem Phi_eq (c : Dev nD) (t : Fin (cfg1.N + 1)) :
    (dat V c).Φ t = Pipeline.scopedRest (Ix := Unit) (Name := ℕ) (U := UR sig nD τ) (Lvl := ℕ) (Val := Elt F) spec1 c := by dsimp only [dat]

end Cert.KernelIdeal.R1

end
-- ==== Proof.KI.R2Data.lean ====
/-
  The third launch: y = x · W_effᵀ + bias over an 8 x 4 x 4 grid of 1024 x 1024 tiles, the contraction axis innermost.
  Point number t is (i, j, k) with k = t mod 4. The body holds the (i, k) tile of x, the (j, k) tile of the effective
  weight (bf16) and the j-th 1024 entries of the bias as a row. A [1024, 1024] scratch tile carries the partial product:
  reset to zero where k = 0, then x-tile · w-tileᵀ added on; where k = 3 the output tile (i, j) is stored as the total plus
  the bias row repeated down the rows. This module fixes the data: the tiles, the partial product as a recursion over the
  point's number, and the pipeline's proof data.
-/
import proofs.«135257_j31001073942670_1_alg».proof.Proof.Gen.KernelIdeal.Launch
import proofs.«135257_j31001073942670_1_alg».proof.Proof.Gen.KernelIdeal.Skeleton
import proofs.«135257_j31001073942670_1_alg».proof.Proof.Gen.KernelIdeal.Points
import Idealize.ShloMosaic.Lib.Pipeline.FrameBody
import Idealize.ShloMosaic.Lib.Pipeline.Frame

set_option maxRecDepth 16384

noncomputable section

namespace Cert.KernelIdeal.R2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tiles by their literal types. -/
abbrev xblk (c : Dev nD) (t : Fin cfg2.N) : Vec F S1024x1024 .f32 := iblk V c 0 t
abbrev wblk (c : Dev nD) (t : Fin cfg2.N) : Vec F S1024x1024 .bf16 := iblk V c 1 t
abbrev biasblk (c : Dev nD) (t : Fin cfg2.N) : Vec F S1x1024 .f32 := iblk V c 2 t

/-- Grid point number `n` (past the end: the last point; never read there). -/
def pt (n : ℕ) : Fin cfg2.N := ⟨min n 127, by have := N_2; show min n 127 < grid2.N; omega⟩

theorem pt_val (t : Fin cfg2.N) : pt t.val = t := by
  have := N_2; have h : t.val < grid2.N := t.isLt
  apply Fin.ext; show min t.val 127 = t.val; omega

/-- The scratch tile after `n` points: at point `n` the tile product is added onto zero where the contraction block
    is the first (`n mod 4 = 0`), else onto what the point before left. -/
def acc (c : Dev nD) : ℕ → Vec F S1024x1024 .f32
  | 0 => k2_pay1
  | n + 1 => k2_pay2 (xblk V c (pt n)) (wblk V c (pt n)) (if n % 4 = 0 then k2_pay1 else acc c n)

theorem acc_succ (c : Dev nD) (n : ℕ) :
    acc V c (n + 1) = k2_pay2 (xblk V c (pt n)) (wblk V c (pt n)) (if n % 4 = 0 then k2_pay1 else acc V c n) := rfl

/-- The output tile stored at a point whose contraction block is the last: the total plus the bias row. -/
def outblk (c : Dev nD) (t : Fin cfg2.N) : Vec F S1024x1024 .f32 :=
  k2_pay3 (acc V c (t.val + 1)) (biasblk V c t)

/-- The invariant before point number `n`: before the first point every scoped buffer no window stages at anything;
    afterwards the scratch tile at the partial product, the remaining scoped buffers untouched. -/
def PhiS (c : Dev nD) : ℕ → sProp 𝕄
  | 0 => Pipeline.scopedRest (Ix := Unit) (Name := ℕ) (U := UR sig nD τ) (Lvl := ℕ) (Val := Elt F) spec2 c
  | n + 1 => iprop(owns (c : Thread nD τ) (Memref.whole cc2_scratch0) fullShare (acc V c (n + 1))
      ∗ Pipeline.scopedRestBut (Ix := Unit) (Name := ℕ) (U := UR sig nD τ) (Lvl := ℕ) (Val := Elt F) spec2 c [cc2_scratch0])

/-- The proof data of the third launch's pipeline on core `c`: the arrays as the region finds them; after the body
    each input's buffer at its tile, the output's at the stored tile (read only where the contraction block is the last);
    the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outblk V c t
  Φ t := PhiS V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outblk V c t := by dsimp only [dat]

theorem Phi_eq (c : Dev nD) (t : Fin (cfg2.N + 1)) : (dat V c).Φ t = PhiS V c t.val := by dsimp only [dat]

end Cert.KernelIdeal.R2

end
-- ==== Proof.KI.RunDefs.lean ====
/-
  The run of the three launches, its data. Between two items of the program core c holds every unscoped buffer at a
  valuation that is a fold from the launch memory: a host stretch applies its operations; a launch leaves its windows'
  arrays at what its write-backs make of them and every other buffer as it found it. This module names, per launch, the
  contents the launch is entered with (what its proof data are stated at) and the contents it leaves, stage by stage:
  the second launch's entry contents are built over what the first leaves, the third's over what the second leaves.
-/
import proofs.«135257_j31001073942670_1_alg».proof.Proof.Gen.KernelIdeal.Regions
import proofs.«135257_j31001073942670_1_alg».proof.Proof.KI.R0Data
import proofs.«135257_j31001073942670_1_alg».proof.Proof.KI.R1Data
import proofs.«135257_j31001073942670_1_alg».proof.Proof.KI.R2Data
import Idealize.ShloMosaic.Lib.Pipeline.FrameSuffix

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

variable (m : (ℓ : Loc nD τ sig) → Buf (Elt F) ℓ)

/-- What the first launch is entered with: the launch memory after the one reshape before it. -/
abbrev U1 : (c : Dev nD) → (b : Ref sig .tc) → Buf (Elt F) ((c : Thread nD τ).loc b) := fun c b => V1 m c b

/-- What the first launch leaves: its windows' arrays at what its write-backs make of them, the rest as entered. -/
def W2 (c : Dev nD) : Valuation τ sig (Elt F) :=
  Pipeline.withArrays spec0 c (V1 m c) fun w => (R0.dat (U1 m) c).arrAt w cfg0.N

/-- The contents the launches leave, first stage: only the first launch's are named. -/
def outs1 : Outs (F := F) := fun _ r c => W2 m c r

/-- What the second launch is entered with. -/
abbrev U5 : (c : Dev nD) → (b : Ref sig .tc) → Buf (Elt F) ((c : Thread nD τ).loc b) := fun c b => V5 m (outs1 m) c b

/-- What the second launch leaves. -/
def W6 (c : Dev nD) : Valuation τ sig (Elt F) :=
  Pipeline.withArrays spec1 c (V5 m (outs1 m) c) fun w => (R1.dat (U5 m) c).arrAt w cfg1.N

/-- The contents the launches leave, second stage: the first two launches' are named. -/
def outs2 : Outs (F := F) := fun J r c => if J = 2 then W2 m c r else W6 m c r

/-- What the third launch is entered with. -/
abbrev U7 : (c : Dev nD) → (b : Ref sig .tc) → Buf (Elt F) ((c : Thread nD τ).loc b) := fun c b => V7 m (outs2 m) c b

/-- What the third launch leaves. -/
def W8 (c : Dev nD) : Valuation τ sig (Elt F) :=
  Pipeline.withArrays spec2 c (V7 m (outs2 m) c) fun w => (R2.dat (U7 m) c).arrAt w cfg2.N

/-- The contents the three launches leave: what the run's valuations are read at. -/
def outs : Outs (F := F) := fun J r c => if J = 2 then W2 m c r else if J = 6 then W6 m c r else W8 m c r

/-- The later stages agree with the earlier ones where those are read. -/
theorem V5_outs (c : Dev nD) : V5 m (outs m) c = V5 m (outs1 m) c := rfl
theorem V7_outs (c : Dev nD) : V7 m (outs m) c = V7 m (outs2 m) c := rfl
theorem V2_outs (c : Dev nD) : V2 m (outs m) c = V2 m (outs1 m) c := rfl

/-- Every launch's proof data, each at its entry contents. -/
def pdats : (p : Fin 3) → (c : Dev nD) → Dat τ (Elt F) Unit ℕ (UR sig nD τ) ℕ (cfgs p) c
  | ⟨0, _⟩ => fun c => R0.dat (U1 m) c
  | ⟨1, _⟩ => fun c => R1.dat (U5 m) c
  | ⟨2, _⟩ => fun c => R2.dat (U7 m) c

end Cert.KernelIdeal.Run

end
-- ==== Proof.KI.R0Body.lean ====
/-
  Launch 0: the body's run at every grid point against the proof data of R0Data, and the invariant's two ends.
-/
import proofs.«135257_j31001073942670_1_alg».proof.Proof.KI.R0Data
import Idealize.ShloMosaic.Lib.Tactic
import Idealize.ShloMosaic.Lib.Ring
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer loads and stores -/

theorem hz2 : (![0, 0] : Fin 2 → Nat) = fun _ => 0 := funext fun a => by fin_cases a <;> rfl

section Whole
variable {κ : Kind} {sp : Space} {S : Shape} {e : EltTy}

/-- A load of a whole buffer (the unit rectangle at offset zero) reads its contents. -/
theorem readAt_all (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- A store of a whole buffer, last, leaves its payload. -/
theorem read_writes_all (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

end Whole

/-! ## The body's two conditions, decided over the grid -/

/-- The reset's condition from the grid coordinates. -/
abbrev cond1 (i : grid0.Coords) : Prop := (Scalar.cmpi .ne (Scalar.extui (Scalar.cmpi .eq (BitVec.ofNat 32 (i 0).val) 0#32)) 0#32) = 1#1
/-- The copy-out's condition. -/
abbrev cond2 (i : grid0.Coords) : Prop := k0_cond2 i = 1#1

/-- The reset happens at the first point only, the copy-out at the last only. -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val % 16 = 15 :=
  (by decide +kernel : ∀ t : Fin grid0.N, cond2 (grid0.coords t) ↔ t.val % 16 = 15)

/-! ## The body on any whole memrefs, case by case

Each case takes the five inputs at read contents `x1 … x5` (rows of W0, of the Fisher mask, the magnitudes' column,
rows of B, all of A), and hands them back unchanged; the two cells end at the running totals' next step. -/

set_option maxHeartbeats 1000000 in
/-- The body at the first point. -/
theorem run_first (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x16 .f32) (harg4 : arg4.IsWhole) (arg5 : Memref sig .tc .vmem S16x4096 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc1 : cond1 i) (hc2 : ¬cond2 i)
    (x1 : Vec F S256x4096 .f32) (x2 : Vec F S256x4096 .f32) (x3 : Vec F S256x1 .f32) (x4 : Vec F S256x16 .f32) (x5 : Vec F S16x4096 .f32)
    (y6 y7 : Vec F S1x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare y6
        ∗ owns (c : Thread nD τ) arg7 fullShare y7
        ∗ (∃ d, owns (c : Thread nD τ) arg8 fullShare d)
        ∗ (∃ d, owns (c : Thread nD τ) arg9 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare y6
            ∗ owns (c : Thread nD τ) arg7 fullShare y7
            ∗ owns (c : Thread nD τ) arg8 fullShare (k0_pay1 (k0_pay6 x1 x1 k0_pay3))
            ∗ owns (c : Thread nD τ) arg9 fullShare (k0_pay2 (k0_pay5 x4 x5 x3 x2) k0_pay4)) -∗ K ⟨⟩))
      ⊢ wp frame (wpE (defs₀ (F := F)) Variants.none c none) E (cc0__norm_kernel i arg1 harg1 arg2 harg2 arg3 harg3 arg4 harg4 arg5 harg5 arg6 harg6 arg7 harg7 arg8 harg8 arg9 harg9) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := first | exact hc1 | exact hc2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  iexists _; isplitr
  swap; · iexact H9
  ipureintro
  sl_unfold_run_names
  rw [read_writes_all (S := S1x1) _ _ hz2]
  simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]

set_option maxHeartbeats 1000000 in
/-- The body at a point that is neither the first nor the last. -/
theorem run_mid (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x16 .f32) (harg4 : arg4.IsWhole) (arg5 : Memref sig .tc .vmem S16x4096 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc1 : ¬cond1 i) (hc2 : ¬cond2 i)
    (x1 : Vec F S256x4096 .f32) (x2 : Vec F S256x4096 .f32) (x3 : Vec F S256x1 .f32) (x4 : Vec F S256x16 .f32) (x5 : Vec F S16x4096 .f32)
    (y6 y7 s8 s9 : Vec F S1x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare y6
        ∗ owns (c : Thread nD τ) arg7 fullShare y7
        ∗ owns (c : Thread nD τ) arg8 fullShare s8
        ∗ owns (c : Thread nD τ) arg9 fullShare s9
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare y6
            ∗ owns (c : Thread nD τ) arg7 fullShare y7
            ∗ owns (c : Thread nD τ) arg8 fullShare (k0_pay1 (k0_pay6 x1 x1 s8))
            ∗ owns (c : Thread nD τ) arg9 fullShare (k0_pay2 (k0_pay5 x4 x5 x3 x2) s9)) -∗ K ⟨⟩))
      ⊢ wp frame (wpE (defs₀ (F := F)) Variants.none c none) E (cc0__norm_kernel i arg1 harg1 arg2 harg2 arg3 harg3 arg4 harg4 arg5 harg5 arg6 harg6 arg7 harg7 arg8 harg8 arg9 harg9) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | exact hc1 | exact hc2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  iexists _; isplitr
  swap; · iexact H9
  ipureintro
  sl_unfold_run_names
  rw [read_writes_all (S := S1x1) _ _ hz2]
  simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]

set_option maxHeartbeats 1000000 in
/-- The body at the last point. -/
theorem run_last (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x16 .f32) (harg4 : arg4.IsWhole) (arg5 : Memref sig .tc .vmem S16x4096 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc1 : ¬cond1 i) (hc2 : cond2 i)
    (x1 : Vec F S256x4096 .f32) (x2 : Vec F S256x4096 .f32) (x3 : Vec F S256x1 .f32) (x4 : Vec F S256x16 .f32) (x5 : Vec F S16x4096 .f32)
    (s8 s9 : Vec F S1x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ owns (c : Thread nD τ) arg8 fullShare s8
        ∗ owns (c : Thread nD τ) arg9 fullShare s9
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (k0_pay1 (k0_pay6 x1 x1 s8))
            ∗ owns (c : Thread nD τ) arg7 fullShare (k0_pay2 (k0_pay5 x4 x5 x3 x2) s9)
            ∗ owns (c : Thread nD τ) arg8 fullShare (k0_pay1 (k0_pay6 x1 x1 s8))
            ∗ owns (c : Thread nD τ) arg9 fullShare (k0_pay2 (k0_pay5 x4 x5 x3 x2) s9)) -∗ K ⟨⟩))
      ⊢ wp frame (wpE (defs₀ (F := F)) Variants.none c none) E (cc0__norm_kernel i arg1 harg1 arg2 harg2 arg3 harg3 arg4 harg4 arg5 harg5 arg6 harg6 arg7 harg7 arg8 harg8 arg9 harg9) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf1 hf2 hf3 hf4 hf5 hf8 hf9
  sl_exec (disch := first | exact hc1 | exact hc2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  isplitl [H7]
  · iexists _; isplitr
    swap; · iexact H7
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  isplitl [H8]
  · iexists _; isplitr
    swap; · iexact H8
    ipureintro
    sl_unfold_run_names
    rw [read_writes_all (S := S1x1) _ _ hz2]
    simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]
  iexists _; isplitr
  swap; · iexact H9
  ipureintro
  sl_unfold_run_names
  rw [read_writes_all (S := S1x1) _ _ hz2]
  simp only [View.readCov_cons_toLoadRect, readAt_all (S := S256x4096) _ _ hz2, readAt_all (S := S256x1) _ _ hz2, readAt_all (S := S256x16) _ _ hz2, readAt_all (S := S16x4096) _ _ hz2, readAt_all (S := S1x1) _ _ hz2]

/-! ## The pipeline's side: what the body finds and what it must leave -/

variable (V : (c : Dev nD) → (b : Ref sig .tc) → Buf (Elt F) ((c : Thread nD τ).loc b))

/-- Each input's current buffer holds its block at every point, fetched there or not: an unfetched window's block
    index has not moved since the point before, and the body leaves the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The inputs are never idle: the body leaves each at its block. -/
theorem leaves_0 (c : Dev nD) (t : Fin cfg0.N) :
    (dat V c).leavesExact 0 t = owns (c : Thread nD τ) (st0_0 t) fullShare (iblk V c 0 t) := by
  unfold Dat.leavesExact; rw [show cfg0.idle 0 (cfg0.grid.coords t) = false from rfl, after_0]
theorem leaves_1 (c : Dev nD) (t : Fin cfg0.N) :
    (dat V c).leavesExact 1 t = owns (c : Thread nD τ) (st0_1 t) fullShare (iblk V c 1 t) := by
  unfold Dat.leavesExact; rw [show cfg0.idle 1 (cfg0.grid.coords t) = false from rfl, after_1]
theorem leaves_2 (c : Dev nD) (t : Fin cfg0.N) :
    (dat V c).leavesExact 2 t = owns (c : Thread nD τ) (st0_2 t) fullShare (iblk V c 2 t) := by
  unfold Dat.leavesExact; rw [show cfg0.idle 2 (cfg0.grid.coords t) = false from rfl, after_2]
theorem leaves_3 (c : Dev nD) (t : Fin cfg0.N) :
    (dat V c).leavesExact 3 t = owns (c : Thread nD τ) (st0_3 t) fullShare (iblk V c 3 t) := by
  unfold Dat.leavesExact; rw [show cfg0.idle 3 (cfg0.grid.coords t) = false from rfl, after_3]
theorem leaves_4 (c : Dev nD) (t : Fin cfg0.N) :
    (dat V c).leavesExact 4 t = owns (c : Thread nD τ) (st0_4 t) fullShare (iblk V c 4 t) := by
  unfold Dat.leavesExact; rw [show cfg0.idle 4 (cfg0.grid.coords t) = false from rfl, after_4]

/-- Where the copy-out's condition fails the two outputs are idle and not written back; where it holds they are live. -/
theorem idle_5 : ∀ t : Fin cfg0.N, ¬cond2 (grid0.coords t) → cfg0.idle 5 (grid0.coords t) = true := by decide +kernel
theorem idle_6 : ∀ t : Fin cfg0.N, ¬cond2 (grid0.coords t) → cfg0.idle 6 (grid0.coords t) = true := by decide +kernel
theorem noFlush_5 : ∀ t : Fin cfg0.N, ¬cond2 (grid0.coords t) → (cfg0.win 5).flush t = false := by decide +kernel
theorem noFlush_6 : ∀ t : Fin cfg0.N, ¬cond2 (grid0.coords t) → (cfg0.win 6).flush t = false := by decide +kernel
theorem live_5 : ∀ t : Fin cfg0.N, cond2 (grid0.coords t) → cfg0.idle 5 (grid0.coords t) = false := by decide +kernel
theorem live_6 : ∀ t : Fin cfg0.N, cond2 (grid0.coords t) → cfg0.idle 6 (grid0.coords t) = false := by decide +kernel

/-- One step of each running total, at the point itself. -/
theorem accW0_succ (c : Dev nD) (t : Fin cfg0.N) :
    accW0 V c (t.val + 1) = k0_pay1 (k0_pay6 (w0blk V c t) (w0blk V c t) (accW0 V c t.val)) := by
  show k0_pay1 (k0_pay6 (w0blk V c (pt t.val)) (w0blk V c (pt t.val)) (accW0 V c t.val)) = _
  rw [pt_val]
theorem accDw_succ (c : Dev nD) (t : Fin cfg0.N) :
    accDw V c (t.val + 1) = k0_pay2 (k0_pay5 (bblk V c t) (ablk V c t) (mblk V c t) (fblk V c t)) (accDw V c t.val) := by
  show k0_pay2 (k0_pay5 (bblk V c (pt t.val)) (ablk V c (pt t.val)) (mblk V c (pt t.val)) (fblk V c (pt t.val))) (accDw V c t.val) = _
  rw [pt_val]
theorem accW0_zero (c : Dev nD) (n : ℕ) (h : n = 0) : accW0 V c n = k0_pay3 := by subst h; rfl
theorem accDw_zero (c : Dev nD) (n : ℕ) (h : n = 0) : accDw V c n = k0_pay4 := by subst h; rfl

/-- The invariant before the first point, before a later point, and after any point. -/
theorem PhiS_zero (c : Dev nD) (n : ℕ) (h : n = 0) : PhiS V c n = Pipeline.scopedRest (Ix := Unit) (Name := ℕ) (U := UR sig nD τ) (Lvl := ℕ) (Val := Elt F) spec0 c := by subst h; rfl
theorem PhiS_pos (c : Dev nD) (n : ℕ) (h : n ≠ 0) :
    PhiS V c n = iprop(owns (c : Thread nD τ) (Memref.whole cc0_scratch0) fullShare (accW0 V c n)
      ∗ owns (c : Thread nD τ) (Memref.whole cc0_scratch1) fullShare (accDw V c n)
      ∗ Pipeline.scopedRestBut (Ix := Unit) (Name := ℕ) (U := UR sig nD τ) (Lvl := ℕ) (Val := Elt F) spec0 c [cc0_scratch0, cc0_scratch1]) := by
  cases n with
  | zero => exact absurd rfl h
  | succ n => rfl
theorem PhiS_succ (c : Dev nD) (n : ℕ) :
    PhiS V c (n + 1) = iprop(owns (c : Thread nD τ) (Memref.whole cc0_scratch0) fullShare (accW0 V c (n + 1))
      ∗ owns (c : Thread nD τ) (Memref.whole cc0_scratch1) fullShare (accDw V c (n + 1))
      ∗ Pipeline.scopedRestBut (Ix := Unit) (Name := ℕ) (U := UR sig nD τ) (Lvl := ℕ) (Val := Elt F) spec0 c [cc0_scratch0, cc0_scratch1]) := rfl
theorem Phi_castSucc (c : Dev nD) (t : Fin cfg0.N) : (dat V c).Φ t.castSucc = PhiS V c t.val := by rw [Phi_eq]; rfl
theorem Phi_succ (c : Dev nD) (t : Fin cfg0.N) : (dat V c).Φ t.succ = PhiS V c (t.val + 1) := by rw [Phi_eq]; rfl

/-- The scoped rest with the two cells as memrefs owned at some contents. -/
theorem scoped_eq (c : Dev nD) :
    (Pipeline.scopedRest (Ix := Unit) (Name := ℕ) (U := UR sig nD τ) (Lvl := ℕ) (Val := Elt F) spec0 c : sProp 𝕄)
      = iprop(iprop((∃ d, owns (c : Thread nD τ) (Memref.whole cc0_scratch0) fullShare d) ∗ (∃ d, owns (c : Thread nD τ) (Memref.whole cc0_scratch1) fullShare d))
          ∗ Pipeline.scopedRestBut (Ix := Unit) (Name := ℕ) (U := UR sig nD τ) (Lvl := ℕ) (Val := Elt F) spec0 c [cc0_scratch0, cc0_scratch1]) := by
  rw [scopedRest0_split]; simp only [owns_whole]; try rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
/-- The body at any point. The inputs' memrefs hold their blocks; the point's number says which case it is in: at the
    first point the invariant is the scoped rest, whose two cells the body resets before it adds; at a later point the
    invariant hands the cells over at the totals so far; either way it takes them back at the totals after this point.
    Before the last point the outputs are idle and handed through untouched; at the last they receive the totals. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [Phi_castSucc, Phi_succ, PhiS_succ, accW0_succ, accDw_succ]
  rw [leaves_0, leaves_1, leaves_2, leaves_3, leaves_4]
  have hN : t.val < 16 := lt_of_lt_of_eq t.isLt (show cfg0.N = 16 from N_0)
  by_cases h0 : t.val = 0
  · have hc1 : cond1 (grid0.coords t) := (hcond1 t).mpr (by omega)
    have hc2 : ¬cond2 (grid0.coords t) := fun h => by have := (hcond2 t).mp h; omega
    rw [Dat.leavesExact_idle (dat V c) 5 t (idle_5 t hc2) (noFlush_5 t hc2),
      Dat.leavesExact_idle (dat V c) 6 t (idle_6 t hc2) (noFlush_6 t hc2)]
    rw [PhiS_zero V c t.val h0, scoped_eq, accW0_zero V c t.val h0, accDw_zero V c t.val h0]
    iintro ⟨⟨⟨HS8, HS9⟩, HR⟩, Ho, ⟨%d0, H0⟩, ⟨%d1, H1⟩, ⟨%d2, H2⟩, ⟨%d3, H3⟩, ⟨%d4, H4⟩, ⟨%d5, H5⟩, ⟨%d6, H6⟩⟩
    iapply (run_first c Set.univ (grid0.coords t) _ _ _ _ _ _ _ _ _ _ _ _ _ _ _ _ _ _ hc1 hc2 (w0blk V c t) (fblk V c t) (mblk V c t) (bblk V c t) (ablk V c t) ((dat V c).before 5 t d5) ((dat V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 HR]
    · isplitl [HS8]; · iexact HS8
      isplitl [HS9]; · iexact HS9
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6
  · have hc1 : ¬cond1 (grid0.coords t) := fun h => h0 (by have := (hcond1 t).mp h; omega)
    rw [PhiS_pos V c t.val h0]
    by_cases h15 : t.val = 15
    · have hc2 : cond2 (grid0.coords t) := (hcond2 t).mpr (by omega)
      rw [show (dat V c).leavesExact 5 t = owns (c : Thread nD τ) (st0_5 t) fullShare ((dat V c).after 5 t) from by
        unfold Dat.leavesExact; rw [live_5 t hc2]]
      rw [show (dat V c).leavesExact 6 t = owns (c : Thread nD τ) (st0_6 t) fullShare ((dat V c).after 6 t) from by
        unfold Dat.leavesExact; rw [live_6 t hc2]]
      rw [after_5, after_6, accW0_succ, accDw_succ]
      iintro ⟨⟨HS8, HS9, HR⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid0.coords t) _ _ _ _ _ _ _ _ _ _ _ _ _ _ _ _ _ _ hc1 hc2 (w0blk V c t) (fblk V c t) (mblk V c t) (bblk V c t) (ablk V c t) (accW0 V c t.val) (accDw V c t.val) _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 HR]
      · isplitl [HS8]; · iexact HS8
        isplitl [HS9]; · iexact HS9
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond2 (grid0.coords t) := fun h => h15 (by have := (hcond2 t).mp h; omega)
      rw [Dat.leavesExact_idle (dat V c) 5 t (idle_5 t hc2) (noFlush_5 t hc2),
        Dat.leavesExact_idle (dat V c) 6 t (idle_6 t hc2) (noFlush_6 t hc2)]
      iintro ⟨⟨HS8, HS9, HR⟩, Ho, ⟨%d0, H0⟩, ⟨%d1, H1⟩, ⟨%d2, H2⟩, ⟨%d3, H3⟩, ⟨%d4, H4⟩, ⟨%d5, H5⟩, ⟨%d6, H6⟩⟩
      iapply (run_mid c Set.univ (grid0.coords t) _ _ _ _ _ _ _ _ _ _ _ _ _ _ _ _ _ _ hc1 hc2 (w0blk V c t) (fblk V c t) (mblk V c t) (bblk V c t) (ablk V c t) ((dat V c).before 5 t d5) ((dat V c).before 6 t d6) (accW0 V c t.val) (accDw V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 HR]
      · isplitl [HS8]; · iexact HS8
        isplitl [HS9]; · iexact HS9
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dat V c).Φ 0 := by
  rw [Phi_eq, PhiS_zero V c ((0 : Fin (cfg0.N + 1)).val) (Fin.val_zero _)]

/-- After the last point the invariant gives the scoped buffers back, their contents forgotten. -/
theorem hout (c : Dev nD) :
    (dat V c).Φ (Fin.last cfg0.N) ⊢ (Pipeline.scopedRest (Ix := Unit) (Name := ℕ) (U := UR sig nD τ) (Lvl := ℕ) (Val := Elt F) spec0 c : sProp 𝕄) := by
  rw [Phi_eq, PhiS_pos V c _ (by rw [Fin.val_last]; have : cfg0.N = 16 := N_0; omega), scoped_eq]
  iintro ⟨HS8, HS9, HR⟩
  isplitl [HS8 HS9]
  · isplitl [HS8]; · iexists _; iexact HS8
    iexists _; iexact HS9
  iexact HR

end Cert.KernelIdeal.R0

end
-- ==== Proof.KI.R1Body.lean ====
/-
  Launch 1: the body's run at every grid point against the proof data of R1Data, and the invariant's two ends.
-/
import proofs.«135257_j31001073942670_1_alg».proof.Proof.KI.R1Data
import Idealize.ShloMosaic.Lib.Pipeline.Value
import Idealize.ShloMosaic.Lib.Tactic
import Idealize.ShloMosaic.Lib.Ring

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however spelt. -/
theorem off0 : (![0, 0] : Fin 2 → ℕ) = fun _ => 0 := funext fun a => by fin_cases a <;> rfl

/-- The one store of the body covers the output's buffer. -/
theorem cover_out (p : Vec F S256x4096 .bf16) (y : S256x4096.Idx) :
    ∃ pc ∈ ([⟨Rect.unit (s := S256x4096) ![0, 0] S256x4096.size inb_S256x4096_S256x4096_0_0, p⟩] :
      List (View.Piece (Elt F) S256x4096 .bf16)), y ∈ pc.1.set :=
  ⟨_, List.mem_singleton_self _, View.mem_set_unit_zero off0 inb_S256x4096_S256x4096_0_0 y⟩

set_option maxHeartbeats 1000000 in
/-- The body on whole memrefs, the seven inputs at read contents and the output at anything, runs to the continuation
    holding the inputs as they were and the output at the payload of the inputs. -/
theorem sound_kernel (c : Dev nD) (E : Set ℕ) (i : grid1.Coords)
    (arg1 : Memref sig .tc .vmem S256x4096 .f32) (harg1 : arg1.IsWhole)
    (arg2 : Memref sig .tc .vmem S256x4096 .f32) (harg2 : arg2.IsWhole)
    (arg3 : Memref sig .tc .vmem S256x4096 .f32) (harg3 : arg3.IsWhole)
    (arg4 : Memref sig .tc .vmem S256x1 .f32) (harg4 : arg4.IsWhole)
    (arg5 : Memref sig .tc .vmem S256x16 .f32) (harg5 : arg5.IsWhole)
    (arg6 : Memref sig .tc .vmem S16x4096 .f32) (harg6 : arg6.IsWhole)
    (arg7 : Memref sig .tc .vmem S1x1 .f32) (harg7 : arg7.IsWhole)
    (arg8 : Memref sig .tc .vmem S256x4096 .bf16) (harg8 : arg8.IsWhole)
    (x1 : Vec F S256x4096 .f32) (x2 : Vec F S256x4096 .f32) (x3 : Vec F S256x4096 .f32) (x4 : Vec F S256x1 .f32)
    (x5 : Vec F S256x16 .f32) (x6 : Vec F S16x4096 .f32) (x7 : Vec F S1x1 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7
            ∗ owns (c : Thread nD τ) arg8 fullShare (k1_pay1 x5 x6 x4 x3 x7 x1 x2)) -∗ K ⟨⟩))
      ⊢ wp frame (wpE (defs₀ (F := F)) Variants.none c none) E
          (cc1__weff_kernel i arg1 harg1 arg2 harg2 arg3 harg3 arg4 harg4 arg5 harg5 arg6 harg6 arg7 harg7 arg8 harg8) K := by
  simp only [cc1__weff_kernel_eq_skeleton]; unfold cc1__weff_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover_out _),
    View.canon_unit_zero off0]
  simp only [View.readAt_eq_ld, View.ld_unit_zero (S := S256x16) off0, View.ld_unit_zero (S := S16x4096) off0,
    View.ld_unit_zero (S := S256x1) off0, View.ld_unit_zero (S := S256x4096) off0, View.ld_unit_zero (S := S1x1) off0]

variable (V : (c : Dev nD) → (b : Ref sig .tc) → Buf (Elt F) ((c : Thread nD τ).loc b))

/-! ## Each input's current buffer holds its block at every point, fetched there or not -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' memrefs hold their blocks, so the run on whole memrefs applies; the invariant
    and the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (w0blk V c t) (waccblk V c t) (fblk V c t) (mblk V c t) (bblk V c t) (ablk V c t) (facblk V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) :
    (Pipeline.scopedRest (Ix := Unit) (Name := ℕ) (U := UR sig nD τ) (Lvl := ℕ) (Val := Elt F) spec1 c : sProp 𝕄) ⊢ (dat V c).Φ 0 := by
  rw [Phi_eq]

/-- After the last point the invariant gives the scoped buffers back, their contents forgotten. -/
theorem hout (c : Dev nD) :
    (dat V c).Φ (Fin.last cfg1.N) ⊢ (Pipeline.scopedRest (Ix := Unit) (Name := ℕ) (U := UR sig nD τ) (Lvl := ℕ) (Val := Elt F) spec1 c : sProp 𝕄) := by
  rw [Phi_eq]

end Cert.KernelIdeal.R1

end
-- ==== Proof.KI.R2Body.lean ====
/-
  Launch 2: the body's run at every grid point against the proof data of R2Data, and the invariant's two ends.
-/
import proofs.«135257_j31001073942670_1_alg».proof.Proof.KI.R2Data
import Idealize.ShloMosaic.Lib.Tactic
import Idealize.ShloMosaic.Lib.Ring
import Idealize.ShloMosaic.Lib.Pipeline.Value

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, in closed form over the grid -/

/-- The reset's condition (the contraction block is the first), as the body computes it from the coordinates. -/
abbrev condR (i : grid2.Coords) : Prop :=
  (Scalar.cmpi .ne (Scalar.extui (Scalar.cmpi .eq (BitVec.ofNat 32 (i 2).val) 0#32)) 0#32) = 1#1
/-- It holds at the points ≡ 0 (mod 4). -/
theorem hcondR : ∀ t : Fin cfg2.N, condR (grid2.coords t) ↔ t.val % 4 = 0 :=
  (by decide +kernel : ∀ t : Fin grid2.N, condR (grid2.coords t) ↔ t.val % 4 = 0)

/-- The output store's condition (the contraction block is the last). -/
abbrev condO (i : grid2.Coords) : Prop := k2_cond2 i = 1#1
/-- It holds at the points ≡ 3 (mod 4). -/
theorem hcondO : ∀ t : Fin cfg2.N, condO (grid2.coords t) ↔ t.val % 4 = 3 :=
  (by decide +kernel : ∀ t : Fin grid2.N, condO (grid2.coords t) ↔ t.val % 4 = 3)

/-- The inputs' windows are never idle. -/
theorem live_0 : ∀ t : Fin cfg2.N, cfg2.idle 0 (grid2.coords t) = false := fun _ => rfl
theorem live_1 : ∀ t : Fin cfg2.N, cfg2.idle 1 (grid2.coords t) = false := fun _ => rfl
theorem live_2 : ∀ t : Fin cfg2.N, cfg2.idle 2 (grid2.coords t) = false := fun _ => rfl
/-- The output's window is idle exactly where the body does not store it, and is not written back there. -/
theorem idle_3 : ∀ t : Fin cfg2.N, ¬condO (grid2.coords t) → cfg2.idle 3 (grid2.coords t) = true := by decide +kernel
theorem noFlush_3 : ∀ t : Fin cfg2.N, ¬condO (grid2.coords t) → (cfg2.win 3).flush t = false := by decide +kernel
theorem live_3 : ∀ t : Fin cfg2.N, condO (grid2.coords t) → cfg2.idle 3 (grid2.coords t) = false := by decide +kernel

/-! ## The whole-buffer rectangle -/

theorem zeros2 : (![0, 0] : Fin 2 → Nat) = fun _ => 0 := funext fun a => by fin_cases a <;> rfl

/-- A load through the whole-buffer rectangle reads the contents; one store through it, last, leaves its payload
    whatever was stored before; a load after it reads that payload. -/
theorem readAt_unit {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

theorem read_writes_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h inb w L]

/-- The three at the tile's shape and at the bias row's. -/
theorem readAt_T {sp : Space} {e : EltTy} (v : View sig .tc sp S1024x1024 e) (f : v.ty.Contents (Elt F)) (inb) :
    v.readAt (Elt F) (Rect.unit (s := S1024x1024) ![0, 0] S1024x1024.size inb).toLoadRect f = v.read (Elt F) f :=
  readAt_unit v f zeros2 inb
theorem readAt_R {sp : Space} {e : EltTy} (v : View sig .tc sp S1x1024 e) (f : v.ty.Contents (Elt F)) (inb) :
    v.readAt (Elt F) (Rect.unit (s := S1x1024) ![0, 0] S1x1024.size inb).toLoadRect f = v.read (Elt F) f :=
  readAt_unit v f zeros2 inb
theorem read_writes_T {sp : Space} {e : EltTy} (v : View sig .tc sp S1024x1024 e) (f : v.ty.Contents (Elt F)) (inb)
    (w : S1024x1024.Idx → Elt F e) (L : List (View.Piece (Elt F) S1024x1024 e)) :
    v.read (Elt F) (v.writes (Elt F) f ((⟨Rect.unit (s := S1024x1024) ![0, 0] S1024x1024.size inb, w⟩ : View.Piece (Elt F) S1024x1024 e) :: L)) = w :=
  read_writes_unit v f zeros2 inb w L
theorem readCov_T {sp : Space} {e : EltTy} (v : View sig .tc sp S1024x1024 e) (inb) (w : S1024x1024.Idx → Elt F e) :
    v.readCov [(⟨Rect.unit (s := S1024x1024) ![0, 0] S1024x1024.size inb, w⟩ : View.Piece (Elt F) S1024x1024 e)]
        (Rect.unit (s := S1024x1024) ![0, 0] S1024x1024.size inb).toLoadRect = w :=
  View.readCov_unit_zero v zeros2 inb w

/-! ## What the inputs' buffers hold -/

variable (V : (c : Dev nD) → (b : Ref sig .tc) → Buf (Elt F) ((c : Thread nD τ).loc b))

/-- An input's current buffer holds its tile at every point, fetched there or not: where it is not fetched the
    tile's index has not moved. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body on any whole memrefs, case by case -/

set_option maxHeartbeats 1000000 in
/-- Where the contraction block is the first and not the last: the scratch tile, whatever it held, is zeroed and the
    tile product added on; the bias row's buffer and the output's are not touched. -/
theorem run_A (c : Dev nD) (E : Set ℕ) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : condR i) (hc1 : ¬condO i) (x0 : Vec F S1024x1024 .f32) (x1 : Vec F S1024x1024 .bf16) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k2_pay2 x0 x1 k2_pay1)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_T, readAt_T, readAt_T, readCov_T]

set_option maxHeartbeats 1000000 in
/-- Where the contraction block is neither the first nor the last: the tile product is added onto what the scratch
    tile held. -/
theorem run_B (c : Dev nD) (E : Set ℕ) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬condR i) (hc1 : ¬condO i) (x0 : Vec F S1024x1024 .f32) (x1 : Vec F S1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k2_pay2 x0 x1 xs)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_T, readAt_T, readAt_T, readAt_T]

set_option maxHeartbeats 1000000 in
/-- Where the contraction block is the last (and not the first): the tile product is added onto what the scratch tile
    held, and the output's buffer, whatever it held, is stored the total plus the bias row. -/
theorem run_C (c : Dev nD) (E : Set ℕ) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬condR i) (hc1 : condO i) (x0 : Vec F S1024x1024 .f32) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 xs) x2) ∗ owns (c : Thread nD τ) arg7 fullShare (k2_pay2 x0 x1 xs)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes_T, readCov_T, readAt_T, readAt_T, readAt_T, readAt_R]
  iexists _; isplitr
  swap; · iexact HS
  ipureintro
  sl_unfold_run_names
  rw [read_writes_T, readAt_T, readAt_T, readAt_T]

/-! ## The invariant -/

/-- The scoped rest with the scratch tile as a whole memref owned at some contents. -/
theorem scopedRest_eq (c : Dev nD) :
    (Pipeline.scopedRest (Ix := Unit) (Name := ℕ) (U := UR sig nD τ) (Lvl := ℕ) (Val := Elt F) spec2 c : sProp 𝕄)
      = iprop((∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  rw [scopedRest2_split]; simp only [owns_whole]; try rfl

theorem PhiS_zero (c : Dev nD) (n : ℕ) (hz : n = 0) : PhiS V c n = (Pipeline.scopedRest (Ix := Unit) (Name := ℕ) (U := UR sig nD τ) (Lvl := ℕ) (Val := Elt F) spec2 c : sProp 𝕄) := by
  subst hz; rfl

/-- Before a point that is not the first: the scratch tile at what the point before left. -/
theorem PhiS_pos (c : Dev nD) (n : ℕ) (hz : n ≠ 0) :
    PhiS V c n = iprop(owns (c : Thread nD τ) (Memref.whole cc2_scratch0) fullShare (acc V c n) ∗ Pipeline.scopedRestBut (Ix := Unit) (Name := ℕ) (U := UR sig nD τ) (Lvl := ℕ) (Val := Elt F) spec2 c [cc2_scratch0]) := by
  cases n with
  | zero => exact absurd rfl hz
  | succ n => rfl

/-- At any point the invariant holds the scratch tile at SOME contents. -/
theorem PhiS_any (c : Dev nD) (n : ℕ) :
    PhiS V c n ⊢ iprop((∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  cases n with
  | zero => rw [PhiS_zero V c 0 rfl, scopedRest_eq]
  | succ n =>
    rw [PhiS_pos V c (n + 1) (Nat.succ_ne_zero n)]
    iintro ⟨HS, HR⟩
    isplitl [HS]; · iexists _; iexact HS
    iexact HR

theorem Phi_castSucc (c : Dev nD) (t : Fin cfg2.N) : (dat V c).Φ t.castSucc = PhiS V c t.val := by
  rw [Phi_eq, Fin.coe_castSucc]
theorem Phi_succ (c : Dev nD) (t : Fin cfg2.N) :
    (dat V c).Φ t.succ = iprop(owns (c : Thread nD τ) (Memref.whole cc2_scratch0) fullShare (acc V c (t.val + 1)) ∗ Pipeline.scopedRestBut (Ix := Unit) (Name := ℕ) (U := UR sig nD τ) (Lvl := ℕ) (Val := Elt F) spec2 c [cc2_scratch0]) := by
  rw [Phi_eq, Fin.val_succ]; rfl

/-- The partial product after point `t`, by the point's case. -/
theorem acc_first (c : Dev nD) (t : Fin cfg2.N) (h0 : t.val % 4 = 0) :
    acc V c (t.val + 1) = k2_pay2 (xblk V c t) (wblk V c t) k2_pay1 := by
  rw [acc_succ, if_pos h0, pt_val]
theorem acc_next (c : Dev nD) (t : Fin cfg2.N) (h0 : ¬t.val % 4 = 0) :
    acc V c (t.val + 1) = k2_pay2 (xblk V c t) (wblk V c t) (acc V c t.val) := by
  rw [acc_succ, if_neg h0, pt_val]

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves_0 (c : Dev nD) (t : Fin cfg2.N) :
    (dat V c).leavesExact 0 t = owns (c : Thread nD τ) (st2_0 t) fullShare (iblk V c 0 t) := by
  unfold Dat.leavesExact; rw [live_0 t, after_0]
theorem leaves_1 (c : Dev nD) (t : Fin cfg2.N) :
    (dat V c).leavesExact 1 t = owns (c : Thread nD τ) (st2_1 t) fullShare (iblk V c 1 t) := by
  unfold Dat.leavesExact; rw [live_1 t, after_1]
theorem leaves_2 (c : Dev nD) (t : Fin cfg2.N) :
    (dat V c).leavesExact 2 t = owns (c : Thread nD τ) (st2_2 t) fullShare (iblk V c 2 t) := by
  unfold Dat.leavesExact; rw [live_2 t, after_2]
/-- The output's buffer where the body stores it: the stored tile. -/
theorem leaves_3_live (c : Dev nD) (t : Fin cfg2.N) (h : condO (grid2.coords t)) :
    (dat V c).leavesExact 3 t = owns (c : Thread nD τ) (st2_3 t) fullShare (outblk V c t) := by
  unfold Dat.leavesExact; rw [live_3 t h, after_3]
/-- Elsewhere: as the body found it. -/
theorem leaves_3_idle (c : Dev nD) (t : Fin cfg2.N) (h : ¬condO (grid2.coords t)) :
    (dat V c).leavesExact 3 t = iprop(∃ d, owns (c : Thread nD τ) (st2_3 t) fullShare ((dat V c).before 3 t d)) :=
  Dat.leavesExact_idle (dat V c) 3 t (idle_3 t h) (noFlush_3 t h)

set_option maxHeartbeats 4000000 in
/-- The body at any point: the inputs' buffers hold their tiles; the point's number mod 4 says which case it is in; the
    invariant hands the body the scratch tile at what the point before left (at anything before the first point) and
    takes it back at this point's partial product; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [Phi_succ, Phi_castSucc, leaves_0, leaves_1, leaves_2]
  by_cases h0 : t.val % 4 = 0
  · have hR : condR (grid2.coords t) := (hcondR t).mpr h0
    have hO : ¬condO (grid2.coords t) := fun h => by have := (hcondO t).mp h; omega
    rw [leaves_3_idle V c t hO, acc_first V c t h0]
    iintro ⟨HP, Ho, ⟨%d0, H0⟩, ⟨%d1, H1⟩, ⟨%d2, H2⟩, ⟨%d3, H3⟩⟩
    ihave HQ := (PhiS_any V c t.val) $$ HP
    icases HQ with ⟨HS, HR⟩
    iapply (run_A c Set.univ (grid2.coords t) _ _ _ _ _ _ _ _ _ _ hR hO (xblk V c t) (wblk V c t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · have hR : ¬condR (grid2.coords t) := fun h => h0 ((hcondR t).mp h)
    have hz : t.val ≠ 0 := fun h => h0 (by rw [h])
    rw [PhiS_pos V c t.val hz, acc_next V c t h0]
    by_cases h3 : t.val % 4 = 3
    · have hO : condO (grid2.coords t) := (hcondO t).mpr h3
      rw [leaves_3_live V c t hO]; unfold outblk; rw [acc_next V c t h0]
      iintro ⟨⟨HS, HR⟩, Ho, ⟨%d0, H0⟩, ⟨%d1, H1⟩, ⟨%d2, H2⟩, ⟨%d3, H3⟩⟩
      iapply (run_C c Set.univ (grid2.coords t) _ _ _ _ _ _ _ _ _ _ hR hO (xblk V c t) (wblk V c t) (biasblk V c t) (acc V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · have hO : ¬condO (grid2.coords t) := fun h => h3 ((hcondO t).mp h)
      rw [leaves_3_idle V c t hO]
      iintro ⟨⟨HS, HR⟩, Ho, ⟨%d0, H0⟩, ⟨%d1, H1⟩, ⟨%d2, H2⟩, ⟨%d3, H3⟩⟩
      iapply (run_B c Set.univ (grid2.coords t) _ _ _ _ _ _ _ _ _ _ hR hO (xblk V c t) (wblk V c t) (acc V c t.val) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) :
    (Pipeline.scopedRest (Ix := Unit) (Name := ℕ) (U := UR sig nD τ) (Lvl := ℕ) (Val := Elt F) spec2 c : sProp 𝕄) ⊢ (dat V c).Φ 0 := by
  rw [Phi_eq, PhiS_zero V c _ (Fin.val_zero _)]

/-- After the last point the invariant gives the scoped buffers back, their contents forgotten. -/
theorem hout (c : Dev nD) :
    (dat V c).Φ (Fin.last cfg2.N) ⊢ (Pipeline.scopedRest (Ix := Unit) (Name := ℕ) (U := UR sig nD τ) (Lvl := ℕ) (Val := Elt F) spec2 c : sProp 𝕄) := by
  rw [Phi_eq, scopedRest_eq]
  exact PhiS_any V c _

end Cert.KernelIdeal.R2

end
-- ==== Proof.KI.Run.lean ====
/-
  The run of the whole program: the three launches as segments between the host stretches, over valuations that name
  what every unscoped buffer holds between two items, and the launch theorem for a program of several regions. The post
  reads the result array and the eight argument arrays off the last valuation: the result is the last reshape of what
  the third launch leaves in its output array; no item writes an argument.
-/
import proofs.«135257_j31001073942670_1_alg».proof.Proof.KI.RunDefs
import proofs.«135257_j31001073942670_1_alg».proof.Proof.KI.R0Body
import proofs.«135257_j31001073942670_1_alg».proof.Proof.KI.R1Body
import proofs.«135257_j31001073942670_1_alg».proof.Proof.KI.R2Body
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev E : Fin 4 → Dev nD → sProp 𝕄 := fun _ c =>
  iprop((∃ r, prngReg c r) ∗ ∃ W, owes (c : Thread nD τ) (0 : CellTallies nD τ sig Unit) W)

/-- The valuations between items read at the TensorCore's references. -/
abbrev XV1 : (c : Dev nD) → (b : Ref sig .tc) → Buf (Elt F) ((c : Thread nD τ).loc b) := fun c b => V1 m c b
abbrev XV2 : (c : Dev nD) → (b : Ref sig .tc) → Buf (Elt F) ((c : Thread nD τ).loc b) := fun c b => V2 m (outs m) c b
abbrev XV5 : (c : Dev nD) → (b : Ref sig .tc) → Buf (Elt F) ((c : Thread nD τ).loc b) := fun c b => V5 m (outs m) c b
abbrev XV6 : (c : Dev nD) → (b : Ref sig .tc) → Buf (Elt F) ((c : Thread nD τ).loc b) := fun c b => V6 m (outs m) c b
abbrev XV7 : (c : Dev nD) → (b : Ref sig .tc) → Buf (Elt F) ((c : Thread nD τ).loc b) := fun c b => V7 m (outs m) c b
abbrev XV8 : (c : Dev nD) → (b : Ref sig .tc) → Buf (Elt F) ((c : Thread nD τ).loc b) := fun c b => V8 m (outs m) c b

/-! ## The valuation after a launch, read at a buffer -/

theorem V2_at_other (c : Dev nD) (r : Ref sig .tc) (h : r ∉ ([main_v1_0, main_v1_1] : List (Ref sig .tc))) :
    V2 m (outs m) c r = V1 m c r := V2_of m (outs m) c r h
theorem V2_at_main_v1_0 (c : Dev nD) : V2 m (outs m) c main_v1_0 = W2 m c main_v1_0 := by
  simp only [V2, Function.update_of_ne (StableHlo.devRef_ne_of_ne (by decide) : (Proc.devRef .tc main_v1_0 : DevRef τ sig) ≠ Proc.devRef .tc main_v1_1), Function.update_self]
  rfl
theorem V2_at_main_v1_1 (c : Dev nD) : V2 m (outs m) c main_v1_1 = W2 m c main_v1_1 := by
  simp only [V2, Function.update_self]
  rfl
theorem V6_at_other (c : Dev nD) (r : Ref sig .tc) (h : r ∉ ([main_v14] : List (Ref sig .tc))) :
    V6 m (outs m) c r = V5 m (outs m) c r := V6_of m (outs m) c r h
theorem V6_at_main_v14 (c : Dev nD) : V6 m (outs m) c main_v14 = W6 m c main_v14 := by
  simp only [V6, Function.update_self]
  rfl
theorem V8_at_other (c : Dev nD) (r : Ref sig .tc) (h : r ∉ ([main_v17] : List (Ref sig .tc))) :
    V8 m (outs m) c r = V7 m (outs m) c r := V8_of m (outs m) c r h
theorem V8_at_main_v17 (c : Dev nD) : V8 m (outs m) c main_v17 = W8 m c main_v17 := by
  simp only [V8, Function.update_self]
  rfl

/-! ## Launch 0 as a segment of the program -/

/-- What launch 0 leaves in each of its windows' arrays is what the valuation after it holds there: an input as entered,
    an output at what its write-backs make of it. -/
theorem hF0 (c : Dev nD) (w : Fin cfg0.W) : (pdats m 0 c).arrAt w cfg0.N = XV2 m c (Pipeline.arrRef spec0 w) := by
  have hW : ∀ w : Fin cfg0.W, W2 m c (Proc.devRef .tc (Pipeline.arrRef spec0 w)) = (R0.dat (U1 m) c).arrAt w cfg0.N :=
    fun w => Pipeline.withArrays_arr spec0 launch0.win.arr_inj c _ _ w
  match w with
  | ⟨0, _⟩ => exact ((R0.dat (U1 m) c).arrAt_in 0 rfl _).trans ((R0.A_eq (U1 m) c 0).trans (V2_at_other m c main_arg1 (by decide)).symm)
  | ⟨1, _⟩ => exact ((R0.dat (U1 m) c).arrAt_in 1 rfl _).trans ((R0.A_eq (U1 m) c 1).trans (V2_at_other m c main_arg7 (by decide)).symm)
  | ⟨2, _⟩ => exact ((R0.dat (U1 m) c).arrAt_in 2 rfl _).trans ((R0.A_eq (U1 m) c 2).trans (V2_at_other m c main_v0 (by decide)).symm)
  | ⟨3, _⟩ => exact ((R0.dat (U1 m) c).arrAt_in 3 rfl _).trans ((R0.A_eq (U1 m) c 3).trans (V2_at_other m c main_arg5 (by decide)).symm)
  | ⟨4, _⟩ => exact ((R0.dat (U1 m) c).arrAt_in 4 rfl _).trans ((R0.A_eq (U1 m) c 4).trans (V2_at_other m c main_arg4 (by decide)).symm)
  | ⟨5, _⟩ => exact (hW 5).symm.trans (V2_at_main_v1_0 m c).symm
  | ⟨6, _⟩ => exact (hW 6).symm.trans (V2_at_main_v1_1 m c).symm

/-- Every buffer that is no window's array of launch 0 is left as entered. -/
theorem hrest0 (c : Dev nD) : ∀ b, b ∉ Finset.univ.image (Pipeline.arrRef spec0) → XV2 m c b = XV1 m c b := fun b hb =>
  V2_at_other m c b (by
    intro h
    simp only [List.mem_cons, List.mem_nil_iff, or_false] at h
    rcases h with rfl | rfl
    · exact hb (Finset.mem_image.mpr ⟨5, Finset.mem_univ _, rfl⟩)
    · exact hb (Finset.mem_image.mpr ⟨6, Finset.mem_univ _, rfl⟩))

-- a library lemma stated over the pinned configuration unifies with the printed one only when unification may unfold
-- plain definitions in a metavariable's type
set_option backward.isDefEq.respectTransparency.types false in
/-- Launch 0 over the thread state: entered from every unscoped buffer at the valuation before it, left at the one
    after it. Its arrays are split out of the unscoped buffers and put back at the exit contents; the scoped buffers no
    window stages go into the kernel's invariant and come back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (U1 m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(emp)
  Y c := iprop(emp)
  Z c := iprop(Pipeline.unscopedRest (Ix := Unit) (Name := ℕ) (U := UR sig nD τ) (Lvl := ℕ) spec0 c (XV1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (XV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (R0.dat (U1 m) c).Φ 0 from rfl]
    iintro ⟨-, -, Hr⟩
    iapply (R0.hin (U1 m) c)
    iexact Hr
  hout c := by
    rw [Pipeline.ownSems0_none, show (pdats m 0 c).Φ (Fin.last _) = (R0.dat (U1 m) c).Φ (Fin.last cfg0.N) from rfl]
    iintro H
    isplitr; · iempintro
    isplitr; · iempintro
    iapply (R0.hout (U1 m) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (XV1 m c) (XV2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Launch 1 as a segment of the program -/

/-- What launch 1 leaves in each of its windows' arrays is what the valuation after it holds there: an input as entered,
    an output at what its write-backs make of it. -/
theorem hF1 (c : Dev nD) (w : Fin cfg1.W) : (pdats m 1 c).arrAt w cfg1.N = XV6 m c (Pipeline.arrRef spec1 w) := by
  have hW : ∀ w : Fin cfg1.W, W6 m c (Proc.devRef .tc (Pipeline.arrRef spec1 w)) = (R1.dat (U5 m) c).arrAt w cfg1.N :=
    fun w => Pipeline.withArrays_arr spec1 launch1.win.arr_inj c _ _ w
  match w with
  | ⟨0, _⟩ => exact ((R1.dat (U5 m) c).arrAt_in 0 rfl _).trans ((R1.A_eq (U5 m) c 0).trans (V6_at_other m c main_arg1 (by decide)).symm)
  | ⟨1, _⟩ => exact ((R1.dat (U5 m) c).arrAt_in 1 rfl _).trans ((R1.A_eq (U5 m) c 1).trans (V6_at_other m c main_arg2 (by decide)).symm)
  | ⟨2, _⟩ => exact ((R1.dat (U5 m) c).arrAt_in 2 rfl _).trans ((R1.A_eq (U5 m) c 2).trans (V6_at_other m c main_arg7 (by decide)).symm)
  | ⟨3, _⟩ => exact ((R1.dat (U5 m) c).arrAt_in 3 rfl _).trans ((R1.A_eq (U5 m) c 3).trans (V6_at_other m c main_v0 (by decide)).symm)
  | ⟨4, _⟩ => exact ((R1.dat (U5 m) c).arrAt_in 4 rfl _).trans ((R1.A_eq (U5 m) c 4).trans (V6_at_other m c main_arg5 (by decide)).symm)
  | ⟨5, _⟩ => exact ((R1.dat (U5 m) c).arrAt_in 5 rfl _).trans ((R1.A_eq (U5 m) c 5).trans (V6_at_other m c main_arg4 (by decide)).symm)
  | ⟨6, _⟩ => exact ((R1.dat (U5 m) c).arrAt_in 6 rfl _).trans ((R1.A_eq (U5 m) c 6).trans (V6_at_other m c main_v13 (by decide)).symm)
  | ⟨7, _⟩ => exact (hW 7).symm.trans (V6_at_main_v14 m c).symm

/-- Every buffer that is no window's array of launch 1 is left as entered. -/
theorem hrest1 (c : Dev nD) : ∀ b, b ∉ Finset.univ.image (Pipeline.arrRef spec1) → XV6 m c b = XV5 m c b := fun b hb =>
  V6_at_other m c b (by
    intro h
    simp only [List.mem_cons, List.mem_nil_iff, or_false] at h
    rcases h with rfl
    · exact hb (Finset.mem_image.mpr ⟨7, Finset.mem_univ _, rfl⟩))

-- a library lemma stated over the pinned configuration unifies with the printed one only when unification may unfold
-- plain definitions in a metavariable's type
set_option backward.isDefEq.respectTransparency.types false in
/-- Launch 1 over the thread state: entered from every unscoped buffer at the valuation before it, left at the one
    after it. Its arrays are split out of the unscoped buffers and put back at the exit contents; the scoped buffers no
    window stages go into the kernel's invariant and come back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (U5 m) c).loose
  hwaits := Pipeline.hwaits_of_owed_zero _ _ _ _ L lv 1 fun _ _ => rfl
  pre c := iprop(StableHlo.held (c : Thread nD τ) (Pipeline.ucRefs τ sig) (V5 m (outs m) c) ∗ E 1 c)
  post c := iprop(StableHlo.held (c : Thread nD τ) (Pipeline.ucRefs τ sig) (V6 m (outs m) c) ∗ E 2 c)
  X c := iprop(emp)
  Y c := iprop(emp)
  Z c := iprop(Pipeline.unscopedRest (Ix := Unit) (Name := ℕ) (U := UR sig nD τ) (Lvl := ℕ) spec1 c (XV5 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (XV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (R1.dat (U5 m) c).Φ 0 from rfl]
    iintro ⟨-, -, Hr⟩
    iapply (R1.hin (U5 m) c)
    iexact Hr
  hout c := by
    rw [Pipeline.ownSems0_none, show (pdats m 1 c).Φ (Fin.last _) = (R1.dat (U5 m) c).Φ (Fin.last cfg1.N) from rfl]
    iintro H
    isplitr; · iempintro
    isplitr; · iempintro
    iapply (R1.hout (U5 m) c)
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (XV5 m c) (XV6 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Launch 2 as a segment of the program -/

/-- What launch 2 leaves in each of its windows' arrays is what the valuation after it holds there: an input as entered,
    an output at what its write-backs make of it. -/
theorem hF2 (c : Dev nD) (w : Fin cfg2.W) : (pdats m 2 c).arrAt w cfg2.N = XV8 m c (Pipeline.arrRef spec2 w) := by
  have hW : ∀ w : Fin cfg2.W, W8 m c (Proc.devRef .tc (Pipeline.arrRef spec2 w)) = (R2.dat (U7 m) c).arrAt w cfg2.N :=
    fun w => Pipeline.withArrays_arr spec2 launch2.win.arr_inj c _ _ w
  match w with
  | ⟨0, _⟩ => exact ((R2.dat (U7 m) c).arrAt_in 0 rfl _).trans ((R2.A_eq (U7 m) c 0).trans (V8_at_other m c main_v15 (by decide)).symm)
  | ⟨1, _⟩ => exact ((R2.dat (U7 m) c).arrAt_in 1 rfl _).trans ((R2.A_eq (U7 m) c 1).trans (V8_at_other m c main_v14 (by decide)).symm)
  | ⟨2, _⟩ => exact ((R2.dat (U7 m) c).arrAt_in 2 rfl _).trans ((R2.A_eq (U7 m) c 2).trans (V8_at_other m c main_v16 (by decide)).symm)
  | ⟨3, _⟩ => exact (hW 3).symm.trans (V8_at_main_v17 m c).symm

/-- Every buffer that is no window's array of launch 2 is left as entered. -/
theorem hrest2 (c : Dev nD) : ∀ b, b ∉ Finset.univ.image (Pipeline.arrRef spec2) → XV8 m c b = XV7 m c b := fun b hb =>
  V8_at_other m c b (by
    intro h
    simp only [List.mem_cons, List.mem_nil_iff, or_false] at h
    rcases h with rfl
    · exact hb (Finset.mem_image.mpr ⟨3, Finset.mem_univ _, rfl⟩))

-- a library lemma stated over the pinned configuration unifies with the printed one only when unification may unfold
-- plain definitions in a metavariable's type
set_option backward.isDefEq.respectTransparency.types false in
/-- Launch 2 over the thread state: entered from every unscoped buffer at the valuation before it, left at the one
    after it. Its arrays are split out of the unscoped buffers and put back at the exit contents; the scoped buffers no
    window stages go into the kernel's invariant and come back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (U7 m) c).loose
  hwaits := Pipeline.hwaits_of_owed_zero _ _ _ _ L lv 2 fun _ _ => rfl
  pre c := iprop(StableHlo.held (c : Thread nD τ) (Pipeline.ucRefs τ sig) (V7 m (outs m) c) ∗ E 2 c)
  post c := iprop(StableHlo.held (c : Thread nD τ) (Pipeline.ucRefs τ sig) (V8 m (outs m) c) ∗ E 3 c)
  X c := iprop(emp)
  Y c := iprop(emp)
  Z c := iprop(Pipeline.unscopedRest (Ix := Unit) (Name := ℕ) (U := UR sig nD τ) (Lvl := ℕ) spec2 c (XV7 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (XV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (R2.dat (U7 m) c).Φ 0 from rfl]
    iintro ⟨-, -, Hr⟩
    iapply (R2.hin (U7 m) c)
    iexact Hr
  hout c := by
    rw [Pipeline.ownSems0_none, show (pdats m 2 c).Φ (Fin.last _) = (R2.dat (U7 m) c).Φ (Fin.last cfg2.N) from rfl]
    iintro H
    isplitr; · iempintro
    isplitr; · iempintro
    iapply (R2.hout (U7 m) c)
    iexact H
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (XV7 m c) (XV8 m c) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The launch of the whole program -/

-- the launch theorem's implicit arguments are found by unifying its conclusion with this one, which takes unfolding
-- plain definitions in a metavariable's type
set_option backward.isDefEq.respectTransparency.types false in
/-- Every weakly fair execution of the program from memory `m` with zero counters terminates, nothing faulting, with the
    result array at the last valuation's contents and every argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v18) = V9 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by
      rewrite [main_chain c, Seg.run_eq_chain,
        show (segs m (outs m) 𝒱₀ L lv E () (pdats m) (reg0 m) (reg1 m) (reg2 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v18) = V9 m (outs m) c main_v18
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  -- the end: each buffer read off the last valuation
  unfold StableHlo.held
  iintro ⟨Hh, HSI⟩
  ihave Hr := (pointsTo_read_all (Pipeline.ucRefs τ sig) (fun b => ((c : Thread nD τ).1, b)) (V9 m (outs m) c) s') $$ [Hh HSI]
  · isplitl [Hh] <;> iassumption
  icases Hr with ⟨%h, HSI⟩
  imodintro
  isplitr
  · ipureintro
    exact ⟨h (Proc.devRef .tc main_v18) (Finset.mem_filter.mpr ⟨StableHlo.devRef_mem_tcRefs main_v18, by decide⟩),
      (h (Proc.devRef .tc main_arg0) (Finset.mem_filter.mpr ⟨StableHlo.devRef_mem_tcRefs main_arg0, by decide⟩)).trans (V9_main_arg0 m (outs m) c),
      (h (Proc.devRef .tc main_arg1) (Finset.mem_filter.mpr ⟨StableHlo.devRef_mem_tcRefs main_arg1, by decide⟩)).trans (V9_main_arg1 m (outs m) c),
      (h (Proc.devRef .tc main_arg2) (Finset.mem_filter.mpr ⟨StableHlo.devRef_mem_tcRefs main_arg2, by decide⟩)).trans (V9_main_arg2 m (outs m) c),
      (h (Proc.devRef .tc main_arg3) (Finset.mem_filter.mpr ⟨StableHlo.devRef_mem_tcRefs main_arg3, by decide⟩)).trans (V9_main_arg3 m (outs m) c),
      (h (Proc.devRef .tc main_arg4) (Finset.mem_filter.mpr ⟨StableHlo.devRef_mem_tcRefs main_arg4, by decide⟩)).trans (V9_main_arg4 m (outs m) c),
      (h (Proc.devRef .tc main_arg5) (Finset.mem_filter.mpr ⟨StableHlo.devRef_mem_tcRefs main_arg5, by decide⟩)).trans (V9_main_arg5 m (outs m) c),
      (h (Proc.devRef .tc main_arg6) (Finset.mem_filter.mpr ⟨StableHlo.devRef_mem_tcRefs main_arg6, by decide⟩)).trans (V9_main_arg6 m (outs m) c),
      (h (Proc.devRef .tc main_arg7) (Finset.mem_filter.mpr ⟨StableHlo.devRef_mem_tcRefs main_arg7, by decide⟩)).trans (V9_main_arg7 m (outs m) c)⟩
  · iexact HSI

/-- The frame: the same run, the result dropped. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Run

end
-- ==== Proof.Spec.lean ====
/-
  What both programs compute, as functions of the argument arrays read by coordinates, on the extended reals.

  With B : 4096 x 16, A : 16 x 4096, row magnitudes mg, the Fisher mask fm, the base weight W0 and the accumulated
  weight Wacc (all 4096 x 4096 but B, A, mg), the gated low-rank update is
      dw[o, i] = (mg[o] * (1 * sum_r B[o, r] A[r, i])) / (1 + 10 * fm[o, i]),
  its energy is clamped against the base weight's through the two squared Frobenius norms
      ssW0 = sum_{o,i} W0[o, i]^2,   ssDw = sum_{o,i} dw[o, i]^2,
  by one scalar factor computed from them (a square root of each, a comparison against 0.15 times the first and against
  1e-8, a quotient, a selection: kept here as the chain of operations itself, since both programs apply the same chain
  to the same two numbers), the effective weight is
      weff[o, i] = (W0[o, i] + Wacc[o, i]) + dw[o, i] * factor,
  and the result is y[b, s, o] = (sum_i x[b, s, i] * weff[o, i]) + bias[o].
  The constants 1 and 10 are kept as the float words both programs print; nothing here evaluates them.
-/
import Idealize.ShloMosaic.PureOps.Ideal
import Idealize.ShloMosaic.Lib.ValueIdx

noncomputable section

namespace Cert.Spec

open Idealize.ShloMosaic Idealize.ShloMosaic.ValueIdx
open scoped BigOperators

/-- The float words for 1 and 10, as extended reals. -/
abbrev one : EReal := Ideal.ofBits .f32 0x3F800000#32
abbrev ten : EReal := Ideal.ofBits .f32 0x41200000#32

/-- The scalar shape. -/
abbrev S0 : Shape := ⟨0, ![]⟩

section
variable (B : Fin 4096 → Fin 16 → EReal) (A : Fin 16 → Fin 4096 → EReal) (mg : Fin 4096 → EReal)
  (fm W0 Wacc : Fin 4096 → Fin 4096 → EReal)

/-- The gated low-rank update at row `o`, column `i`. -/
def dw (o i : Fin 4096) : EReal :=
  Ideal.div (mg o * (one * ∑ r : Fin 16, B o r * A r i)) (one + ten * fm o i)

/-- The squared Frobenius norm of the base weight. -/
def ssW0 : EReal := ∑ o : Fin 4096, ∑ i : Fin 4096, W0 o i * W0 o i

/-- The squared Frobenius norm of the gated update. -/
def ssDw : EReal := ∑ o : Fin 4096, ∑ i : Fin 4096, dw B A mg fm o i * dw B A mg fm o i

/-- The effective weight at row `o`, column `i`, given the clamp factor. -/
def weff (fac : EReal) (o i : Fin 4096) : EReal := (W0 o i + Wacc o i) + dw B A mg fm o i * fac

end

/-- The clamp factor from the two squared norms, as scalars-in-arrays: the host's chain of operations, never opened. -/
def factorV (s0 s1 : FVec Ideal S0 .f32) : FVec Ideal S0 .f32 :=
  select
    (andi (cmpf .ogt (Host.sqrt (F := Ideal) s1) (mulf (constant (F := Ideal) S0 .f32 0x3E19999A#32) (Host.sqrt (F := Ideal) s0)))
      (cmpf .ogt (Host.sqrt (F := Ideal) s1) (constant (F := Ideal) S0 .f32 0x322BCC77#32)))
    (Host.divf (F := Ideal) (mulf (constant (F := Ideal) S0 .f32 0x3E19999A#32) (Host.sqrt (F := Ideal) s0))
      (maximumf (Host.sqrt (F := Ideal) s1) (constant (F := Ideal) S0 .f32 0x322BCC77#32)))
    (constant (F := Ideal) S0 .f32 0x3F800000#32)

/-- The same as a number from two numbers. -/
def factor (s0 s1 : EReal) : EReal := factorV (fun _ => s0) (fun _ => s1) ix0

/-- The result at batch `b`, position `s`, output feature `o`, for any weight `w` read as [out, in]. -/
def y (x : Fin 4 → Fin 2048 → Fin 4096 → EReal) (w : Fin 4096 → Fin 4096 → EReal) (bias : Fin 4096 → EReal)
    (b : Fin 4) (s : Fin 2048) (o : Fin 4096) : EReal :=
  (∑ i : Fin 4096, x b s i * w o i) + bias o

/-- The whole result from the eight argument arrays. -/
def result (x : Fin 4 → Fin 2048 → Fin 4096 → EReal) (W0 Wacc : Fin 4096 → Fin 4096 → EReal) (bias : Fin 4096 → EReal)
    (A : Fin 16 → Fin 4096 → EReal) (B : Fin 4096 → Fin 16 → EReal) (mg : Fin 4096 → EReal) (fm : Fin 4096 → Fin 4096 → EReal)
    (b : Fin 4) (s : Fin 2048) (o : Fin 4096) : EReal :=
  y x (weff B A mg fm W0 Wacc (factor (ssW0 W0) (ssDw B A mg fm))) bias b s o

end Cert.Spec

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibColBroadcast.lean ====
/-
  A column repeated along the columns, read at an entry (a general lemma: nothing here depends on a program).

  A column [A, 1] broadcast to B columns [A, B] holds at (p, q) the column's entry p: a broadcast reads a unit axis
  at 0 and every other axis at the result's coordinate.  Any sizes A, B; companion of the row form (a row [1, A]
  broadcast down B rows read at (p, q) is the row at q).
-/
import Idealize.ShloMosaic.Lib.ValueIdx
import Idealize.ShloMosaic.Lib.Pipeline.Value

noncomputable section

namespace Cert.Lib.ColBroadcast

open Idealize.ShloMosaic Idealize.ShloMosaic.ValueIdx

/-- A column [A, 1] broadcast to B columns, at (p, q), is the column at (p, 0). -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

end Cert.Lib.ColBroadcast

end
-- ==== Proof.KI.DwBlock.lean ====
/-
  The gated low-rank update of one block of 256 rows, read at an entry.

  From the block's rows of B ([256,16]), all of A ([16,4096]), the block's rows of the magnitudes' column ([256,1])
  and of the Fisher mask ([256,4096]), both launches form the same array
      gated = (m ⊙ (1 · B A)) / (1 + 10 · fisher),
  the column repeated along the columns, the two scalars splatted. At row p, column q it is
      (m[p,0] * (1 * sum_r B[p,r] A[r,q])) / (1 + 10 * fisher[p,q]),
  the operands in the order the body applies them. The first launch's payload sums its squares; the second
  launch's payload scales it by the clamp factor and adds it to the two weights.
-/
import proofs.«135257_j31001073942670_1_alg».proof.Proof.Gen.KernelIdeal.Skeleton
import proofs.«135257_j31001073942670_1_alg».proof.Proof.Spec
import proofs.«135257_j31001073942670_1_alg».proof.Proof.LibMatmul
import proofs.«135257_j31001073942670_1_alg».proof.Proof.LibColBroadcast
import Idealize.ShloMosaic.Lib.Pipeline.Value
import Idealize.ShloMosaic.Lib.ValueIdx
import Idealize.ShloMosaic.PureOps.Ideal.Laws

set_option maxRecDepth 16384

noncomputable section

namespace Cert.KernelIdeal.DwBlock

open Idealize.ShloMosaic Idealize.ShloMosaic.ValueIdx
open Cert.KernelIdeal Cert.KernelIdeal.Gen
open scoped BigOperators

variable (b : FVec Ideal S256x16 .f32) (a : FVec Ideal S16x4096 .f32) (m : FVec Ideal S256x1 .f32)
  (f : FVec Ideal S256x4096 .f32)

/-- The product B A of the block's rows of B with A, into a zero array. -/
def lowRank : FVec Ideal S256x4096 .f32 :=
  matmul dot_S256x16_S16x4096_S256x4096_1_0_0_1_n_n none b a (constant S256x4096 .f32 0x00000000#32)

/-- The gated update of the block: (m ⊙ (1 · B A)) / (1 + 10 · fisher). -/
def gated : FVec Ideal S256x4096 .f32 :=
  divf
    (mulf (broadcastTo S256x4096 (shapeCast S256x1 m shapeCasts_S256x1_S256x1) broadcasts_S256x1_S256x4096)
      (mulf (broadcast S256x4096 (Scalar.ofBits .f32 0x3F800000#32)) (lowRank b a)))
    (addf (broadcast S256x4096 (Scalar.ofBits .f32 0x3F800000#32))
      (mulf (broadcast S256x4096 (Scalar.ofBits .f32 0x41200000#32)) f))

/-- The product at row p, column q is the sum over the sixteen ranks. -/
theorem lowRank_apply (p : Fin 256) (q : Fin 4096) :
    lowRank b a (ix2 p q) = ∑ r : Fin 16, (b (ix2 p r) : EReal) * (a (ix2 r q) : EReal) := by
  have e : dot_S256x16_S16x4096_S256x4096_1_0_0_1_n_n = DotDims.plain 256 16 4096 := rfl
  unfold lowRank
  rw [e]
  exact Cert.Lib.Matmul.matmul_zero_apply none b a p q

/-- The gated update at row p, column q. -/
theorem gated_apply (p : Fin 256) (q : Fin 4096) :
    gated b a m f (ix2 p q)
      = Ideal.div ((m (ix2 p 0) : EReal) * (Cert.Spec.one * ∑ r : Fin 16, (b (ix2 p r) : EReal) * (a (ix2 r q) : EReal)))
          (Cert.Spec.one + Cert.Spec.ten * (f (ix2 p q) : EReal)) := by
  unfold gated
  rw [divf_apply, mulf_apply, mulf_apply, addf_apply, mulf_apply, broadcast_apply, broadcast_apply, lowRank_apply,
    shapeCast_self, Cert.Lib.ColBroadcast.bcastColMat_apply]
  rfl

/-- The first launch's second payload is the sum, over the rows and then down the one column, of the squares of the
    gated update. -/
theorem k0_pay5_eq :
    k0_pay5 b a m f
      = shapeCast S1x1
          (multiReduction .add [0] S1
            (shapeCast S256x1
              (multiReduction .add [1] S256 (mulf (gated b a m f) (gated b a m f)) 0x00000000#32
                reduces_S256x4096_S256 (.inl rfl) rfl)
              shapeCasts_S256_S256x1)
            0x00000000#32 reduces_S256x1_S1 (.inl rfl) rfl)
          shapeCasts_S1_S1x1 := rfl

/-- The second launch's payload is the two weights' sum plus the gated update scaled by the clamp factor's cell, cut to
    the narrower format. -/
theorem k1_pay1_eq (fac : FVec Ideal S1x1 .f32) (w0 wacc : FVec Ideal S256x4096 .f32) :
    k1_pay1 b a m f fac w0 wacc
      = truncf .bf16
          (addf (addf w0 wacc)
            (mulf (gated b a m f) (broadcast S256x4096 (extractAt ![0, 0] fac inpos_S1x1_p0_0))))
          bitsLt_bf16_f32 := rfl

end Cert.KernelIdeal.DwBlock

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.KI.R0Value.lean ====
/-
  The first launch's two results on the extended reals: after the sixteen points the two [1,1] arrays hold the squared
  Frobenius norm of W0 and of the gated update, each the sum over the sixteen row blocks of the block's sum of squares,
  which is the double sum over all rows and columns.

  In order: the two add-reductions (along the rows, then down the one column) of a [256,4096] array read at the one cell
  as a double sum; each result window's block is the whole [1,1] array and only the last point writes it back, so the
  array ends at the running total after sixteen points; the running totals by induction on the point's number; a block
  of an input read at (p, q) is the array at (256 t + p, q); sixteen blocks of 256 rows are the 4096 rows.
-/
import proofs.«135257_j31001073942670_1_alg».proof.Proof.KI.R0Data
import proofs.«135257_j31001073942670_1_alg».proof.Proof.Spec
import proofs.«135257_j31001073942670_1_alg».proof.Proof.KI.DwBlock
import proofs.«135257_j31001073942670_1_alg».proof.Proof.LibAxisSum
import proofs.«135257_j31001073942670_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

-- the TensorCore's buffer contents when the region is entered, at the extended reals
variable (V : (c : Dev nD) → (b : Ref sig .tc) → Buf (Elt Ideal) ((c : Thread nD τ).loc b))

/-! ## The two reductions at the one cell -/

/-- The sum along the rows, then down the one column: the two add-reductions with the two recasts between. -/
def total (x : FVec Ideal S256x4096 .f32) : FVec Ideal S1x1 .f32 :=
  shapeCast S1x1
    (multiReduction .add [0] S1
      (shapeCast S256x1 (multiReduction .add [1] S256 x 0x00000000#32 reduces_S256x4096_S256 (.inl rfl) rfl)
        shapeCasts_S256_S256x1)
      0x00000000#32 reduces_S256x1_S1 (.inl rfl) rfl)
    shapeCasts_S1_S1x1

/-- A vector of 256 recast to a column, at (p, 0), is the vector at p. -/
theorem col_apply (z : FVec Ideal S256 .f32) (p : Fin 256) :
    shapeCast S256x1 z shapeCasts_S256_S256x1 (ix2 p (0 : Fin 1)) = z (ix1 p) := by
  refine shapeCast_apply z shapeCasts_S256_S256x1 (ix2 p (0 : Fin 1)) (ix1 p) ?_
  rw [Shape.rowMajor_val_one, Shape.rowMajor_val_two]
  show p.val = p.val * 1 + 0
  omega

/-- A vector of one entry recast to a [1,1] cell reads its entry. -/
theorem cell_apply (z : FVec Ideal S1 .f32) (j : S1x1.Idx) :
    shapeCast S1x1 z shapeCasts_S1_S1x1 j = z (ix1 (0 : Fin 1)) := by
  refine shapeCast_apply z shapeCasts_S1_S1x1 j (ix1 (0 : Fin 1)) ?_
  rw [Shape.rowMajor_val_one, Shape.rowMajor_val_two]
  have h0 : (j 0).val < 1 := (j 0).isLt
  have h1 : (j 1).val < 1 := (j 1).isLt
  show (0 : Fin 1).val = (j 0).val * 1 + (j 1).val
  simp only [Fin.val_zero]
  omega

/-- The total at the one cell is the double sum over the rows and the columns. -/
theorem total_apply (x : FVec Ideal S256x4096 .f32) (j : S1x1.Idx) :
    total x j = ∑ p : Fin 256, ∑ q : Fin 4096, (x (ix2 p q) : EReal) := by
  unfold total
  rw [cell_apply]
  refine (Cert.Lib.AxisSum.colSum_apply (K := 256) (C := 1) _ _ _ _ _ (0 : Fin 1)).trans ?_
  refine Finset.sum_congr rfl fun p _ => ?_
  rw [col_apply]
  exact Cert.Lib.AxisSum.rowSum_apply (A := 256) (K := 4096) x _ _ _ _ p

/-! ## The result arrays after the run -/

/-- Both result windows sit at block (0,0) at every point, and their block is the whole [1,1] array. -/
theorem idx5 : ∀ (t : Fin cfg0.N) (a : Fin 2), win0_5.index t a = 0 ∧ win0_5.xsize (grid0.coords t) a = 1 :=
  (by decide +kernel : ∀ (t : Fin grid0.N) (a : Fin 2), _)
theorem idx6 : ∀ (t : Fin cfg0.N) (a : Fin 2), win0_6.index t a = 0 ∧ win0_6.xsize (grid0.coords t) a = 1 :=
  (by decide +kernel : ∀ (t : Fin grid0.N) (a : Fin 2), _)

/-- The last point. -/
abbrev tLast : Fin cfg0.N := t0_15

/-- A point that writes a result cell back is the last one. -/
theorem eq_last_of_rem (t : Fin cfg0.N) (h : t.val % 16 = 15) : t = tLast := by
  have hN : cfg0.N = 16 := N_0
  have := t.isLt
  exact Fin.ext (show t.val = 15 by omega)

/-- What the last point writes back to the first result: the running total after all sixteen points, read through
    the block that is the whole array. -/
theorem flushed5_eq (c : Dev nD) (t : Fin cfg0.N) (hf : (cfg0.win 5).flush t = true) :
    (dat (F := Ideal) V c).flushed 5 t = ((cfg0.win 5).blk t).view.read (Elt Ideal) (accW0 (F := Ideal) V c 16) := by
  obtain rfl := eq_last_of_rem t ((flush0_5 t).mp hf)
  show (cfg0.win 5).cut (grid0.coords tLast) ((dat (F := Ideal) V c).after 5 tLast) = _
  rw [after_5]
  have hz : (fun a => win0_5.index tLast a * main_v1_0.ty.shape.size a) = fun _ => 0 :=
    funext fun a => by rw [(idx5 tLast a).1, Nat.zero_mul]
  exact (Memref.read_access_unit_zero (Elt Ideal) main_v1_0 hz (fun a => by rw [congrFun hz a]; simp)
    (accW0 (F := Ideal) V c 16)).symm

/-- So the first result array ends holding the running total after all sixteen points: the last point's block
    covers the array. -/
theorem final5 (c : Dev nD) : (dat (F := Ideal) V c).arrAt 5 cfg0.N = accW0 (F := Ideal) V c 16 :=
  (dat (F := Ideal) V c).arrAt_eq_of_cover 5 (accW0 (F := Ideal) V c 16) (flushed5_eq V c) fun i =>
    ⟨tLast, (flush0_5 tLast).mpr rfl, by
      show i ∈ ((View.whole main_v1_0).slice (win0_5.rect tLast)).set
      rw [View.set_slice_whole, Rect.mem_set_unit]
      intro a
      obtain ⟨e0, e1⟩ := idx5 tLast a
      show win0_5.index tLast a * win0_5.size a ≤ (i a).val
        ∧ (i a).val < win0_5.index tLast a * win0_5.size a + win0_5.xsize (grid0.coords tLast) a
      rw [e0, e1, Nat.zero_mul]
      have hi : (i a).val < 1 := by
        have := (i a).isLt
        match a with
        | ⟨0, _⟩ => exact this
        | ⟨1, _⟩ => exact this
      omega⟩

/-- What the last point writes back to the second result: the second running total after all sixteen points. -/
theorem flushed6_eq (c : Dev nD) (t : Fin cfg0.N) (hf : (cfg0.win 6).flush t = true) :
    (dat (F := Ideal) V c).flushed 6 t = ((cfg0.win 6).blk t).view.read (Elt Ideal) (accDw (F := Ideal) V c 16) := by
  obtain rfl := eq_last_of_rem t ((flush0_6 t).mp hf)
  show (cfg0.win 6).cut (grid0.coords tLast) ((dat (F := Ideal) V c).after 6 tLast) = _
  rw [after_6]
  have hz : (fun a => win0_6.index tLast a * main_v1_1.ty.shape.size a) = fun _ => 0 :=
    funext fun a => by rw [(idx6 tLast a).1, Nat.zero_mul]
  exact (Memref.read_access_unit_zero (Elt Ideal) main_v1_1 hz (fun a => by rw [congrFun hz a]; simp)
    (accDw (F := Ideal) V c 16)).symm

/-- So the second result array ends holding the second running total after all sixteen points. -/
theorem final6 (c : Dev nD) : (dat (F := Ideal) V c).arrAt 6 cfg0.N = accDw (F := Ideal) V c 16 :=
  (dat (F := Ideal) V c).arrAt_eq_of_cover 6 (accDw (F := Ideal) V c 16) (flushed6_eq V c) fun i =>
    ⟨tLast, (flush0_6 tLast).mpr rfl, by
      show i ∈ ((View.whole main_v1_1).slice (win0_6.rect tLast)).set
      rw [View.set_slice_whole, Rect.mem_set_unit]
      intro a
      obtain ⟨e0, e1⟩ := idx6 tLast a
      show win0_6.index tLast a * win0_6.size a ≤ (i a).val
        ∧ (i a).val < win0_6.index tLast a * win0_6.size a + win0_6.xsize (grid0.coords tLast) a
      rw [e0, e1, Nat.zero_mul]
      have hi : (i a).val < 1 := by
        have := (i a).isLt
        match a with
        | ⟨0, _⟩ => exact this
        | ⟨1, _⟩ => exact this
      omega⟩

/-! ## The running totals at the one cell -/

/-- Block t of W0 by its literal type. -/
abbrev w0arr (c : Dev nD) (t : Fin cfg0.N) : FVec Ideal S256x4096 .f32 := w0blk (F := Ideal) V c t

/-- Before the first point the first cell holds zero. -/
theorem accW0_cell_zero (c : Dev nD) (j : S1x1.Idx) : (accW0 (F := Ideal) V c 0 : S1x1.Idx → EReal) j = 0 := by
  show k0_pay3 (F := Ideal) j = 0
  unfold k0_pay3
  rw [shapeCast_self]
  exact Ideal.ofBits_zero_f32

/-- Each point adds its block's sum of squares of W0 onto the first cell. -/
theorem accW0_cell_succ (c : Dev nD) (n : ℕ) (j : S1x1.Idx) :
    (accW0 (F := Ideal) V c (n + 1) : S1x1.Idx → EReal) j
      = (accW0 (F := Ideal) V c n : S1x1.Idx → EReal) j + total (mulf (w0arr V c (pt n)) (w0arr V c (pt n))) j := by
  show k0_pay1 (k0_pay6 (w0blk (F := Ideal) V c (pt n)) (w0blk (F := Ideal) V c (pt n)) (accW0 (F := Ideal) V c n)) j = _
  unfold k0_pay1
  rw [shapeCast_self]
  rfl

/-- So after n points the first cell holds the sum of the first n blocks' sums of squares. -/
theorem accW0_sum (c : Dev nD) (j : S1x1.Idx) : ∀ n : ℕ,
    (accW0 (F := Ideal) V c n : S1x1.Idx → EReal) j
      = ∑ s ∈ Finset.range n, total (mulf (w0arr V c (pt s)) (w0arr V c (pt s))) j
  | 0 => by rw [accW0_cell_zero, Finset.sum_range_zero]
  | n + 1 => by rw [accW0_cell_succ, accW0_sum c j n, Finset.sum_range_succ]

/-! ## Sixteen blocks of 256 rows are the 4096 rows -/

/-- A quantity of the rows, as a function of the row's number (zero past the last row). -/
def ofRow (g : Fin 4096 → EReal) (k : ℕ) : EReal := if h : k < 4096 then g ⟨k, h⟩ else 0

/-- Summed block by block it is the sum over all rows. -/
theorem sum_rows (g : Fin 4096 → EReal) :
    ∑ s ∈ Finset.range 16, ∑ p : Fin 256, ofRow g (256 * s + p.val) = ∑ o : Fin 4096, g o := by
  rw [BlockSum.sum_blocks 256 16 (ofRow g)]
  show ∑ o : Fin 4096, ofRow g o.val = _
  exact Finset.sum_congr rfl fun o _ => dif_pos o.isLt

/-- If block s of sixteen arrays reads, at (p, q), entry (256 s + p, q) of g, the sixteen blocks' sums of squares add up
    to the sum of the squares of all of g's entries. -/
theorem blocks_sumsq (g : Fin 4096 → Fin 4096 → EReal) (blk : ℕ → FVec Ideal S256x4096 .f32)
    (h : ∀ (s : ℕ) (hs : s < 16) (p : Fin 256) (q : Fin 4096),
      blk s (ix2 p q) = g ⟨256 * s + p.val, by have := p.isLt; omega⟩ q) (j : S1x1.Idx) :
    ∑ s ∈ Finset.range 16, total (mulf (blk s) (blk s)) j = ∑ o : Fin 4096, ∑ i : Fin 4096, g o i * g o i := by
  rw [← sum_rows fun o => ∑ i : Fin 4096, g o i * g o i]
  refine Finset.sum_congr rfl fun s hs => ?_
  have hs' : s < 16 := Finset.mem_range.mp hs
  rw [total_apply]
  refine Finset.sum_congr rfl fun p _ => ?_
  have hk : 256 * s + p.val < 4096 := by have := p.isLt; omega
  unfold ofRow
  rw [dif_pos hk]
  refine Finset.sum_congr rfl fun q _ => ?_
  rw [mulf_apply, h s hs' p q]

/-! ## A block read at an entry is the array read at the block's place -/

/-- The index maps over the grid: the four row-blocked windows sit at block row t, block column 0; the window of A
    at block (0, 0). -/
theorem idxRows : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0)
      ∧ (win0_4.index t 0 = 0 ∧ win0_4.index t 1 = 0) :=
  (by decide +kernel : ∀ t : Fin grid0.N, _)

/-- Point number s, for s below sixteen, is s. -/
theorem pt_lt (s : ℕ) (hs : s < 16) : (pt s).val = s := by
  show min s 15 = s
  omega

/-- Block t of W0 at (p, q) is W0 at (256 t + p, q). -/
theorem w0arr_apply (c : Dev nD) (t : Fin cfg0.N) (p : Fin 256) (q : Fin 4096) (h : 256 * t.val + p.val < 4096) :
    w0arr V c t (ix2 p q) = (V c main_arg1 : S4096x4096.Idx → EReal) (ix2 ⟨256 * t.val + p.val, h⟩ q) := by
  obtain ⟨⟨e0, e1⟩, -⟩ := idxRows t
  show ((cfg0.win 0).blk t).view.read (Elt Ideal) (V c (Pipeline.arrRef spec0 0)) (ix2 p q) = _
  rw [View.read_apply]
  show V c main_arg1 _ = V c main_arg1 _
  congr 1
  funext a
  apply Fin.ext
  match a with
  | ⟨0, _⟩ => show win0_0.index t 0 * 256 + 1 * p.val = 256 * t.val + p.val; rw [e0]; omega
  | ⟨1, _⟩ => show win0_0.index t 1 * 4096 + 1 * q.val = q.val; rw [e1]; omega

/-- The first result is the sum of the squares of all of W0's entries. -/
theorem sumsq_w0 (c : Dev nD) (j : S1x1.Idx) :
    ((dat (F := Ideal) V c).arrAt 5 cfg0.N : S1x1.Idx → EReal) j
      = Cert.Spec.ssW0 (fun o i => (V c main_arg1 : S4096x4096.Idx → EReal) (ix2 o i)) := by
  rw [final5, accW0_sum]
  unfold Cert.Spec.ssW0
  refine blocks_sumsq (fun o i => (V c main_arg1 : S4096x4096.Idx → EReal) (ix2 o i))
    (fun s => w0arr V c (pt s)) (fun s hs p q => ?_) j
  have e := w0arr_apply V c (pt s) p q (by rw [pt_lt s hs]; have := p.isLt; omega)
  rw [e]
  congr 2
  exact Fin.ext (by show 256 * (pt s).val + p.val = 256 * s + p.val; rw [pt_lt s hs])

/-! ## The gated update's blocks -/

/-- Block t of the Fisher mask, of the magnitudes' column, of B, and A whole, by their literal types. -/
abbrev farr (c : Dev nD) (t : Fin cfg0.N) : FVec Ideal S256x4096 .f32 := fblk (F := Ideal) V c t
abbrev marr (c : Dev nD) (t : Fin cfg0.N) : FVec Ideal S256x1 .f32 := mblk (F := Ideal) V c t
abbrev barr (c : Dev nD) (t : Fin cfg0.N) : FVec Ideal S256x16 .f32 := bblk (F := Ideal) V c t
abbrev aarr (c : Dev nD) (t : Fin cfg0.N) : FVec Ideal S16x4096 .f32 := ablk (F := Ideal) V c t

/-- Block t of the Fisher mask at (p, q) is the mask at (256 t + p, q). -/
theorem farr_apply (c : Dev nD) (t : Fin cfg0.N) (p : Fin 256) (q : Fin 4096) (h : 256 * t.val + p.val < 4096) :
    farr V c t (ix2 p q) = (V c main_arg7 : S4096x4096.Idx → EReal) (ix2 ⟨256 * t.val + p.val, h⟩ q) := by
  obtain ⟨-, ⟨e0, e1⟩, -⟩ := idxRows t
  show ((cfg0.win 1).blk t).view.read (Elt Ideal) (V c (Pipeline.arrRef spec0 1)) (ix2 p q) = _
  rw [View.read_apply]
  show V c main_arg7 _ = V c main_arg7 _
  congr 1
  funext a
  apply Fin.ext
  match a with
  | ⟨0, _⟩ => show win0_1.index t 0 * 256 + 1 * p.val = 256 * t.val + p.val; rw [e0]; omega
  | ⟨1, _⟩ => show win0_1.index t 1 * 4096 + 1 * q.val = q.val; rw [e1]; omega

/-- Block t of the magnitudes' column at (p, 0) is the column at (256 t + p, 0). -/
theorem marr_apply (c : Dev nD) (t : Fin cfg0.N) (p : Fin 256) (h : 256 * t.val + p.val < 4096) :
    marr V c t (ix2 p (0 : Fin 1)) = (V c main_v0 : S4096x1.Idx → EReal) (ix2 ⟨256 * t.val + p.val, h⟩ (0 : Fin 1)) := by
  obtain ⟨-, -, ⟨e0, e1⟩, -⟩ := idxRows t
  show ((cfg0.win 2).blk t).view.read (Elt Ideal) (V c (Pipeline.arrRef spec0 2)) (ix2 p (0 : Fin 1)) = _
  rw [View.read_apply]
  show V c main_v0 _ = V c main_v0 _
  congr 1
  funext a
  apply Fin.ext
  match a with
  | ⟨0, _⟩ => show win0_2.index t 0 * 256 + 1 * p.val = 256 * t.val + p.val; rw [e0]; omega
  | ⟨1, _⟩ => show win0_2.index t 1 * 1 + 1 * (0 : Fin 1).val = (0 : Fin 1).val; rw [e1]; omega

/-- Block t of B at (p, r) is B at (256 t + p, r). -/
theorem barr_apply (c : Dev nD) (t : Fin cfg0.N) (p : Fin 256) (r : Fin 16) (h : 256 * t.val + p.val < 4096) :
    barr V c t (ix2 p r) = (V c main_arg5 : S4096x16.Idx → EReal) (ix2 ⟨256 * t.val + p.val, h⟩ r) := by
  obtain ⟨-, -, -, ⟨e0, e1⟩, -⟩ := idxRows t
  show ((cfg0.win 3).blk t).view.read (Elt Ideal) (V c (Pipeline.arrRef spec0 3)) (ix2 p r) = _
  rw [View.read_apply]
  show V c main_arg5 _ = V c main_arg5 _
  congr 1
  funext a
  apply Fin.ext
  match a with
  | ⟨0, _⟩ => show win0_3.index t 0 * 256 + 1 * p.val = 256 * t.val + p.val; rw [e0]; omega
  | ⟨1, _⟩ => show win0_3.index t 1 * 16 + 1 * r.val = r.val; rw [e1]; omega

/-- The window of A is all of A at every point. -/
theorem aarr_apply (c : Dev nD) (t : Fin cfg0.N) (r : Fin 16) (q : Fin 4096) :
    aarr V c t (ix2 r q) = (V c main_arg4 : S16x4096.Idx → EReal) (ix2 r q) := by
  obtain ⟨-, -, -, -, e0, e1⟩ := idxRows t
  show ((cfg0.win 4).blk t).view.read (Elt Ideal) (V c (Pipeline.arrRef spec0 4)) (ix2 r q) = _
  rw [View.read_apply]
  show V c main_arg4 _ = V c main_arg4 _
  congr 1
  funext a
  apply Fin.ext
  match a with
  | ⟨0, _⟩ => show win0_4.index t 0 * 16 + 1 * r.val = r.val; rw [e0]; omega
  | ⟨1, _⟩ => show win0_4.index t 1 * 4096 + 1 * q.val = q.val; rw [e1]; omega

/-- The gated update of block t. -/
abbrev dwarr (c : Dev nD) (t : Fin cfg0.N) : FVec Ideal S256x4096 .f32 :=
  DwBlock.gated (barr V c t) (aarr V c t) (marr V c t) (farr V c t)

/-- Before the first point the second cell holds zero. -/
theorem accDw_cell_zero (c : Dev nD) (j : S1x1.Idx) : (accDw (F := Ideal) V c 0 : S1x1.Idx → EReal) j = 0 := by
  show k0_pay4 (F := Ideal) j = 0
  unfold k0_pay4
  rw [shapeCast_self]
  exact Ideal.ofBits_zero_f32

/-- Each point adds its block's sum of squares of the gated update onto the second cell. -/
theorem accDw_cell_succ (c : Dev nD) (n : ℕ) (j : S1x1.Idx) :
    (accDw (F := Ideal) V c (n + 1) : S1x1.Idx → EReal) j
      = (accDw (F := Ideal) V c n : S1x1.Idx → EReal) j + total (mulf (dwarr V c (pt n)) (dwarr V c (pt n))) j := by
  show k0_pay2 (k0_pay5 (bblk (F := Ideal) V c (pt n)) (ablk (F := Ideal) V c (pt n)) (mblk (F := Ideal) V c (pt n))
    (fblk (F := Ideal) V c (pt n))) (accDw (F := Ideal) V c n) j = _
  unfold k0_pay2
  rw [shapeCast_self, addf_apply]
  exact congrArg (fun x : EReal => (accDw (F := Ideal) V c n : S1x1.Idx → EReal) j + x)
    (congrFun (DwBlock.k0_pay5_eq (barr V c (pt n)) (aarr V c (pt n)) (marr V c (pt n)) (farr V c (pt n))) j)

/-- So after n points the second cell holds the sum of the first n blocks' sums of squares of the gated update. -/
theorem accDw_sum (c : Dev nD) (j : S1x1.Idx) : ∀ n : ℕ,
    (accDw (F := Ideal) V c n : S1x1.Idx → EReal) j
      = ∑ s ∈ Finset.range n, total (mulf (dwarr V c (pt s)) (dwarr V c (pt s))) j
  | 0 => by rw [accDw_cell_zero, Finset.sum_range_zero]
  | n + 1 => by rw [accDw_cell_succ, accDw_sum c j n, Finset.sum_range_succ]

/-- The second result is the sum of the squares of all of the gated update's entries (the magnitudes read off the column
    the region is handed). -/
theorem sumsq_dw (c : Dev nD) (j : S1x1.Idx) :
    ((dat (F := Ideal) V c).arrAt 6 cfg0.N : S1x1.Idx → EReal) j
      = Cert.Spec.ssDw (fun o r => (V c main_arg5 : S4096x16.Idx → EReal) (ix2 o r))
          (fun r i => (V c main_arg4 : S16x4096.Idx → EReal) (ix2 r i))
          (fun o => (V c main_v0 : S4096x1.Idx → EReal) (ix2 o 0))
          (fun o i => (V c main_arg7 : S4096x4096.Idx → EReal) (ix2 o i)) := by
  rw [final6, accDw_sum]
  unfold Cert.Spec.ssDw
  refine blocks_sumsq _ (fun s => dwarr V c (pt s)) (fun s hs p q => ?_) j
  have hk : 256 * (pt s).val + p.val < 4096 := by rw [pt_lt s hs]; have := p.isLt; omega
  have ho : (⟨256 * (pt s).val + p.val, hk⟩ : Fin 4096) = ⟨256 * s + p.val, by have := p.isLt; omega⟩ :=
    Fin.ext (by show 256 * (pt s).val + p.val = 256 * s + p.val; rw [pt_lt s hs])
  show DwBlock.gated (barr V c (pt s)) (aarr V c (pt s)) (marr V c (pt s)) (farr V c (pt s)) (ix2 p q) = _
  rw [DwBlock.gated_apply, marr_apply V c (pt s) p hk, farr_apply V c (pt s) p q hk, ho]
  unfold Cert.Spec.dw
  congr 3
  refine Finset.sum_congr rfl fun r _ => ?_
  rw [barr_apply V c (pt s) p r hk, aarr_apply, ho]

end Cert.KernelIdeal.R0

end
-- ==== Proof.KI.R1Value.lean ====
/-
  The second launch's result on the extended reals: the sixteen stored row blocks tile the [4096, 4096] array, and each
  entry is the effective weight at its row and column, the clamp factor read off the [1,1] array the region is handed.

  The road: the index maps place every row-blocked window's block at point t on rows 256 t .. 256 t + 255 and the two
  whole windows' blocks on their whole arrays; entry (p, q) of the stored block is, operation by operation, the effective
  weight at row 256 t + p and column q; so each write-back is a block of one array, the specification's, and since row r
  lies in block r / 256 the blocks cover the result, which therefore ends holding that array.
-/
import proofs.«135257_j31001073942670_1_alg».proof.Proof.KI.R1Data
import proofs.«135257_j31001073942670_1_alg».proof.Proof.Spec
import proofs.«135257_j31001073942670_1_alg».proof.Proof.LibMatmul
import proofs.«135257_j31001073942670_1_alg».proof.Proof.LibColBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

-- the TensorCore's buffer contents when the region is entered, at the extended reals
variable (V : (c : Dev nD) → (b : Ref sig .tc) → Buf (Elt Ideal) ((c : Thread nD τ).loc b))

/-- The arrays the region is handed, by their literal types. -/
abbrev Barr (c : Dev nD) : S4096x16.Idx → EReal := V c main_arg5
abbrev Aarr (c : Dev nD) : S16x4096.Idx → EReal := V c main_arg4
abbrev marr (c : Dev nD) : S4096x1.Idx → EReal := V c main_v0
abbrev farr (c : Dev nD) : S4096x4096.Idx → EReal := V c main_arg7
abbrev w0arr (c : Dev nD) : S4096x4096.Idx → EReal := V c main_arg1
abbrev waccarr (c : Dev nD) : S4096x4096.Idx → EReal := V c main_arg2
abbrev facarr (c : Dev nD) : S1x1.Idx → EReal := V c main_v13

/-- The index maps, decided over the sixteen points: the row-blocked windows sit at block (t, 0), the two whole
    windows at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

theorem N_val (t : Fin cfg1.N) : t.val < 16 := lt_of_lt_of_eq t.isLt N_1

/-- The base weight's block at point `t` is rows 256 t .. 256 t + 255 of the array. -/
theorem w0blk_apply (c : Dev nD) (t : Fin cfg1.N) (p : Fin 256) (q r : Fin 4096) (hr : r.val = 256 * t.val + p.val) :
    (w0blk V c t) (ix2 p q) = w0arr V c (ix2 r q) := by
  obtain ⟨⟨e0, e1⟩, -⟩ := idx_facts t
  show iblk V c 0 t (ix2 p q) = _
  unfold iblk
  rw [View.read_apply]
  show V c main_arg1 _ = V c main_arg1 _
  congr 1
  funext a
  apply Fin.ext
  match a with
  | ⟨0, _⟩ => show win1_0.index t 0 * 256 + 1 * p.val = r.val; rw [e0, hr]; omega
  | ⟨1, _⟩ => show win1_0.index t 1 * 4096 + 1 * q.val = q.val; rw [e1]; omega

/-- The accumulated weight's block, likewise. -/
theorem waccblk_apply (c : Dev nD) (t : Fin cfg1.N) (p : Fin 256) (q r : Fin 4096) (hr : r.val = 256 * t.val + p.val) :
    (waccblk V c t) (ix2 p q) = waccarr V c (ix2 r q) := by
  obtain ⟨-, ⟨e0, e1⟩, -⟩ := idx_facts t
  show iblk V c 1 t (ix2 p q) = _
  unfold iblk
  rw [View.read_apply]
  show V c main_arg2 _ = V c main_arg2 _
  congr 1
  funext a
  apply Fin.ext
  match a with
  | ⟨0, _⟩ => show win1_1.index t 0 * 256 + 1 * p.val = r.val; rw [e0, hr]; omega
  | ⟨1, _⟩ => show win1_1.index t 1 * 4096 + 1 * q.val = q.val; rw [e1]; omega

/-- The Fisher mask's block, likewise. -/
theorem fblk_apply (c : Dev nD) (t : Fin cfg1.N) (p : Fin 256) (q r : Fin 4096) (hr : r.val = 256 * t.val + p.val) :
    (fblk V c t) (ix2 p q) = farr V c (ix2 r q) := by
  obtain ⟨-, -, ⟨e0, e1⟩, -⟩ := idx_facts t
  show iblk V c 2 t (ix2 p q) = _
  unfold iblk
  rw [View.read_apply]
  show V c main_arg7 _ = V c main_arg7 _
  congr 1
  funext a
  apply Fin.ext
  match a with
  | ⟨0, _⟩ => show win1_2.index t 0 * 256 + 1 * p.val = r.val; rw [e0, hr]; omega
  | ⟨1, _⟩ => show win1_2.index t 1 * 4096 + 1 * q.val = q.val; rw [e1]; omega

/-- The magnitudes' block: rows 256 t .. 256 t + 255 of the column. -/
theorem mblk_apply (c : Dev nD) (t : Fin cfg1.N) (p : Fin 256) (r : Fin 4096) (hr : r.val = 256 * t.val + p.val) :
    (mblk V c t) (ix2 p (0 : Fin 1)) = marr V c (ix2 r (0 : Fin 1)) := by
  obtain ⟨-, -, -, ⟨e0, e1⟩, -⟩ := idx_facts t
  show iblk V c 3 t (ix2 p (0 : Fin 1)) = _
  unfold iblk
  rw [View.read_apply]
  show V c main_v0 _ = V c main_v0 _
  congr 1
  funext a
  apply Fin.ext
  match a with
  | ⟨0, _⟩ => show win1_3.index t 0 * 256 + 1 * p.val = r.val; rw [e0, hr]; omega
  | ⟨1, _⟩ => show win1_3.index t 1 * 1 + 1 * (0 : Fin 1).val = (0 : Fin 1).val; rw [e1]; rfl

/-- The left factor's block: rows 256 t .. 256 t + 255 of B. -/
theorem bblk_apply (c : Dev nD) (t : Fin cfg1.N) (p : Fin 256) (k : Fin 16) (r : Fin 4096) (hr : r.val = 256 * t.val + p.val) :
    (bblk V c t) (ix2 p k) = Barr V c (ix2 r k) := by
  obtain ⟨-, -, -, -, ⟨e0, e1⟩, -⟩ := idx_facts t
  show iblk V c 4 t (ix2 p k) = _
  unfold iblk
  rw [View.read_apply]
  show V c main_arg5 _ = V c main_arg5 _
  congr 1
  funext a
  apply Fin.ext
  match a with
  | ⟨0, _⟩ => show win1_4.index t 0 * 256 + 1 * p.val = r.val; rw [e0, hr]; omega
  | ⟨1, _⟩ => show win1_4.index t 1 * 16 + 1 * k.val = k.val; rw [e1]; omega

/-- The right factor's block is all of A. -/
theorem ablk_apply (c : Dev nD) (t : Fin cfg1.N) (k : Fin 16) (q : Fin 4096) :
    (ablk V c t) (ix2 k q) = Aarr V c (ix2 k q) := by
  obtain ⟨-, -, -, -, -, ⟨e0, e1⟩, -⟩ := idx_facts t
  show iblk V c 5 t (ix2 k q) = _
  unfold iblk
  rw [View.read_apply]
  show V c main_arg4 _ = V c main_arg4 _
  congr 1
  funext a
  apply Fin.ext
  match a with
  | ⟨0, _⟩ => show win1_5.index t 0 * 16 + 1 * k.val = k.val; rw [e0]; omega
  | ⟨1, _⟩ => show win1_5.index t 1 * 4096 + 1 * q.val = q.val; rw [e1]; omega

/-- The clamp factor's block is the [1,1] array. -/
theorem facblk_apply (c : Dev nD) (t : Fin cfg1.N) :
    (facblk V c t) (ix2 (0 : Fin 1) (0 : Fin 1)) = facarr V c (ix2 (0 : Fin 1) (0 : Fin 1)) := by
  obtain ⟨-, -, -, -, -, -, ⟨e0, e1⟩, -⟩ := idx_facts t
  show iblk V c 6 t (ix2 (0 : Fin 1) (0 : Fin 1)) = _
  unfold iblk
  rw [View.read_apply]
  show V c main_v13 _ = V c main_v13 _
  congr 1
  funext a
  apply Fin.ext
  match a with
  | ⟨0, _⟩ => show win1_6.index t 0 * 1 + 1 * (0 : Fin 1).val = (0 : Fin 1).val; rw [e0]; rfl
  | ⟨1, _⟩ => show win1_6.index t 1 * 1 + 1 * (0 : Fin 1).val = (0 : Fin 1).val; rw [e1]; rfl

/-- The printed dimension numbers are the plain rows-by-columns contraction. -/
theorem dot_plain : dot_S256x16_S16x4096_S256x4096_1_0_0_1_n_n = DotDims.plain 256 16 4096 := rfl

/-- The one entry of a [1,1] array, taken out at position (0, 0). -/
theorem extract_one (v15 : Vec Ideal S1x1 .f32) :
    extractAt ![0, 0] v15 inpos_S1x1_p0_0 = v15 (ix2 (0 : Fin 1) (0 : Fin 1)) := by
  unfold extractAt
  congr 1
  funext a
  match a with
  | ⟨0, _⟩ => rfl
  | ⟨1, _⟩ => rfl

/-- The stored block's entry (p, q) from the loaded blocks: the sum of the two weights' entries plus the gated
    update's entry times the clamp factor, in the body's own order of operations. -/
theorem pay_apply (v0 : Vec Ideal S256x16 .f32) (v1 : Vec Ideal S16x4096 .f32) (v5 : Vec Ideal S256x1 .f32)
    (v9 : Vec Ideal S256x4096 .f32) (v15 : Vec Ideal S1x1 .f32) (v19 v20 : Vec Ideal S256x4096 .f32)
    (p : Fin 256) (q : Fin 4096) :
    (k1_pay1 v0 v1 v5 v9 v15 v19 v20 : S256x4096.Idx → EReal) (ix2 p q)
      = ((v19 (ix2 p q) : EReal) + (v20 (ix2 p q) : EReal))
        + Ideal.div ((v5 (ix2 p (0 : Fin 1)) : EReal) * (Cert.Spec.one * ∑ k : Fin 16, (v0 (ix2 p k) : EReal) * (v1 (ix2 k q) : EReal)))
            (Cert.Spec.one + Cert.Spec.ten * (v9 (ix2 p q) : EReal)) * (v15 (ix2 (0 : Fin 1) (0 : Fin 1)) : EReal) := by
  unfold k1_pay1
  rw [truncf_apply, addf_apply, addf_apply, mulf_apply, divf_apply, mulf_apply, mulf_apply, addf_apply, mulf_apply]
  simp only [broadcast_apply]
  rw [shapeCast_self, Cert.Lib.ColBroadcast.bcastColMat_apply, dot_plain, extract_one]
  unfold Idealize.ShloMosaic.matmul
  rw [Cert.Lib.Matmul.matmul_zero_apply]
  rfl

/-- The effective weight at row `o`, column `i`, of the arrays the region is handed. -/
abbrev g (c : Dev nD) (o i : Fin 4096) : EReal :=
  Cert.Spec.weff (fun o r => Barr V c (ix2 o r)) (fun r i => Aarr V c (ix2 r i)) (fun o => marr V c (ix2 o (0 : Fin 1)))
    (fun o i => farr V c (ix2 o i)) (fun o i => w0arr V c (ix2 o i)) (fun o i => waccarr V c (ix2 o i))
    (facarr V c (ix2 (0 : Fin 1) (0 : Fin 1))) o i

/-- The specification's array: the effective weight at every row and column. -/
abbrev G (c : Dev nD) : S4096x4096.Idx → EReal := fun j => g V c (j 0) (j 1)

/-- Entry (p, q) of the block stored at point `t` is the effective weight at row 256 t + p, column q. -/
theorem outblk_apply (c : Dev nD) (t : Fin cfg1.N) (p : Fin 256) (q r : Fin 4096) (hr : r.val = 256 * t.val + p.val) :
    (outblk V c t : S256x4096.Idx → EReal) (ix2 p q) = g V c r q := by
  unfold outblk
  rw [pay_apply, w0blk_apply V c t p q r hr, waccblk_apply V c t p q r hr, fblk_apply V c t p q r hr,
    mblk_apply V c t p r hr, facblk_apply V c t]
  simp only [bblk_apply V c t p _ r hr, ablk_apply V c t]
  rfl

/-- What point `t` writes back is block `t` of the specification's array. -/
theorem flushed_eq (c : Dev nD) (t : Fin cfg1.N) :
    (dat V c).flushed 7 t = ((cfg1.win 7).blk t).view.read (Elt Ideal) (G V c) := by
  show (cfg1.win 7).cut (grid1.coords t) ((dat V c).after 7 t) = _
  rw [after_7]
  obtain ⟨-, -, -, -, -, -, -, ⟨e0, e1⟩⟩ := idx_facts t
  have ht := N_val t
  funext j
  have hp : (j 0).val < 256 := (j 0).isLt
  have hq : (j 1).val < 4096 := (j 1).isLt
  have hr : 256 * t.val + (j 0).val < 4096 := by omega
  have hj : win1_7.xinj (grid1.coords t) j = ix2 (⟨(j 0).val, hp⟩ : Fin 256) (⟨(j 1).val, hq⟩ : Fin 4096) := by
    funext a
    match a with
    | ⟨0, _⟩ => rfl
    | ⟨1, _⟩ => rfl
  have he : ((cfg1.win 7).blk t).view.emb j = ix2 (⟨256 * t.val + (j 0).val, hr⟩ : Fin 4096) (⟨(j 1).val, hq⟩ : Fin 4096) := by
    funext a
    apply Fin.ext
    match a with
    | ⟨0, _⟩ => show win1_7.index t 0 * 256 + 1 * (j 0).val = 256 * t.val + (j 0).val; rw [e0]; omega
    | ⟨1, _⟩ => show win1_7.index t 1 * 4096 + 1 * (j 1).val = (j 1).val; rw [e1]; omega
  show outblk V c t (win1_7.xinj (grid1.coords t) j) = G V c (((cfg1.win 7).blk t).view.emb j)
  rw [hj, he]
  exact outblk_apply V c t _ _ _ rfl

/-- An index of the array is in point `t`'s block iff each coordinate is in the block's range on its axis. -/
theorem mem_blk (t : Fin cfg1.N) (i : S4096x4096.Idx) :
    i ∈ ((cfg1.win 7).blk t).view.set ↔ ∀ a : Fin 2, win1_7.index t a * S256x4096.size a ≤ (i a).val
      ∧ (i a).val < win1_7.index t a * S256x4096.size a + S256x4096.size a := by
  show i ∈ ((View.whole main_v14).slice (win1_7.rect t)).set ↔ _
  rw [View.set_slice_whole, Rect.mem_set_unit]
  exact Iff.rfl

/-- The sixteen row blocks cover the array: row r is in block r / 256. -/
theorem covered (i : S4096x4096.Idx) :
    ∃ t : Fin cfg1.N, (cfg1.win 7).flush t = true ∧ i ∈ ((cfg1.win 7).blk t).view.set := by
  have h0 : (i 0).val < 4096 := (i 0).isLt
  have h1 : (i 1).val < 4096 := (i 1).isLt
  have hN : (i 0).val / 256 < cfg1.N := lt_of_lt_of_eq (show (i 0).val / 256 < 16 by omega) N_1.symm
  obtain ⟨-, -, -, -, -, -, -, ⟨e0, e1⟩⟩ := idx_facts ⟨(i 0).val / 256, hN⟩
  refine ⟨⟨(i 0).val / 256, hN⟩, flush1_7 _, ?_⟩
  rw [mem_blk]
  intro a
  match a with
  | ⟨0, _⟩ =>
    show win1_7.index ⟨(i 0).val / 256, hN⟩ 0 * 256 ≤ (i 0).val ∧ (i 0).val < win1_7.index ⟨(i 0).val / 256, hN⟩ 0 * 256 + 256
    rw [e0]
    show (i 0).val / 256 * 256 ≤ (i 0).val ∧ (i 0).val < (i 0).val / 256 * 256 + 256
    omega
  | ⟨1, _⟩ =>
    show win1_7.index ⟨(i 0).val / 256, hN⟩ 1 * 4096 ≤ (i 1).val ∧ (i 1).val < win1_7.index ⟨(i 0).val / 256, hN⟩ 1 * 4096 + 4096
    rw [e1]
    omega

/-- The array after the run is the specification's array. -/
theorem final (c : Dev nD) : (dat V c).arrAt 7 cfg1.N = G V c :=
  (dat V c).arrAt_eq_of_cover 7 (G V c) (fun t _ => flushed_eq V c t) covered

/-- Every entry of the result array is the effective weight there. -/
theorem weff_eq (c : Dev nD) (o i : Fin 4096) :
    ((dat (F := Ideal) V c).arrAt 7 cfg1.N : S4096x4096.Idx → EReal) (ix2 o i)
      = Cert.Spec.weff (fun o r => (V c main_arg5 : S4096x16.Idx → EReal) (ix2 o r))
          (fun r i => (V c main_arg4 : S16x4096.Idx → EReal) (ix2 r i))
          (fun o => (V c main_v0 : S4096x1.Idx → EReal) (ix2 o 0))
          (fun o i => (V c main_arg7 : S4096x4096.Idx → EReal) (ix2 o i))
          (fun o i => (V c main_arg1 : S4096x4096.Idx → EReal) (ix2 o i))
          (fun o i => (V c main_arg2 : S4096x4096.Idx → EReal) (ix2 o i))
          ((V c main_v13 : S1x1.Idx → EReal) (ix2 0 0)) o i := by
  rw [final V c]

end Cert.KernelIdeal.R1

end
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.KI.R2Value.lean ====
/-
  The third launch's result on the extended reals: the 32 output tiles, each stored at the last of its four contraction
  blocks, tile the [8192, 4096] array, and each entry is the full contraction over 4096 (the four partial products of
  1024 terms added up from zero) plus the bias entry of its column.
-/
import proofs.«135257_j31001073942670_1_alg».proof.Proof.KI.R2Data
import proofs.«135257_j31001073942670_1_alg».proof.Proof.Spec
import proofs.«135257_j31001073942670_1_alg».proof.Proof.LibMatmulRowRow
import proofs.«135257_j31001073942670_1_alg».proof.Proof.LibBlockSum
import proofs.«135257_j31001073942670_1_alg».proof.Proof.LibColToRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

-- the TensorCore's buffer contents when the region is entered, at the extended reals
variable (V : (c : Dev nD) → (b : Ref sig .tc) → Buf (Elt Ideal) ((c : Thread nD τ).loc b))

/-- The three arrays the region is handed, by their literal types: x as [8192, 4096], the effective weight as
    [4096, 4096] (out, in), the bias as one row. -/
abbrev xarr (c : Dev nD) : S8192x4096.Idx → EReal := V c main_v15
abbrev warr (c : Dev nD) : S4096x4096.Idx → EReal := V c main_v14
abbrev biasrow (c : Dev nD) : S1x4096.Idx → EReal := V c main_v16
/-- The result array after the run, by its literal type. -/
abbrev yarr (c : Dev nD) : S8192x4096.Idx → EReal := (dat (F := Ideal) V c).arrAt 3 cfg2.N

/-! ## The index maps, decided once over the 128 grid points

Point number t is (i, j, k) = (t / 16, t / 4 mod 4, t mod 4). -/

theorem idx_facts : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

/-! ## The tiles read at an entry: entries of the arrays -/

/-- The x tile at point t, at (p, l), is x at (1024 i + p, 1024 k + l). -/
theorem xblk_apply (c : Dev nD) (t : Fin cfg2.N) (p l : Fin 1024) (r : Fin 8192) (i : Fin 4096)
    (hr : r.val = 1024 * (t.val / 16) + p.val) (hi : i.val = 1024 * (t.val % 4) + l.val) :
    xblk V c t (ix2 p l) = xarr V c (ix2 r i) := by
  obtain ⟨e0, e1, -⟩ := idx_facts t
  show iblk V c 0 t (ix2 p l) = _
  unfold iblk
  rw [View.read_apply]
  show V c main_v15 _ = V c main_v15 _
  congr 1
  funext a
  apply Fin.ext
  match a with
  | ⟨0, _⟩ => show win2_0.index t (0 : Fin 2) * 1024 + 1 * p.val = r.val; omega
  | ⟨1, _⟩ => show win2_0.index t (1 : Fin 2) * 1024 + 1 * l.val = i.val; omega

/-- The weight tile at point t, at (q, l), is the weight at (1024 j + q, 1024 k + l). -/
theorem wblk_apply (c : Dev nD) (t : Fin cfg2.N) (q l : Fin 1024) (o i : Fin 4096)
    (ho : o.val = 1024 * (t.val / 4 % 4) + q.val) (hi : i.val = 1024 * (t.val % 4) + l.val) :
    wblk V c t (ix2 q l) = warr V c (ix2 o i) := by
  obtain ⟨-, -, e2, e3, -⟩ := idx_facts t
  show iblk V c 1 t (ix2 q l) = _
  unfold iblk
  rw [View.read_apply]
  show V c main_v14 _ = V c main_v14 _
  congr 1
  funext a
  apply Fin.ext
  match a with
  | ⟨0, _⟩ => show win2_1.index t (0 : Fin 2) * 1024 + 1 * q.val = o.val; omega
  | ⟨1, _⟩ => show win2_1.index t (1 : Fin 2) * 1024 + 1 * l.val = i.val; omega

/-- The bias tile at point t, at (0, q), is the bias row at (0, 1024 j + q). -/
theorem biasblk_apply (c : Dev nD) (t : Fin cfg2.N) (q : Fin 1024) (o : Fin 4096)
    (ho : o.val = 1024 * (t.val / 4 % 4) + q.val) :
    biasblk V c t (ix2 (0 : Fin 1) q) = biasrow V c (ix2 (0 : Fin 1) o) := by
  obtain ⟨-, -, -, -, e4, e5, -⟩ := idx_facts t
  show iblk V c 2 t (ix2 (0 : Fin 1) q) = _
  unfold iblk
  rw [View.read_apply]
  show V c main_v16 _ = V c main_v16 _
  congr 1
  funext a
  apply Fin.ext
  match a with
  | ⟨0, _⟩ => show win2_2.index t (0 : Fin 2) * 1 + 1 * 0 = 0; omega
  | ⟨1, _⟩ => show win2_2.index t (1 : Fin 2) * 1024 + 1 * q.val = o.val; omega

/-! ## The three payloads read at an entry -/

/-- The reset tile is zero everywhere. -/
theorem pay1_apply (p q : Fin 1024) : (k2_pay1 (F := Ideal)) (ix2 p q) = (0 : EReal) := by
  unfold k2_pay1
  simp only [shapeCast_self]
  show Ideal.ofBits .f32 0x00000000#32 = 0
  exact Ideal.ofBits_zero_f32

/-- One step of the contraction: the tile before plus the rows of the x tile against the rows of the weight tile
    (the change of format is the identity on the extended reals). -/
theorem pay2_apply (x : S1024x1024.Idx → EReal) (w : S1024x1024.Idx → EReal) (prev : S1024x1024.Idx → EReal)
    (p q : Fin 1024) :
    k2_pay2 (F := Ideal) x w prev (ix2 p q) = prev (ix2 p q) + ∑ l : Fin 1024, x (ix2 p l) * w (ix2 q l) := by
  unfold k2_pay2
  simp only [shapeCast_self]
  rw [addf_apply]
  congr 1
  exact Cert.Lib.MatmulRowRow.matmul_zero_apply (A := 1024) (K := 1024) (C := 1024) none _ _ p q

/-- The stored tile: the total plus the bias row repeated down the rows. -/
theorem pay3_apply (a : S1024x1024.Idx → EReal) (b : S1x1024.Idx → EReal) (p q : Fin 1024) :
    k2_pay3 (F := Ideal) a b (ix2 p q) = a (ix2 p q) + b (ix2 (0 : Fin 1) q) := by
  unfold k2_pay3
  simp only [shapeCast_self]
  rw [addf_apply]
  congr 1
  exact Cert.Lib.ColToRow.bcastRowMat_apply (A := 1024) (B := 1024) b _ p q

/-! ## The partial product at an entry -/

/-- The tiles at point number n and the scratch tile after n points, by their literal types. -/
abbrev xb (c : Dev nD) (n : ℕ) : S1024x1024.Idx → EReal := xblk V c (pt n)
abbrev wb (c : Dev nD) (n : ℕ) : S1024x1024.Idx → EReal := wblk V c (pt n)
abbrev ac (c : Dev nD) (n : ℕ) : S1024x1024.Idx → EReal := acc V c n

/-- From a point t0 whose contraction block is the first, after k + 1 points the scratch tile holds at (p, q) the
    k + 1 partial products added up from zero, in order. -/
theorem acc_apply (c : Dev nD) (t0 : ℕ) (h0 : t0 % 4 = 0) (p q : Fin 1024) (k : ℕ) (hk : k < 4) :
    ac V c (t0 + k + 1) (ix2 p q)
      = ∑ kb ∈ Finset.range (k + 1), ∑ l : Fin 1024, xb V c (t0 + kb) (ix2 p l) * wb V c (t0 + kb) (ix2 q l) := by
  induction k with
  | zero =>
    show acc V c (t0 + 0 + 1) (ix2 p q) = _
    rw [acc_succ, if_pos h0, pay2_apply, pay1_apply, zero_add, Finset.sum_range_succ, Finset.sum_range_zero, zero_add]
    rfl
  | succ k ih =>
    have ih := ih (by omega)
    show acc V c (t0 + (k + 1) + 1) (ix2 p q) = _
    rw [acc_succ, if_neg (show ¬ (t0 + (k + 1)) % 4 = 0 by omega), pay2_apply, Finset.sum_range_succ, ← ih]
    rfl

/-! ## The closed form -/

/-- Entry (r, o) of the result: the row of x against the row of the weight, plus the bias of the column. -/
def Gf (c : Dev nD) (r : Fin 8192) (o : Fin 4096) : EReal :=
  (∑ i : Fin 4096, xarr V c (ix2 r i) * warr V c (ix2 o i)) + biasrow V c (ix2 0 o)

/-- Term number n of the contraction of row r of x with row o of the weight (zero past the end: never read there). -/
def term (c : Dev nD) (r : Fin 8192) (o : Fin 4096) (n : ℕ) : EReal :=
  if h : n < 4096 then xarr V c (ix2 r ⟨n, h⟩) * warr V c (ix2 o ⟨n, h⟩) else 0

theorem term_of_lt (c : Dev nD) (r : Fin 8192) (o : Fin 4096) (n : ℕ) (h : n < 4096) :
    term V c r o n = xarr V c (ix2 r ⟨n, h⟩) * warr V c (ix2 o ⟨n, h⟩) := dif_pos h

/-- The tile stored at a point t whose contraction block is the last, at (p, q), is the closed form at
    (1024 i + p, 1024 j + q): the four partial products of 1024 terms are the 4096 terms in order. -/
theorem outblk_apply (c : Dev nD) (t : Fin cfg2.N) (h3 : t.val % 4 = 3) (p q : Fin 1024) (r : Fin 8192) (o : Fin 4096)
    (hr : r.val = 1024 * (t.val / 16) + p.val) (ho : o.val = 1024 * (t.val / 4 % 4) + q.val) :
    outblk V c t (ix2 p q) = Gf V c r o := by
  have hN : t.val < 128 := by have h := t.isLt; have := N_2; show t.val < 128; omega
  unfold outblk
  rw [pay3_apply]
  unfold Gf
  congr 1
  · have ha := acc_apply V c (t.val - 3) (by omega) p q 3 (by omega)
    rw [show t.val - 3 + 3 + 1 = t.val + 1 from by omega] at ha
    show ac V c (t.val + 1) (ix2 p q) = _
    rw [ha]
    have hf : ∀ kb ∈ Finset.range 4,
        ∑ l : Fin 1024, xb V c (t.val - 3 + kb) (ix2 p l) * wb V c (t.val - 3 + kb) (ix2 q l)
          = ∑ l : Fin 1024, term V c r o (1024 * kb + l.val) := by
      intro kb hkb
      have hkb' : kb < 4 := Finset.mem_range.mp hkb
      refine Finset.sum_congr rfl fun l _ => ?_
      have hl := l.isLt
      have hlt : 1024 * kb + l.val < 4096 := by omega
      have hpt : (pt (t.val - 3 + kb)).val = t.val - 3 + kb := by show min _ 127 = _; omega
      have ex := xblk_apply V c (pt (t.val - 3 + kb)) p l r ⟨1024 * kb + l.val, hlt⟩ (by rw [hpt]; omega)
        (by rw [hpt]; show 1024 * kb + l.val = _; omega)
      have ew := wblk_apply V c (pt (t.val - 3 + kb)) q l o ⟨1024 * kb + l.val, hlt⟩ (by rw [hpt]; omega)
        (by rw [hpt]; show 1024 * kb + l.val = _; omega)
      rw [term_of_lt V c r o _ hlt]
      exact congrArg₂ (fun a b : EReal => a * b) ex ew
    rw [Finset.sum_congr rfl hf, BlockSum.sum_blocks 1024 4 (term V c r o)]
    show ∑ i : Fin 4096, term V c r o i.val = _
    exact Finset.sum_congr rfl fun i _ => term_of_lt V c r o i.val i.isLt
  · exact biasblk_apply V c t q o ho

/-- The closed form as one array. -/
abbrev G (c : Dev nD) : S8192x4096.Idx → EReal :=
  fun j => Gf V c ⟨(j 0).val, idx2_lt0 j⟩ ⟨(j 1).val, idx2_lt1 j⟩

/-! ## From the write-backs to the array -/

/-- What a point whose contraction block is the last writes back is its tile of the closed form. -/
theorem flushed_eq (c : Dev nD) (t : Fin cfg2.N) (hf : (cfg2.win 3).flush t = true) :
    (dat (F := Ideal) V c).flushed 3 t = ((cfg2.win 3).blk t).view.read (Elt Ideal) (G V c) := by
  have h3 : t.val % 4 = 3 := (flush2_3 t).mp hf
  obtain ⟨-, -, -, -, -, -, e6, e7⟩ := idx_facts t
  show (cfg2.win 3).cut (grid2.coords t) ((dat (F := Ideal) V c).after 3 t) = _
  rw [after_3]
  funext j
  rw [View.read_apply]
  have hj0 : (j 0).val < 1024 := (j 0).isLt
  have hj1 : (j 1).val < 1024 := (j 1).isLt
  have e : (cfg2.win 3).xinj (grid2.coords t) j = ix2 (⟨(j 0).val, hj0⟩ : Fin 1024) (⟨(j 1).val, hj1⟩ : Fin 1024) := by
    funext a
    match a with
    | ⟨0, _⟩ => rfl
    | ⟨1, _⟩ => rfl
  show outblk V c t ((cfg2.win 3).xinj (grid2.coords t) j) = G V c (((cfg2.win 3).blk t).view.emb j)
  rw [e]
  exact outblk_apply V c t h3 _ _ _ _
    (by show win2_3.index t (0 : Fin 2) * 1024 + 1 * (j 0).val = 1024 * (t.val / 16) + (j 0).val; omega)
    (by show win2_3.index t (1 : Fin 2) * 1024 + 1 * (j 1).val = 1024 * (t.val / 4 % 4) + (j 1).val; omega)

/-- The 32 stored tiles cover the array: entry (r, o) lies in the tile of the point ((r / 1024) 4 + o / 1024) 4 + 3. -/
theorem cover (i : S8192x4096.Idx) :
    ∃ t : Fin cfg2.N, (cfg2.win 3).flush t = true ∧ i ∈ ((cfg2.win 3).blk t).view.set := by
  have h0 : (i 0).val < 8192 := idx2_lt0 i
  have h1 : (i 1).val < 4096 := idx2_lt1 i
  have hN := N_2
  obtain ⟨t, ht⟩ : ∃ t : Fin cfg2.N, t.val = ((i 0).val / 1024 * 4 + (i 1).val / 1024) * 4 + 3 :=
    ⟨⟨((i 0).val / 1024 * 4 + (i 1).val / 1024) * 4 + 3, by show _ < grid2.N; omega⟩, rfl⟩
  obtain ⟨-, -, -, -, -, -, e6, e7⟩ := idx_facts t
  refine ⟨t, (flush2_3 t).mpr (by omega), ?_⟩
  show i ∈ ((View.whole main_v17).slice (win2_3.rect t)).set
  rw [View.set_slice_whole, Rect.mem_set_unit]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-- The result array after the run is the closed form. -/
theorem final (c : Dev nD) : (dat (F := Ideal) V c).arrAt 3 cfg2.N = G V c :=
  (dat (F := Ideal) V c).arrAt_eq_of_cover 3 (G V c) (flushed_eq V c) cover

/-- Every entry of the result array is the row of x against the row of the weight, plus the bias. -/
theorem y_eq (c : Dev nD) (r : Fin 8192) (o : Fin 4096) :
    yarr V c (ix2 r o) = (∑ i : Fin 4096, xarr V c (ix2 r i) * warr V c (ix2 o i)) + biasrow V c (ix2 0 o) := by
  show (dat (F := Ideal) V c).arrAt 3 cfg2.N (ix2 r o) = _
  rw [final]
  rfl

end Cert.KernelIdeal.R2

end
-- ==== Proof.LibMergeRows.lean ====
/-
  Two leading axes merged into one, and one leading axis split into two, read at an entry (a general lemma: nothing
  here depends on a program).

  An array [A, B, C] and an array [A·B, C] hold the same entries in the same row-major order: entry (a, b, c) of the
  first sits where entry (a·B + b, c) of the second does. So a shape cast from one to the other, in either
  direction, moves no entry: it only renames (a, b) as the row a·B + b. Any sizes A, B, C; the merged extent is a
  parameter N with the row r given together with the equation r = a·B + b, so that a literal extent (16384 for
  16·1024) is met without arithmetic on types.
-/
import Idealize.ShloMosaic.Lib.ValueIdx
import Idealize.ShloMosaic.Lib.Pipeline.Value

noncomputable section

namespace Cert.Lib.MergeRows

open Idealize.ShloMosaic Idealize.ShloMosaic.ValueIdx

/-- [A, B, C] viewed as [N, C]: the entry at row a·B + b, column c, is the entry (a, b, c). -/
theorem merge_apply {α : Type} {A B C N : Nat} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- [N, C] viewed as [A, B, C]: the entry (a, b, c) is the entry at row a·B + b, column c. -/
theorem split_apply {α : Type} {A B C N : Nat} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) := by
  refine shapeCast_apply x h (ix3 a b c) (ix2 r c) ?_
  rw [Shape.rowMajor_val_three, Shape.rowMajor_val_two]
  show r.val * C + c.val = (a.val * B + b.val) * C + c.val
  rw [hr]

end Cert.Lib.MergeRows

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.KI.Final.lean ====
/-
  The kernel program's result on the extended reals, entry by entry: the last valuation's result array is the last
  reshape of what the third launch leaves; the third launch contracts the reshaped x against what the second launch
  leaves and adds the bias row; the second launch leaves the effective weight with the clamp factor it is handed; the
  clamp factor is the host's scalar chain applied to the two numbers the first launch leaves, which are the two squared
  norms. Put together: the specification's function of the eight argument arrays.
-/
import proofs.«135257_j31001073942670_1_alg».proof.Proof.KI.RunDefs
import proofs.«135257_j31001073942670_1_alg».proof.Proof.KI.R0Value
import proofs.«135257_j31001073942670_1_alg».proof.Proof.KI.R1Value
import proofs.«135257_j31001073942670_1_alg».proof.Proof.KI.R2Value
import proofs.«135257_j31001073942670_1_alg».proof.Proof.Spec
import proofs.«135257_j31001073942670_1_alg».proof.Proof.LibMergeRows
import proofs.«135257_j31001073942670_1_alg».proof.Proof.LibLayout
import proofs.«135257_j31001073942670_1_alg».proof.Proof.LibLayoutCol
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Run

open Idealize.ShloMosaic Idealize.ShloMosaic.TcCoe Idealize.ShloMosaic.ValueIdx
open Idealize.SL Idealize.SL.Sem
open Cert.KernelIdeal Cert.KernelIdeal.Gen
open scoped BigOperators

/-! ## The host stretches, each read at the one buffer used: over any contents `W` it is entered with -/

section Host

variable (W : Valuation τ sig (Elt Ideal))

/-- The last host stretch: the result array is the [8192, 4096] array split into [4, 2048, 4096]. -/
theorem after3_v18 :
    StableHlo.after hostOps3 W (Proc.devRef .tc main_v18)
      = fun i => shapeCast S4x2048x4096 (W (Proc.devRef .tc main_v17)) shapeCasts_S8192x4096_S4x2048x4096 i := by
  dsimp only [hostOps3]
  after_results
  rfl

/-- Before the third launch: x merged into [8192, 4096]. -/
theorem after2_v15 :
    StableHlo.after hostOps2 W (Proc.devRef .tc main_v15)
      = fun i => shapeCast S8192x4096 (W (Proc.devRef .tc main_arg0)) shapeCasts_S4x2048x4096_S8192x4096 i := by
  dsimp only [hostOps2]
  after_results
  rfl

/-- Before the third launch: the bias as one row. -/
theorem after2_v16 :
    StableHlo.after hostOps2 W (Proc.devRef .tc main_v16)
      = fun i => shapeCast S1x4096 (W (Proc.devRef .tc main_arg3)) shapeCasts_S4096_S1x4096 i := by
  dsimp only [hostOps2]
  after_results
  rfl

/-- Before the first launch: the magnitudes as one column. -/
theorem after0_v0 :
    StableHlo.after hostOps0 W (Proc.devRef .tc main_v0)
      = fun i => shapeCast S4096x1 (W (Proc.devRef .tc main_arg6)) shapeCasts_S4096_S4096x1 i := by
  dsimp only [hostOps0]
  after_results
  rfl

/-- Before the second launch: the selected scalar as a [1,1] array. -/
theorem after12_v13 :
    StableHlo.after hostOps1_2 W (Proc.devRef .tc main_v13)
      = fun i => shapeCast S1x1 (W (Proc.devRef .tc main_v12)) shapeCasts_S_S1x1 i := by
  dsimp only [hostOps1_2]
  after_results
  rfl

/-- The selection between the quotient and the constant one. -/
theorem after11_v12 :
    StableHlo.after hostOps1_1 W (Proc.devRef .tc main_v12)
      = select (W (Proc.devRef .tc main_v9)) (W (Proc.devRef .tc main_v11)) (W (Proc.devRef .tc main_cst_2)) := by
  dsimp only [hostOps1_1]
  after_results
  rfl

/-- The two [1,1] arrays the first launch leaves, recast to scalars. -/
abbrev sc0 : FVec Ideal Cert.Spec.S0 .f32 := fun i => shapeCast S_ (W (Proc.devRef .tc main_v1_0)) shapeCasts_S1x1_S_ i
abbrev sc1 : FVec Ideal Cert.Spec.S0 .f32 := fun i => shapeCast S_ (W (Proc.devRef .tc main_v1_1)) shapeCasts_S1x1_S_ i

/-- The condition: the update's norm exceeds both 0.15 times the base norm and the small constant. -/
theorem after1_v9 :
    StableHlo.after hostOps1 W (Proc.devRef .tc main_v9)
      = andi (cmpf .ogt (Host.sqrt (F := Ideal) (sc1 W)) (mulf (constant (F := Ideal) Cert.Spec.S0 .f32 0x3E19999A#32) (Host.sqrt (F := Ideal) (sc0 W))))
          (cmpf .ogt (Host.sqrt (F := Ideal) (sc1 W)) (constant (F := Ideal) Cert.Spec.S0 .f32 0x322BCC77#32)) := by
  dsimp only [hostOps1]
  after_results
  rfl

/-- The quotient: 0.15 times the base norm over the update's norm kept away from zero. -/
theorem after1_v11 :
    StableHlo.after hostOps1 W (Proc.devRef .tc main_v11)
      = Host.divf (F := Ideal) (mulf (constant (F := Ideal) Cert.Spec.S0 .f32 0x3E19999A#32) (Host.sqrt (F := Ideal) (sc0 W)))
          (maximumf (Host.sqrt (F := Ideal) (sc1 W)) (constant (F := Ideal) Cert.Spec.S0 .f32 0x322BCC77#32)) := by
  dsimp only [hostOps1]
  after_results
  rfl

/-- The constant one. -/
theorem after1_cst2 :
    StableHlo.after hostOps1 W (Proc.devRef .tc main_cst_2) = constant (F := Ideal) Cert.Spec.S0 .f32 0x3F800000#32 := by
  dsimp only [hostOps1]
  after_results

/-- The scalar chain over the three host stretches between the first two launches: the clamp factor of the two recast
    scalars. -/
theorem factor_chain :
    StableHlo.after hostOps1_1 (StableHlo.after hostOps1 W) (Proc.devRef .tc main_v12) = Cert.Spec.factorV (sc0 W) (sc1 W) := by
  rw [after11_v12, after1_v9, after1_v11, after1_cst2]
  rfl

end Host

section Chain

variable (m : (ℓ : Loc nD τ sig) → Buf (Elt Ideal) ℓ) (c : Dev nD)

/-! ## What the launches leave, read off the valuations -/

/-- The third launch's result array. -/
theorem V8_v17 : V8 m (outs m) c main_v17 = R2.yarr (U7 m) c := by
  show Function.update (V7 m (outs m) c) (Proc.devRef .tc main_v17) (outs m 8 main_v17 c) (Proc.devRef .tc main_v17) = _
  rw [Function.update_self]
  show W8 m c main_v17 = _
  exact Pipeline.withArrays_arr spec2 launch2.win.arr_inj c _ _ 3

/-- The second launch's result array. -/
theorem V6_v14 : V6 m (outs2 m) c main_v14 = (R1.dat (U5 m) c).arrAt 7 cfg1.N := by
  show Function.update (V5 m (outs2 m) c) (Proc.devRef .tc main_v14) (outs2 m 6 main_v14 c) (Proc.devRef .tc main_v14) = _
  rw [Function.update_self]
  show W6 m c main_v14 = _
  exact Pipeline.withArrays_arr spec1 launch1.win.arr_inj c _ _ 7

/-- The first launch's second result array. -/
theorem V2_v1_1 : V2 m (outs1 m) c main_v1_1 = (R0.dat (U1 m) c).arrAt 6 cfg0.N := by
  show Function.update (Function.update (V1 m c) (Proc.devRef .tc main_v1_0) (outs1 m 2 main_v1_0 c)) (Proc.devRef .tc main_v1_1) (outs1 m 2 main_v1_1 c) (Proc.devRef .tc main_v1_1) = _
  rw [Function.update_self]
  show W2 m c main_v1_1 = _
  exact Pipeline.withArrays_arr spec0 launch0.win.arr_inj c _ _ 6

/-- The first launch's first result array. -/
theorem V2_v1_0 : V2 m (outs1 m) c main_v1_0 = (R0.dat (U1 m) c).arrAt 5 cfg0.N := by
  show Function.update (Function.update (V1 m c) (Proc.devRef .tc main_v1_0) (outs1 m 2 main_v1_0 c)) (Proc.devRef .tc main_v1_1) (outs1 m 2 main_v1_1 c) (Proc.devRef .tc main_v1_0) = _
  rw [Function.update_of_ne (StableHlo.devRef_ne_of_ne (by decide) : (Proc.devRef .tc main_v1_0 : DevRef τ sig) ≠ Proc.devRef .tc main_v1_1), Function.update_self]
  show W2 m c main_v1_0 = _
  exact Pipeline.withArrays_arr spec0 launch0.win.arr_inj c _ _ 5

/-! ## What no item before a launch writes is as launched -/

section Keep
variable (outs' : Outs (F := Ideal)) (r : Ref sig .tc)

theorem V1_keep (h1 : r ∉ hostOps0_W) : V1 m c r = m ((c.tc : Thread nD τ).loc r) :=
  (V1_of m c r h1).trans rfl

theorem V5_to_V1 (h2 : r ∉ ([main_v1_0, main_v1_1] : List (Ref sig .tc))) (h3 : r ∉ hostOps1_W)
    (h4 : r ∉ hostOps1_1_W) (h5 : r ∉ hostOps1_2_W) : V5 m outs' c r = V1 m c r :=
  (V5_of m outs' c r h5).trans <| (V4_of m outs' c r h4).trans <| (V3_of m outs' c r h3).trans <| V2_of m outs' c r h2

theorem V5_keep (h1 : r ∉ hostOps0_W) (h2 : r ∉ ([main_v1_0, main_v1_1] : List (Ref sig .tc))) (h3 : r ∉ hostOps1_W)
    (h4 : r ∉ hostOps1_1_W) (h5 : r ∉ hostOps1_2_W) : V5 m outs' c r = m ((c.tc : Thread nD τ).loc r) :=
  (V5_to_V1 m c outs' r h2 h3 h4 h5).trans (V1_keep m c r h1)

theorem V6_keep (h1 : r ∉ hostOps0_W) (h2 : r ∉ ([main_v1_0, main_v1_1] : List (Ref sig .tc))) (h3 : r ∉ hostOps1_W)
    (h4 : r ∉ hostOps1_1_W) (h5 : r ∉ hostOps1_2_W) (h6 : r ∉ ([main_v14] : List (Ref sig .tc))) :
    V6 m outs' c r = m ((c.tc : Thread nD τ).loc r) :=
  (V6_of m outs' c r h6).trans (V5_keep m c outs' r h1 h2 h3 h4 h5)

end Keep

/-! ## The third launch's operands -/

/-- x as [8192, 4096], at row 2048 b + s, is x at (b, s, ·). -/
theorem x_entry (b : Fin 4) (s : Fin 2048) (i : Fin 4096) (r : Fin 8192) (hr : r.val = b.val * 2048 + s.val) :
    R2.xarr (U7 m) c (ix2 r i) = (m ((c.tc : Thread nD τ).loc main_arg0) : S4x2048x4096.Idx → EReal) (ix3 b s i) := by
  have h : U7 m c main_v15
      = fun j => shapeCast S8192x4096 (V6 m (outs2 m) c main_arg0) shapeCasts_S4x2048x4096_S8192x4096 j :=
    after2_v15 (V6 m (outs2 m) c)
  show (U7 m c main_v15 : S8192x4096.Idx → EReal) (ix2 r i) = _
  rw [h, V6_keep m c (outs2 m) main_arg0 (by decide) (by decide) (by decide) (by decide) (by decide) (by decide)]
  exact Cert.Lib.MergeRows.merge_apply _ _ b s i r hr

/-- The bias row at (0, o) is the bias at o. -/
theorem bias_entry (o : Fin 4096) :
    R2.biasrow (U7 m) c (ix2 0 o) = (m ((c.tc : Thread nD τ).loc main_arg3) : S4096.Idx → EReal) (ix1 o) := by
  have h : U7 m c main_v16
      = fun j => shapeCast S1x4096 (V6 m (outs2 m) c main_arg3) shapeCasts_S4096_S1x4096 j :=
    after2_v16 (V6 m (outs2 m) c)
  show (U7 m c main_v16 : S1x4096.Idx → EReal) (ix2 0 o) = _
  rw [h, V6_keep m c (outs2 m) main_arg3 (by decide) (by decide) (by decide) (by decide) (by decide) (by decide)]
  exact Cert.Lib.Layout.rowCast_apply _ _ 0 o

/-- The weight the third launch is handed is what the second launch leaves. -/
theorem w_eq : R2.warr (U7 m) c = (R1.dat (U5 m) c).arrAt 7 cfg1.N :=
  (V7_of m (outs2 m) c main_v14 (by decide)).trans (V6_v14 m c)

/-! ## The magnitude column and the clamp factor -/

/-- The magnitude column at (o, 0) is the magnitude at o. -/
theorem mg_entry (o : Fin 4096) :
    (V1 m c main_v0 : S4096x1.Idx → EReal) (ix2 o 0)
      = (m ((c.tc : Thread nD τ).loc main_arg6) : S4096.Idx → EReal) (ix1 o) := by
  have h : V1 m c main_v0 = fun j => shapeCast S4096x1 (V0 m c main_arg6) shapeCasts_S4096_S4096x1 j :=
    after0_v0 (V0 m c)
  rw [h]
  exact Cert.Lib.LayoutCol.colCast_apply _ _ o 0

/-- A [1,1] array recast to a scalar holds its one entry. -/
theorem scalar_of_1x1 (x : S1x1.Idx → EReal) (j : S_.Idx) : shapeCast S_ x shapeCasts_S1x1_S_ j = x (ix2 0 0) := by
  refine shapeCast_apply x shapeCasts_S1x1_S_ j (ix2 0 0) ?_
  rw [Shape.rowMajor_val_two]
  show 0 * 1 + 0 = (Shape.rowMajorPi _ j).val
  rw [Shape.rowMajorPi_zero]

/-- A scalar recast to [1,1] holds it at its one entry. -/
theorem one_of_scalar (x : S_.Idx → EReal) : shapeCast S1x1 x shapeCasts_S_S1x1 (ix2 0 0) = x ix0 := by
  refine shapeCast_apply x shapeCasts_S_S1x1 (ix2 0 0) ix0 ?_
  rw [Shape.rowMajor_val_two]
  show (Shape.rowMajorPi _ ix0).val = 0 * 1 + 0
  rw [Shape.rowMajorPi_zero]

/-- The arrays the first launch reads, by their literal types. -/
abbrev aW0 : Fin 4096 → Fin 4096 → EReal := fun o i => (m ((c.tc : Thread nD τ).loc main_arg1) : S4096x4096.Idx → EReal) (ix2 o i)
abbrev aWacc : Fin 4096 → Fin 4096 → EReal := fun o i => (m ((c.tc : Thread nD τ).loc main_arg2) : S4096x4096.Idx → EReal) (ix2 o i)
abbrev aA : Fin 16 → Fin 4096 → EReal := fun r i => (m ((c.tc : Thread nD τ).loc main_arg4) : S16x4096.Idx → EReal) (ix2 r i)
abbrev aB : Fin 4096 → Fin 16 → EReal := fun o r => (m ((c.tc : Thread nD τ).loc main_arg5) : S4096x16.Idx → EReal) (ix2 o r)
abbrev aMg : Fin 4096 → EReal := fun o => (m ((c.tc : Thread nD τ).loc main_arg6) : S4096.Idx → EReal) (ix1 o)
abbrev aFm : Fin 4096 → Fin 4096 → EReal := fun o i => (m ((c.tc : Thread nD τ).loc main_arg7) : S4096x4096.Idx → EReal) (ix2 o i)

/-- The first launch's first number is the base weight's squared norm. -/
theorem s0_eq : (V2 m (outs1 m) c main_v1_0 : S1x1.Idx → EReal) (ix2 0 0) = Cert.Spec.ssW0 (aW0 m c) := by
  rw [V2_v1_0, R0.sumsq_w0 (U1 m) c]
  show Cert.Spec.ssW0 (fun o i => (V1 m c main_arg1 : S4096x4096.Idx → EReal) (ix2 o i)) = _
  rw [V1_keep m c main_arg1 (by decide)]

/-- The first launch's second number is the gated update's squared norm. -/
theorem s1_eq : (V2 m (outs1 m) c main_v1_1 : S1x1.Idx → EReal) (ix2 0 0)
    = Cert.Spec.ssDw (aB m c) (aA m c) (aMg m c) (aFm m c) := by
  rw [V2_v1_1, R0.sumsq_dw (U1 m) c]
  show Cert.Spec.ssDw (fun o r => (V1 m c main_arg5 : S4096x16.Idx → EReal) (ix2 o r))
      (fun r i => (V1 m c main_arg4 : S16x4096.Idx → EReal) (ix2 r i))
      (fun o => (V1 m c main_v0 : S4096x1.Idx → EReal) (ix2 o 0))
      (fun o i => (V1 m c main_arg7 : S4096x4096.Idx → EReal) (ix2 o i)) = _
  rw [V1_keep m c main_arg5 (by decide), V1_keep m c main_arg4 (by decide), V1_keep m c main_arg7 (by decide)]
  congr 1
  funext o
  exact mg_entry m c o

/-- The [1,1] array the second launch is handed holds the clamp factor of the two squared norms. -/
theorem fac_eq : (U5 m c main_v13 : S1x1.Idx → EReal) (ix2 0 0)
    = Cert.Spec.factor (Cert.Spec.ssW0 (aW0 m c)) (Cert.Spec.ssDw (aB m c) (aA m c) (aMg m c) (aFm m c)) := by
  have h : U5 m c main_v13 = fun j => shapeCast S1x1 (V4 m (outs1 m) c main_v12) shapeCasts_S_S1x1 j :=
    after12_v13 (V4 m (outs1 m) c)
  rw [h]
  show shapeCast S1x1 (V4 m (outs1 m) c main_v12) shapeCasts_S_S1x1 (ix2 0 0) = _
  rw [one_of_scalar]
  have h' : V4 m (outs1 m) c main_v12 = Cert.Spec.factorV (sc0 (V2 m (outs1 m) c)) (sc1 (V2 m (outs1 m) c)) :=
    factor_chain (V2 m (outs1 m) c)
  rw [h']
  have e0 : sc0 (V2 m (outs1 m) c) = fun _ => Cert.Spec.ssW0 (aW0 m c) := by
    funext j
    exact (scalar_of_1x1 _ j).trans (s0_eq m c)
  have e1 : sc1 (V2 m (outs1 m) c) = fun _ => Cert.Spec.ssDw (aB m c) (aA m c) (aMg m c) (aFm m c) := by
    funext j
    exact (scalar_of_1x1 _ j).trans (s1_eq m c)
  rw [e0, e1]
  rfl

/-! ## The effective weight and the result -/

/-- What the second launch leaves, and the third launch is handed, is the effective weight of the argument arrays. -/
theorem weff_entry (o i : Fin 4096) :
    R2.warr (U7 m) c (ix2 o i)
      = Cert.Spec.weff (aB m c) (aA m c) (aMg m c) (aFm m c) (aW0 m c) (aWacc m c)
          (Cert.Spec.factor (Cert.Spec.ssW0 (aW0 m c)) (Cert.Spec.ssDw (aB m c) (aA m c) (aMg m c) (aFm m c))) o i := by
  have hB : U5 m c main_arg5 = m ((c.tc : Thread nD τ).loc main_arg5) :=
    V5_keep m c (outs1 m) main_arg5 (by decide) (by decide) (by decide) (by decide) (by decide)
  have hA : U5 m c main_arg4 = m ((c.tc : Thread nD τ).loc main_arg4) :=
    V5_keep m c (outs1 m) main_arg4 (by decide) (by decide) (by decide) (by decide) (by decide)
  have hFm : U5 m c main_arg7 = m ((c.tc : Thread nD τ).loc main_arg7) :=
    V5_keep m c (outs1 m) main_arg7 (by decide) (by decide) (by decide) (by decide) (by decide)
  have hW0 : U5 m c main_arg1 = m ((c.tc : Thread nD τ).loc main_arg1) :=
    V5_keep m c (outs1 m) main_arg1 (by decide) (by decide) (by decide) (by decide) (by decide)
  have hWacc : U5 m c main_arg2 = m ((c.tc : Thread nD τ).loc main_arg2) :=
    V5_keep m c (outs1 m) main_arg2 (by decide) (by decide) (by decide) (by decide) (by decide)
  have hMg : (fun o => (U5 m c main_v0 : S4096x1.Idx → EReal) (ix2 o 0)) = aMg m c := by
    funext o'
    have h0 : U5 m c main_v0 = V1 m c main_v0 :=
      V5_to_V1 m c (outs1 m) main_v0 (by decide) (by decide) (by decide) (by decide)
    rw [h0]
    exact mg_entry m c o'
  rw [w_eq, R1.weff_eq (U5 m) c o i, fac_eq, hB, hA, hFm, hW0, hWacc, hMg]

end Chain

/-- The kernel program's result at batch `b`, position `s`, output feature `o` is the specification's. -/
theorem result_eq (m : (ℓ : Loc nD τ sig) → Buf (Elt Ideal) ℓ) (c : Dev nD) (b : Fin 4) (s : Fin 2048) (o : Fin 4096) :
    (V9 m (outs m) c main_v18 : S4x2048x4096.Idx → EReal) (ix3 b s o)
      = Cert.Spec.result
          (fun b s i => (m ((c.tc : Thread nD τ).loc main_arg0) : S4x2048x4096.Idx → EReal) (ix3 b s i))
          (fun o i => (m ((c.tc : Thread nD τ).loc main_arg1) : S4096x4096.Idx → EReal) (ix2 o i))
          (fun o i => (m ((c.tc : Thread nD τ).loc main_arg2) : S4096x4096.Idx → EReal) (ix2 o i))
          (fun o => (m ((c.tc : Thread nD τ).loc main_arg3) : S4096.Idx → EReal) (ix1 o))
          (fun r i => (m ((c.tc : Thread nD τ).loc main_arg4) : S16x4096.Idx → EReal) (ix2 r i))
          (fun o r => (m ((c.tc : Thread nD τ).loc main_arg5) : S4096x16.Idx → EReal) (ix2 o r))
          (fun o => (m ((c.tc : Thread nD τ).loc main_arg6) : S4096.Idx → EReal) (ix1 o))
          (fun o i => (m ((c.tc : Thread nD τ).loc main_arg7) : S4096x4096.Idx → EReal) (ix2 o i)) b s o := by
  -- row 2048 b + s of the merged array
  obtain ⟨r, hr⟩ : ∃ r : Fin 8192, r.val = b.val * 2048 + s.val :=
    ⟨⟨b.val * 2048 + s.val, by have := b.isLt; have := s.isLt; omega⟩, rfl⟩
  have h1 : V9 m (outs m) c main_v18
      = fun j => shapeCast S4x2048x4096 (V8 m (outs m) c main_v17) shapeCasts_S8192x4096_S4x2048x4096 j :=
    after3_v18 (V8 m (outs m) c)
  rw [h1]
  show shapeCast S4x2048x4096 (V8 m (outs m) c main_v17) shapeCasts_S8192x4096_S4x2048x4096 (ix3 b s o) = _
  rw [Cert.Lib.MergeRows.split_apply _ _ b s o r hr, V8_v17, R2.y_eq (U7 m) c r o, bias_entry]
  unfold Cert.Spec.result Cert.Spec.y
  congr 1
  refine Finset.sum_congr rfl fun i _ => ?_
  rw [x_entry m c b s i r hr, weff_entry]

end Cert.KernelIdeal.Run

end
-- ==== Proof.RefValue.lean ====
/-
  The reference's result array is the specification's function of the argument arrays, entry by entry: its one
  contraction against the effective weight plus the bias, the effective weight built from the gated low-rank update and
  the clamp factor, the clamp factor the scalar chain applied to the two total sums of squares.
-/
import proofs.«135257_j31001073942670_1_alg».proof.Proof.Gen.ReferenceIdeal.Read
import proofs.«135257_j31001073942670_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen
open scoped BigOperators

open Cert.ReferenceIdeal.Read

/-! ## The argument arrays, by their literal types -/

/-- The activations, [4, 2048, 4096]. -/
abbrev Arr3 : Type := (⟨S4x2048x4096, .f32⟩ : BufTy).Contents (Elt Ideal)
/-- A square weight-sized array, [4096, 4096]. -/
abbrev ArrW : Type := (⟨S4096x4096, .f32⟩ : BufTy).Contents (Elt Ideal)
/-- A vector over the output features, [4096]. -/
abbrev ArrV : Type := (⟨S4096, .f32⟩ : BufTy).Contents (Elt Ideal)
/-- The low-rank factor A, [16, 4096]. -/
abbrev ArrA : Type := (⟨S16x4096, .f32⟩ : BufTy).Contents (Elt Ideal)
/-- The low-rank factor B, [4096, 16]. -/
abbrev ArrB : Type := (⟨S4096x16, .f32⟩ : BufTy).Contents (Elt Ideal)

/-! ## The composed index functions at coordinates -/

/-- The first contraction reads B at row `o`, rank index `k`. -/
theorem lidx0 (o i : Fin 4096) (k : Fin 16) : lidx_main_v0 (ix2 o i) k = ix2 o k :=
  funext fun a => Fin.ext (by match a with | ⟨0, _⟩ => rfl | ⟨1, _⟩ => rfl)

/-- The first contraction reads A at rank index `k`, column `i`. -/
theorem ridx0 (o i : Fin 4096) (k : Fin 16) : ridx_main_v0 (ix2 o i) k = ix2 k i :=
  funext fun a => Fin.ext (by match a with | ⟨0, _⟩ => rfl | ⟨1, _⟩ => rfl)

/-- The magnitudes, made a column and spread over the columns, are read at the row. -/
theorem idx34 (o i : Fin 4096) : idx_main_v3 (idx_main_v4 (ix2 o i)) = ix1 o :=
  funext fun a => Fin.ext (by match a with | ⟨0, _⟩ => rfl)

/-- The last contraction reads the activations at `(b, s, k)`. -/
theorem lidx24 (b : Fin 4) (s : Fin 2048) (o k : Fin 4096) : lidx_main_v24 (ix3 b s o) k = ix3 b s k :=
  funext fun a => Fin.ext (by match a with | ⟨0, _⟩ => rfl | ⟨1, _⟩ => rfl | ⟨2, _⟩ => rfl)

/-- The last contraction reads the effective weight at row `o`, column `k`. -/
theorem ridx24 (b : Fin 4) (s : Fin 2048) (o k : Fin 4096) : ridx_main_v24 (ix3 b s o) k = ix2 o k :=
  funext fun a => Fin.ext (by match a with | ⟨0, _⟩ => rfl | ⟨1, _⟩ => rfl)

/-- The bias, made a [1, 1, 4096] array and spread over batch and position, is read at the output feature. -/
theorem idx2526 (b : Fin 4) (s : Fin 2048) (o : Fin 4096) : idx_main_v25 (idx_main_v26 (ix3 b s o)) = ix1 o :=
  funext fun a => Fin.ext (by match a with | ⟨0, _⟩ => rfl)

section
variable (x0 : Arr3) (x1 x2 : ArrW) (x3 : ArrV) (x4 : ArrA) (x5 : ArrB) (x6 : ArrV) (x7 : ArrW)

/-! ## The gated low-rank update -/

/-- The quotient stage at row `o`, column `i` is the specification's gated update: the magnitude of the row times
    (one times the rank-16 contraction), over one plus ten times the mask. -/
theorem v10_eq (o i : Fin 4096) :
    val_main_v10 (F := Ideal) x4 x5 x6 x7 (ix2 o i)
      = Cert.Spec.dw (fun o r => x5 (ix2 o r)) (fun r i => x4 (ix2 r i)) (fun o => x6 (ix1 o))
          (fun o i => x7 (ix2 o i)) o i := by
  rw [val_main_v10_apply, val_main_v5_apply, val_main_v4_apply, val_main_v3_apply, val_main_v2_apply,
    val_main_v1_apply, val_main_cst_apply, val_main_v0_apply, val_main_v9_apply, val_main_v8_apply,
    val_main_cst_1_apply, val_main_v7_apply, val_main_v6_apply, val_main_cst_0_apply]
  simp only [lidx0, ridx0, idx34, Ideal.hostDivf_def, Ideal.mulf_def, Ideal.addf_def, Ideal.ofBits_def,
    Cert.Spec.dw]

end

section
variable (x0 : Arr3) (x1 x2 : ArrW) (x3 : ArrV) (x4 : ArrA) (x5 : ArrB) (x6 : ArrV) (x7 : ArrW)

/-! ## The two total sums of squares -/

/-- The base weight's squares summed over both axes from zero: the specification's squared norm, whatever the
    scalar shape's index. -/
theorem ss0_eq (j : S_.Idx) :
    val_main_call0_v1 (F := Ideal) x1 j = Cert.Spec.ssW0 (fun o i => x1 (ix2 o i)) := by
  rw [val_main_call0_v1_apply, val_main_call0_cst_apply, Ideal.ofBits_def, Ideal.ofBits_zero_f32, zero_add,
    sum_idx2]
  rfl

/-- The gated update's squares summed over both axes from zero: the specification's squared norm of the update. -/
theorem ss1_eq (j : S_.Idx) :
    val_main_call1_v1 (F := Ideal) x4 x5 x6 x7 j
      = Cert.Spec.ssDw (fun o r => x5 (ix2 o r)) (fun r i => x4 (ix2 r i)) (fun o => x6 (ix1 o))
          (fun o i => x7 (ix2 o i)) := by
  rw [val_main_call1_v1_apply, val_main_call1_cst_apply, Ideal.ofBits_def, Ideal.ofBits_zero_f32, zero_add,
    sum_idx2]
  unfold Cert.Spec.ssDw
  refine Finset.sum_congr rfl fun o _ => Finset.sum_congr rfl fun i _ => ?_
  rw [val_main_call1_v0_apply, v10_eq, Ideal.mulf_def]

/-! ## The clamp factor -/

/-- The scalar chain of the reference (two square roots, the product with 0.15, the two comparisons and their
    conjunction, the maximum, the quotient, the selection against one) is the specification's chain applied to the two
    summed-square stages: the same operations in the same order on the same two arrays of the scalar shape. -/
theorem v19_eq :
    val_main_v19 (F := Ideal) x1 x4 x5 x6 x7
      = Cert.Spec.factorV (val_main_call0_v1 (F := Ideal) x1) (val_main_call1_v1 (F := Ideal) x4 x5 x6 x7) := by
  unfold val_main_v19 val_main_v16 val_main_v14 val_main_v15 val_main_v18 val_main_v17 val_main_v13 val_main_v12
    val_main_v11 val_main_call2_v0 val_main_cst_2 val_main_cst_3 val_main_cst_4 val_main_cst_5 Cert.Spec.factorV
  rfl

/-- The clamp factor read at the scalar shape's index is the specification's factor of the two squared norms. -/
theorem fac_eq (j : S_.Idx) :
    val_main_v19 (F := Ideal) x1 x4 x5 x6 x7 j
      = Cert.Spec.factor (Cert.Spec.ssW0 (fun o i => x1 (ix2 o i)))
          (Cert.Spec.ssDw (fun o r => x5 (ix2 o r)) (fun r i => x4 (ix2 r i)) (fun o => x6 (ix1 o))
            (fun o i => x7 (ix2 o i))) := by
  rw [v19_eq, (funext (ss0_eq x1) : val_main_call0_v1 (F := Ideal) x1 = fun _ => _),
    (funext (ss1_eq x4 x5 x6 x7) : val_main_call1_v1 (F := Ideal) x4 x5 x6 x7 = fun _ => _), eq_ix0 j]
  rfl

/-! ## The effective weight -/

/-- The effective-weight stage at row `o`, column `i`: base plus accumulated weight, plus the gated update times the
    clamp factor. -/
theorem v23_eq (o i : Fin 4096) :
    val_main_v23 (F := Ideal) x1 x2 x4 x5 x6 x7 (ix2 o i)
      = Cert.Spec.weff (fun o r => x5 (ix2 o r)) (fun r i => x4 (ix2 r i)) (fun o => x6 (ix1 o))
          (fun o i => x7 (ix2 o i)) (fun o i => x1 (ix2 o i)) (fun o i => x2 (ix2 o i))
          (Cert.Spec.factor (Cert.Spec.ssW0 (fun o i => x1 (ix2 o i)))
            (Cert.Spec.ssDw (fun o r => x5 (ix2 o r)) (fun r i => x4 (ix2 r i)) (fun o => x6 (ix1 o))
              (fun o i => x7 (ix2 o i)))) o i := by
  rw [val_main_v23_apply, val_main_v22_apply, val_main_v21_apply, val_main_v20_apply, v10_eq, fac_eq]
  rfl

/-! ## The result -/

/-- The last stage at `(b, s, o)`: the contraction of the activations' row with the effective weight's row `o`, plus the
    bias at `o`. -/
theorem v27_eq (b : Fin 4) (s : Fin 2048) (o : Fin 4096) :
    val_main_v27 (F := Ideal) x0 x1 x2 x3 x4 x5 x6 x7 (ix3 b s o)
      = Cert.Spec.result (fun b s i => x0 (ix3 b s i)) (fun o i => x1 (ix2 o i)) (fun o i => x2 (ix2 o i))
          (fun o => x3 (ix1 o)) (fun r i => x4 (ix2 r i)) (fun o r => x5 (ix2 o r)) (fun o => x6 (ix1 o))
          (fun o i => x7 (ix2 o i)) b s o := by
  rw [val_main_v27_apply, val_main_v24_apply, val_main_v26_apply, val_main_v25_apply]
  simp only [lidx24, ridx24, idx2526, v23_eq]
  rfl

end

/-- The reference's result at batch `b`, position `s`, output feature `o` is the specification's. -/
theorem result_eq (m : (ℓ : Loc nD τ sig) → Buf (Elt Ideal) ℓ) (c : Dev nD) (b : Fin 4) (s : Fin 2048) (o : Fin 4096) :
    (Cert.ReferenceIdeal.Value.res_out0 (F := Ideal) m c : S4x2048x4096.Idx → EReal) (ix3 b s o)
      = Cert.Spec.result
          (fun b s i => (m ((c.tc : Thread nD τ).loc main_arg0) : S4x2048x4096.Idx → EReal) (ix3 b s i))
          (fun o i => (m ((c.tc : Thread nD τ).loc main_arg1) : S4096x4096.Idx → EReal) (ix2 o i))
          (fun o i => (m ((c.tc : Thread nD τ).loc main_arg2) : S4096x4096.Idx → EReal) (ix2 o i))
          (fun o => (m ((c.tc : Thread nD τ).loc main_arg3) : S4096.Idx → EReal) (ix1 o))
          (fun r i => (m ((c.tc : Thread nD τ).loc main_arg4) : S16x4096.Idx → EReal) (ix2 r i))
          (fun o r => (m ((c.tc : Thread nD τ).loc main_arg5) : S4096x16.Idx → EReal) (ix2 o r))
          (fun o => (m ((c.tc : Thread nD τ).loc main_arg6) : S4096.Idx → EReal) (ix1 o))
          (fun o i => (m ((c.tc : Thread nD τ).loc main_arg7) : S4096x4096.Idx → EReal) (ix2 o i)) b s o :=
  (congrFun (Cert.ReferenceIdeal.Read.val_main_v27_eq (F := Ideal) m c) (ix3 b s o)).trans
    (v27_eq _ _ _ _ _ _ _ _ b s o)

end Cert.ReferenceIdeal.RefValue

end
-- ==== Proof.lean ====
/-
  The certificate of the layer y = x · (W0 + W_acc + factor · dw)ᵀ + bias, computed by three launches (the two squared
  norms; the effective weight; the tiled product) against the plain reference.

  Frames. The kernel program is three launches among host stretches; each launch's body is run at every grid point
  against proof data that name what every window's buffer holds after the point and what the scratch cells carry
  (Proof/K for the word-level program, Proof/KI for its idealization: one text, stated for every float instance), and
  the launch theorem for a program of several regions gives termination, no fault, and the arguments unchanged. The
  reference is a host program; its frame is its run with the result dropped.

  Preservation. The idealization rewrote nothing: the conjunct is `True`.

  Value. On the extended reals both programs compute the specification's function (Proof/Spec.lean): the kernel by
  Proof/KI/Final.lean (the three launches' arrays after their runs, chained through the host stretches), the reference
  by Proof/RefValue.lean (its run's term read stage by stage). The two sums of squares are the same double sums however
  they are blocked, the clamp factor is the same chain of operations on the same two numbers, and the contraction over
  4096 is the four partial contractions over 1024 added up from zero: addition on the extended reals is commutative and
  associative, and no other law is used, so the precondition is not opened.
-/
import proofs.«135257_j31001073942670_1_alg».proof.Defs
import proofs.«135257_j31001073942670_1_alg».proof.Proof.Gen.Kernel
import proofs.«135257_j31001073942670_1_alg».proof.Proof.Gen.KernelIdeal
import proofs.«135257_j31001073942670_1_alg».proof.Proof.Gen.ReferenceIdeal
import proofs.«135257_j31001073942670_1_alg».proof.Proof.Gen.Pre_finite_inputs
import proofs.«135257_j31001073942670_1_alg».proof.Proof.Gen.ReferenceIdeal.Run
import proofs.«135257_j31001073942670_1_alg».proof.Proof.K.Run
import proofs.«135257_j31001073942670_1_alg».proof.Proof.KI.Run
import proofs.«135257_j31001073942670_1_alg».proof.Proof.KI.Final
import proofs.«135257_j31001073942670_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Run.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals, from memories that agree on the arguments, both programs end with the specification's
    function of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V9 m (Cert.KernelIdeal.Run.outs m) c Cert.KernelIdeal.main_v18,
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  funext j
  obtain ⟨b, s, o, rfl⟩ : ∃ (b : Fin 4) (s : Fin 2048) (o : Fin 4096), j = ix3 b s o := ⟨j 0, j 1, j 2, eq_ix3 j⟩
  refine (Cert.ReferenceIdeal.RefValue.result_eq m' c b s o).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.KernelIdeal.Run.result_eq m c b s o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
